-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x64 : Shape := ⟨2, ![128, 64]⟩
abbrev S64 : Shape := ⟨1, ![64]⟩
abbrev S64x128 : Shape := ⟨2, ![64, 128]⟩
abbrev S128 : Shape := ⟨1, ![128]⟩
abbrev S2x1600000 : Shape := ⟨2, ![2, 1600000]⟩
abbrev S100000 : Shape := ⟨1, ![100000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S64x128 .f32) (main_arg5 : FVec F S64x128 .f32) (main_arg6 : FVec F S128 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x128 .f32 := Host.absf main_arg4
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64x128 .f32 := Host.absf main_arg5
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x128 .f32) (main_arg1 : FVec F S128x64 .f32) (main_arg2 : FVec F S128x64 .f32) (main_arg3 : FVec F S64 .f32) (main_arg4 : FVec F S64x128 .f32) (main_arg5 : FVec F S64x128 .f32) (main_arg6 : FVec F S128 .f32) (main_arg7 : IVec S2x1600000 32) (main_arg8 : IVec S100000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_v13 main_v16
-- ==== Kernel.lean ====
abbrev S100000x128 : Shape := ⟨2, ![100000, 128]⟩
abbrev S128x64 : Shape := ⟨2, ![128, 64]⟩
abbrev S64 : Shape := ⟨1, ![64]⟩
abbrev S64x128 : Shape := ⟨2, ![64, 128]⟩
abbrev S128 : Shape := ⟨1, ![128]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S100000x64 : Shape := ⟨2, ![100000, 64]⟩
abbrev S5000x128 : Shape := ⟨2, ![5000, 128]⟩
abbrev S5000x64 : Shape := ⟨2, ![5000, 64]⟩
abbrev S1600000x64 : Shape := ⟨2, ![1600000, 64]⟩
abbrev S1x64 : Shape := ⟨2, ![1, 64]⟩
abbrev S1x128 : Shape := ⟨2, ![1, 128]⟩
abbrev S2x512x128 : Shape := ⟨3, ![2, 512, 128]⟩
abbrev S2x512x1 : Shape := ⟨3, ![2, 512, 1]⟩
abbrev S5000x1 : Shape := ⟨2, ![5000, 1]⟩
abbrev S1x512x128 : Shape := ⟨3, ![1, 512, 128]⟩
abbrev S1x512x1 : Shape := ⟨3, ![1, 512, 1]⟩
abbrev S512x128 : Shape := ⟨2, ![512, 128]⟩
abbrev S512x1 : Shape := ⟨2, ![512, 1]⟩
abbrev S1x512 : Shape := ⟨2, ![1, 512]⟩
abbrev S5000x512 : Shape := ⟨2, ![5000, 512]⟩

abbrev nBuf : Space → Nat
  | .hbm => 76
  | .vmem => 30
  | .smem => 0
  | _ => 0

abbrev bufTy : (tb : Table) → Fin (tcTables nBuf tb) → BufTy
  | .hbm, ⟨0, _⟩ => ⟨S100000x128, .f32⟩
  | .hbm, ⟨1, _⟩ => ⟨S128x64, .f32⟩
  | .hbm, ⟨2, _⟩ => ⟨S128x64, .f32⟩
  | .hbm, ⟨3, _⟩ => ⟨S64, .f32⟩
  | .hbm, ⟨4, _⟩ => ⟨S64x128, .f32⟩
  | .hbm, ⟨5, _⟩ => ⟨S64x128, .f32⟩
  | .hbm, ⟨6, _⟩ => ⟨S128, .f32⟩
  | .hbm, ⟨7, _⟩ => ⟨S2x1600000, .i32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .f32⟩
  | .hbm, ⟨14, _⟩ => ⟨S1600000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000x1, .f32⟩
  | .hbm, ⟨23, _⟩ => ⟨S100000x64, .f32⟩
  | .hbm, ⟨24, _⟩ => ⟨S100000x64, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x64, .f32⟩
  | .hbm, ⟨34, _⟩ => ⟨S_, .f32⟩
  | .hbm, ⟨35, _⟩ => ⟨S100000x64, .f32⟩
  | .hbm, ⟨36, _⟩ => ⟨S1600000x1, .i32⟩
  | .hbm, ⟨37, _⟩ => ⟨S100000x64, .f32⟩
  | .hbm, ⟨38, _⟩ => ⟨S100000x64, .f32⟩
  | .hbm, ⟨39, _⟩ => ⟨S100000x64, .f32⟩
  | .hbm, ⟨40, _⟩ => ⟨S1x64, .f32⟩
  | .hbm, ⟨41, _⟩ => ⟨S100000x64, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x64, .f32⟩
  | .hbm, ⟨51, _⟩ => ⟨S_, .f32⟩
  | .hbm, ⟨52, _⟩ => ⟨S100000x64, .f32⟩
  | .hbm, ⟨53, _⟩ => ⟨S1600000x1, .i32⟩
  | .hbm, ⟨54, _⟩ => ⟨S100000x64, .f32⟩
  | .hbm, ⟨55, _⟩ => ⟨S100000x64, .f32⟩
  | .hbm, ⟨56, _⟩ => ⟨S100000x64, .f32⟩
  | .hbm, ⟨57, _⟩ => ⟨S100000x1, .i32⟩
  | .hbm, ⟨58, _⟩ => ⟨S1x128, .f32⟩
  | .hbm, ⟨59, _⟩ => ⟨S2x512x128, .f32⟩
  | .hbm, ⟨60, _⟩ => ⟨S2x512x1, .f32⟩
  | .hbm, ⟨61, _⟩ => ⟨S1x512x128, .f32⟩
  | .hbm, ⟨62, _⟩ => ⟨S512x128, .f32⟩
  | .hbm, ⟨63, _⟩ => ⟨S1x512x128, .f32⟩
  | .hbm, ⟨64, _⟩ => ⟨S512x128, .f32⟩
  | .hbm, ⟨65, _⟩ => ⟨S512x128, .f32⟩
  | .hbm, ⟨66, _⟩ => ⟨S1x512x1, .f32⟩
  | .hbm, ⟨67, _⟩ => ⟨S512x1, .f32⟩
  | .hbm, ⟨68, _⟩ => ⟨S1x512x1, .f32⟩
  | .hbm, ⟨69, _⟩ => ⟨S512x1, .f32⟩
  | .hbm, ⟨70, _⟩ => ⟨S512x1, .f32⟩
  | .hbm, ⟨71, _⟩ => ⟨S_, .f32⟩
  | .hbm, ⟨72, _⟩ => ⟨S512x1, .f32⟩
  | .hbm, ⟨73, _⟩ => ⟨S512x1, .f32⟩
  | .hbm, ⟨74, _⟩ => ⟨S512x128, .f32⟩
  | .hbm, ⟨75, _⟩ => ⟨S512x128, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S128x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S1x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x1, .i32⟩
  | .local _ .vmem, ⟨20, _⟩ => ⟨S5000x1, .i32⟩
  | .local _ .vmem, ⟨21, _⟩ => ⟨S64x128, .f32⟩
  | .local _ .vmem, ⟨22, _⟩ => ⟨S64x128, .f32⟩
  | .local _ .vmem, ⟨23, _⟩ => ⟨S1x128, .f32⟩
  | .local _ .vmem, ⟨24, _⟩ => ⟨S1x512x128, .f32⟩
  | .local _ .vmem, ⟨25, _⟩ => ⟨S1x512x128, .f32⟩
  | .local _ .vmem, ⟨26, _⟩ => ⟨S1x512x1, .f32⟩
  | .local _ .vmem, ⟨27, _⟩ => ⟨S1x512x1, .f32⟩
  | .local _ .vmem, ⟨28, _⟩ => ⟨S512x128, .f32⟩
  | .local _ .vmem, ⟨29, _⟩ => ⟨S512x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11_0 : Ref sig .tc := ⟨.hbm, 23, rfl⟩
abbrev main_v11_1 : Ref sig .tc := ⟨.hbm, 24, rfl⟩
abbrev main_c : Ref sig .tc := ⟨.hbm, 25, rfl⟩
abbrev main_v12 : Ref sig .tc := ⟨.hbm, 26, rfl⟩
abbrev main_v13 : Ref sig .tc := ⟨.hbm, 27, rfl⟩
abbrev main_c_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_4 : Ref sig .tc := ⟨.hbm, 42, rfl⟩
abbrev main_v26 : Ref sig .tc := ⟨.hbm, 43, rfl⟩
abbrev main_v27 : Ref sig .tc := ⟨.hbm, 44, rfl⟩
abbrev main_c_5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_6 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40_0 : Ref sig .tc := ⟨.hbm, 59, rfl⟩
abbrev main_v40_1 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_7 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc2_stg6_1 : Ref sig .tc := ⟨.vmem, 25, rfl⟩
abbrev cc2_stg7_0 : Ref sig .tc := ⟨.vmem, 26, rfl⟩
abbrev cc2_stg7_1 : Ref sig .tc := ⟨.vmem, 27, rfl⟩
abbrev cc2_scratch0 : Ref sig .tc := ⟨.vmem, 28, rfl⟩
abbrev cc2_scratch1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem3_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem4_0 : DmaSem sig := 22
abbrev cc2_sem5_0 : DmaSem sig := 23
abbrev cc2_sem6_0 : DmaSem sig := 24
abbrev cc2_sem6_1 : DmaSem sig := 25
abbrev cc2_sem7_0 : DmaSem sig := 26
abbrev cc2_sem7_1 : DmaSem sig := 27

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨2, ![2, 10], ![false, false]⟩

def k2_cond2 (i : grid2.Coords) : BitVec 1 :=
  let arg1 : BitVec 32 := BitVec.ofNat 32 (i 1).val
  let c9_i32 : BitVec 32 := 9#32
  let v43 : BitVec 1 := Scalar.cmpi .eq arg1 c9_i32
  let v44 : BitVec 32 := Scalar.extui v43
  let c0_i32_24 : BitVec 32 := 0#32
  let v45 : BitVec 1 := Scalar.cmpi .ne v44 c0_i32_24
  v45

def cc2_transform_0 (i : grid2.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc2_transform_1 (i : grid2.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc2_transform_2 (i : grid2.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_7 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S5000x1 .i32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 1 → Memref sig .tc .vmem S64x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S64x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 2 → Memref sig .tc .vmem S1x512x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, false]

abbrev stage2_7 : Fin 2 → Memref sig .tc .vmem S1x512x1 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  shapeCasts_S128_S1x128 : S128.ShapeCasts S1x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S1x512_d1_w32 : S1x512.Iotas .tc 32 [1]
  broadcasts_S5000x1_S5000x512 : S5000x1.Broadcasts S5000x512
  broadcasts_S1x512_S5000x512 : S1x512.Broadcasts S5000x512
  natLt_1_32 : 1 < 32
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  shapeCasts_S512x128_S1x512x128 : S512x128.ShapeCasts S1x512x128
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  shapeCasts_S512x1_S1x512x1 : S512x1.ShapeCasts S1x512x1
  slices_S2x512x128_S1x512x128_0_0_0 : S2x512x128.Slices ![0, 0, 0] S1x512x128
  slices_S2x512x128_S1x512x128_1_0_0 : S2x512x128.Slices ![1, 0, 0] S1x512x128
  slices_S2x512x1_S1x512x1_0_0_0 : S2x512x1.Slices ![0, 0, 0] S1x512x1
  slices_S2x512x1_S1x512x1_1_0_0 : S2x512x1.Slices ![1, 0, 0] S1x512x1
  bcast_S_S512x1 : S_.BroadcastsInDim S512x1 (![] : Fin 0 → Fin S512x1.rank)
  bcast_S512x1_S512x128_0_1 : S512x1.BroadcastsInDim S512x128 (![0, 1] : Fin 2 → Fin S512x128.rank)
  scatter_S100000_S1600000x1_S1600000_n_0_0_1_wf : ScatterDims.WF S100000 S1600000x1 S1600000 [] [0] [0] 1
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x128_S5000x128_1_0_0_1_n_n_wf : DotDims.WF S5000x64 S64x128 S5000x128 [1] [0] [0] [1] [] []
  dot_S5000x512_S5000x128_S512x128_0_0_1_1_n_n_wf : DotDims.WF S5000x512 S5000x128 S512x128 [0] [0] [1] [1] [] []
  dot_S5000x512_S5000x1_S512x1_0_0_1_1_n_n_wf : DotDims.WF S5000x512 S5000x1 S512x1 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S100000x64.size a
  hwx0_4 : ∀ i : grid0.Coords, EltTy.bits .f32 = 32 ∨ (Rect.block (s := S100000x64) S5000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .i32 = 32 ∨ (Rect.block (s := S100000x1) S5000x1.size (cc2_transform_2 i) (hinb2_2 i)).WholeWords (EltTy.packing .i32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x128.size a ≤ S64x128.size a
  hwx2_3 : ∀ i : grid2.Coords, EltTy.bits .f32 = 32 ∨ (Rect.block (s := S64x128) S64x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x128.size a ≤ S64x128.size a
  hwx2_4 : ∀ i : grid2.Coords, EltTy.bits .f32 = 32 ∨ (Rect.block (s := S64x128) S64x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1x512x128.size a ≤ S2x512x128.size a
  hwx2_6 : ∀ i : grid2.Coords, EltTy.bits .f32 = 32 ∨ (Rect.block (s := S2x512x128) S1x512x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1x512x1.size a ≤ S2x512x1.size a
  hwx2_7 : ∀ i : grid2.Coords, EltTy.bits .f32 = 32 ∨ (Rect.block (s := S2x512x1) S1x512x1.size (cc2_transform_7 i) (hinb2_7 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x512_S5000x128_S512x128_0_0_1_1_n_n : DotDims S5000x512 S5000x128 S512x128 where
  lhsContracting := [0]
  rhsContracting := [0]
  lhsNonContracting := [1]
  rhsNonContracting := [1]
  lhsBatch := []
  rhsBatch := []
  wf := dot_S5000x512_S5000x128_S512x128_0_0_1_1_n_n_wf
def dot_S5000x512_S5000x1_S512x1_0_0_1_1_n_n : DotDims S5000x512 S5000x1 S512x1 where
  lhsContracting := [0]
  rhsContracting := [0]
  lhsNonContracting := [1]
  rhsNonContracting := [1]
  lhsBatch := []
  rhsBatch := []
  wf := dot_S5000x512_S5000x1_S512x1_0_0_1_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11_0) S5000x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v11_1) S5000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v23) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11_1) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v25) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v37) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v25) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v38) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg4) S64x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg5) S64x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v39) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v40_0) S1x512x128.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v40_1) S1x512x1.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev idle2 : Fin 8 → grid2.Coords → Bool := fun | 0 => fun _ => false | 1 => fun _ => false | 2 => fun _ => false | 3 => fun _ => false | 4 => fun _ => false | 5 => fun _ => false | 6 => fun i => !(k2_cond2 i == 1#1) | 7 => fun i => !(k2_cond2 i == 1#1) | ⟨_ + 8, h⟩ => absurd h (Nat.not_lt.2 (Nat.le_add_left _ _))

class Facts : Prop extends Facts₀ where

variable [Facts]
-- ==== ReferenceIdeal.lean ====
abbrev S100000x128 : Shape := ⟨2, ![100000, 128]⟩
abbrev S128x64 : Shape := ⟨2, ![128, 64]⟩
abbrev S64 : Shape := ⟨1, ![64]⟩
abbrev S64x128 : Shape := ⟨2, ![64, 128]⟩
abbrev S128 : Shape := ⟨1, ![128]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000x1 : Shape := ⟨2, ![100000, 1]⟩
abbrev S100000x64 : Shape := ⟨2, ![100000, 64]⟩
abbrev S1x64 : Shape := ⟨2, ![1, 64]⟩
abbrev S1600000x64 : Shape := ⟨2, ![1600000, 64]⟩
abbrev S1x128 : Shape := ⟨2, ![1, 128]⟩
abbrev S512x128 : Shape := ⟨2, ![512, 128]⟩
abbrev S512 : Shape := ⟨1, ![512]⟩
abbrev S512x1 : Shape := ⟨2, ![512, 1]⟩

abbrev nBuf : Space → Nat
  | .hbm => 98
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x64, .f32⟩
  | .hbm, ⟨2, _⟩ => ⟨S128x64, .f32⟩
  | .hbm, ⟨3, _⟩ => ⟨S64, .f32⟩
  | .hbm, ⟨4, _⟩ => ⟨S64x128, .f32⟩
  | .hbm, ⟨5, _⟩ => ⟨S64x128, .f32⟩
  | .hbm, ⟨6, _⟩ => ⟨S128, .f32⟩
  | .hbm, ⟨7, _⟩ => ⟨S2x1600000, .i32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x128, .f32⟩
  | .hbm, ⟨22, _⟩ => ⟨S_, .f32⟩
  | .hbm, ⟨23, _⟩ => ⟨S100000x128, .f32⟩
  | .hbm, ⟨24, _⟩ => ⟨S1600000x1, .i32⟩
  | .hbm, ⟨25, _⟩ => ⟨S100000x128, .f32⟩
  | .hbm, ⟨26, _⟩ => ⟨S_, .f32⟩
  | .hbm, ⟨27, _⟩ => ⟨S1600000, .f32⟩
  | .hbm, ⟨28, _⟩ => ⟨S_, .f32⟩
  | .hbm, ⟨29, _⟩ => ⟨S100000, .f32⟩
  | .hbm, ⟨30, _⟩ => ⟨S1600000x1, .i32⟩
  | .hbm, ⟨31, _⟩ => ⟨S100000, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S100000x1, .f32⟩
  | .hbm, ⟨36, _⟩ => ⟨S100000x128, .f32⟩
  | .hbm, ⟨37, _⟩ => ⟨S100000x128, .f32⟩
  | .hbm, ⟨38, _⟩ => ⟨S100000x64, .f32⟩
  | .hbm, ⟨39, _⟩ => ⟨S100000x64, .f32⟩
  | .hbm, ⟨40, _⟩ => ⟨S100000x64, .f32⟩
  | .hbm, ⟨41, _⟩ => ⟨S1x64, .f32⟩
  | .hbm, ⟨42, _⟩ => ⟨S100000x64, .f32⟩
  | .hbm, ⟨43, _⟩ => ⟨S100000x64, .f32⟩
  | .hbm, ⟨44, _⟩ => ⟨S_, .f32⟩
  | .hbm, ⟨45, _⟩ => ⟨S100000x64, .f32⟩
  | .hbm, ⟨46, _⟩ => ⟨S100000x64, .f32⟩
  | .hbm, ⟨47, _⟩ => ⟨S1x1600000, .i32⟩
  | .hbm, ⟨48, _⟩ => ⟨S1600000, .i32⟩
  | .hbm, ⟨49, _⟩ => ⟨S1x1600000, .i32⟩
  | .hbm, ⟨50, _⟩ => ⟨S1600000, .i32⟩
  | .hbm, ⟨51, _⟩ => ⟨S_, .i32⟩
  | .hbm, ⟨52, _⟩ => ⟨S1600000, .i32⟩
  | .hbm, ⟨53, _⟩ => ⟨S1600000, .i1⟩
  | .hbm, ⟨54, _⟩ => ⟨S_, .i32⟩
  | .hbm, ⟨55, _⟩ => ⟨S1600000, .i32⟩
  | .hbm, ⟨56, _⟩ => ⟨S1600000, .i32⟩
  | .hbm, ⟨57, _⟩ => ⟨S1600000, .i32⟩
  | .hbm, ⟨58, _⟩ => ⟨S1600000x1, .i32⟩
  | .hbm, ⟨59, _⟩ => ⟨S1600000x64, .f32⟩
  | .hbm, ⟨60, _⟩ => ⟨S_, .f32⟩
  | .hbm, ⟨61, _⟩ => ⟨S100000x64, .f32⟩
  | .hbm, ⟨62, _⟩ => ⟨S1600000x1, .i32⟩
  | .hbm, ⟨63, _⟩ => ⟨S100000x64, .f32⟩
  | .hbm, ⟨64, _⟩ => ⟨S_, .f32⟩
  | .hbm, ⟨65, _⟩ => ⟨S1600000, .f32⟩
  | .hbm, ⟨66, _⟩ => ⟨S_, .f32⟩
  | .hbm, ⟨67, _⟩ => ⟨S100000, .f32⟩
  | .hbm, ⟨68, _⟩ => ⟨S1600000x1, .i32⟩
  | .hbm, ⟨69, _⟩ => ⟨S100000, .f32⟩
  | .hbm, ⟨70, _⟩ => ⟨S_, .f32⟩
  | .hbm, ⟨71, _⟩ => ⟨S100000, .f32⟩
  | .hbm, ⟨72, _⟩ => ⟨S100000, .f32⟩
  | .hbm, ⟨73, _⟩ => ⟨S100000x1, .f32⟩
  | .hbm, ⟨74, _⟩ => ⟨S100000x64, .f32⟩
  | .hbm, ⟨75, _⟩ => ⟨S100000x64, .f32⟩
  | .hbm, ⟨76, _⟩ => ⟨S100000x128, .f32⟩
  | .hbm, ⟨77, _⟩ => ⟨S100000x128, .f32⟩
  | .hbm, ⟨78, _⟩ => ⟨S100000x128, .f32⟩
  | .hbm, ⟨79, _⟩ => ⟨S1x128, .f32⟩
  | .hbm, ⟨80, _⟩ => ⟨S100000x128, .f32⟩
  | .hbm, ⟨81, _⟩ => ⟨S100000x128, .f32⟩
  | .hbm, ⟨82, _⟩ => ⟨S_, .f32⟩
  | .hbm, ⟨83, _⟩ => ⟨S512x128, .f32⟩
  | .hbm, ⟨84, _⟩ => ⟨S100000x1, .i32⟩
  | .hbm, ⟨85, _⟩ => ⟨S512x128, .f32⟩
  | .hbm, ⟨86, _⟩ => ⟨S_, .f32⟩
  | .hbm, ⟨87, _⟩ => ⟨S100000, .f32⟩
  | .hbm, ⟨88, _⟩ => ⟨S_, .f32⟩
  | .hbm, ⟨89, _⟩ => ⟨S512, .f32⟩
  | .hbm, ⟨90, _⟩ => ⟨S100000x1, .i32⟩
  | .hbm, ⟨91, _⟩ => ⟨S512, .f32⟩
  | .hbm, ⟨92, _⟩ => ⟨S_, .f32⟩
  | .hbm, ⟨93, _⟩ => ⟨S512, .f32⟩
  | .hbm, ⟨94, _⟩ => ⟨S512, .f32⟩
  | .hbm, ⟨95, _⟩ => ⟨S512x1, .f32⟩
  | .hbm, ⟨96, _⟩ => ⟨S512x128, .f32⟩
  | .hbm, ⟨97, _⟩ => ⟨S512x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_call0_cst : Ref sig .tc := ⟨.hbm, 44, rfl⟩
abbrev main_call0_v0 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_4 : Ref sig .tc := ⟨.hbm, 51, rfl⟩
abbrev main_v34 : Ref sig .tc := ⟨.hbm, 52, rfl⟩
abbrev main_v35 : Ref sig .tc := ⟨.hbm, 53, rfl⟩
abbrev main_c_5 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_6 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_7 : Ref sig .tc := ⟨.hbm, 64, rfl⟩
abbrev main_v44 : Ref sig .tc := ⟨.hbm, 65, rfl⟩
abbrev main_cst_8 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_9 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_10 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_11 : Ref sig .tc := ⟨.hbm, 86, rfl⟩
abbrev main_v62 : Ref sig .tc := ⟨.hbm, 87, rfl⟩
abbrev main_cst_12 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_13 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S512x128 : S_.BroadcastsInDim S512x128 (![] : Fin 0 → Fin S512x128.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x128_S100000x128_1_0_0_1_n_n_wf : DotDims.WF S100000x64 S64x128 S100000x128 [1] [0] [0] [1] [] []
  scatter_S512x128_S100000x1_S100000x128_1_0_0_1_wf : ScatterDims.WF S512x128 S100000x1 S100000x128 [1] [0] [0] 1
  scatter_S512_S100000x1_S100000_n_0_0_1_wf : ScatterDims.WF S512 S100000x1 S100000 [] [0] [0] 1

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf

class Facts : Prop extends Facts₀ where

variable [Facts]
-- ==== Proof.KiR0.lean ====
/-
  The first kernel region: one grid point t of twenty takes rows 5000·t … 5000·t + 4999 of the node features and both
  layer-one weight matrices, and writes the two products (features × left weights, features × right weights) of that row
  block into the same rows of its two result arrays. What a point leaves in each result's staging buffer is stated as a
  function of the three input blocks; the body's triple, the proof data over the arrays the region finds, and the body
  obligation at every point follow.
-/
import proofs.«400510_j11458972746403_3_alg».proof.Proof.KernelIdealLaunchP
import proofs.«400510_j11458972746403_3_alg».proof.Proof.Gen.KernelIdeal.Skeleton
import proofs.«400510_j11458972746403_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents the region is entered with: a parameter, instantiated when the regions are put in sequence
variable (V : (c : Dev nD) → (b : Ref sig .tc) → Buf (Elt F) ((c : Thread nD τ).loc b))

/-! ## Blocks -/

/-- The block of window `w` at grid point `t`, read off the array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rX0 : Rect S5000x128 := Rect.unit (s := S5000x128) ![0, 0] S5000x128.size inb_S5000x128_S5000x128_0_0
abbrev rW0 : Rect S128x64 := Rect.unit (s := S128x64) ![0, 0] S128x64.size inb_S128x64_S128x64_0_0
abbrev rO0 : Rect S5000x64 := Rect.unit (s := S5000x64) ![0, 0] S5000x64.size inb_S5000x64_S5000x64_0_0

/-- What a point leaves in the first result's buffer: the one store of the product with the left weights. -/
def outL0 (x : Vec F S5000x128 .f32) (wl : Vec F S128x64 .f32) : Vec F S5000x64 .f32 :=
  View.canon [⟨rO0, k0_pay2 (View.ld x rX0) (View.ld wl rW0)⟩]

/-- What a point leaves in the second result's buffer: the one store of the product with the right weights. -/
def outR0 (x : Vec F S5000x128 .f32) (wr : Vec F S128x64 .f32) : Vec F S5000x64 .f32 :=
  View.canon [⟨rO0, k0_pay3 (View.ld x rX0) (View.ld wr rW0)⟩]

theorem coverO0 (p0 : Vec F S5000x64 .f32) (y : S5000x64.Idx) :
    ∃ pc ∈ ([⟨rO0, p0⟩] : List (View.Piece (Elt F) S5000x64 .f32)), y ∈ pc.1.set :=
  View.cover_of_tiled [⟨rO0, p0⟩] S5000x64.size (by rfl) y

/-! ## The body's triple -/

set_option maxHeartbeats 1000000 in
theorem kernel0_triple (c : Dev nD) (E : Set ℕ) (i : grid0.Coords)
    (arg1 : Memref sig .tc .vmem S5000x128 .f32) (harg1 : arg1.IsWhole) (arg2 : Memref sig .tc .vmem S128x64 .f32) (harg2 : arg2.IsWhole)
    (arg3 : Memref sig .tc .vmem S128x64 .f32) (harg3 : arg3.IsWhole) (arg4 : Memref sig .tc .vmem S5000x64 .f32) (harg4 : arg4.IsWhole)
    (arg5 : Memref sig .tc .vmem S5000x64 .f32) (harg5 : arg5.IsWhole)
    (x : Vec F S5000x128 .f32) (wl wr : Vec F S128x64 .f32) (K : PUnit → sProp 𝕄) :
    iprop(owns (c : Thread nD τ) arg1 fullShare x ∗ owns (c : Thread nD τ) arg2 fullShare wl ∗ owns (c : Thread nD τ) arg3 fullShare wr
        ∗ (∃ d, owns (c : Thread nD τ) arg4 fullShare d) ∗ (∃ d, owns (c : Thread nD τ) arg5 fullShare d)
        ∗ (iprop(owns (c : Thread nD τ) arg1 fullShare x ∗ owns (c : Thread nD τ) arg2 fullShare wl ∗ owns (c : Thread nD τ) arg3 fullShare wr
            ∗ owns (c : Thread nD τ) arg4 fullShare (outL0 x wl) ∗ owns (c : Thread nD τ) arg5 fullShare (outR0 x wr)) -∗ K ⟨⟩))
      ⊢ wp frame (wpE (defs₀ (F := F)) Variants.none c none) E (cc0__proj_kernel i arg1 harg1 arg2 harg2 arg3 harg3 arg4 harg4 arg5 harg5) K := by
  simp only [cc0__proj_kernel_eq_skeleton]; unfold cc0__proj_kernel_skel
  unfold owns
  iintro ⟨⟨%f1, %hf1, H1⟩, ⟨%f2, %hf2, H2⟩, ⟨%f3, %hf3, H3⟩, ⟨%d4, %f4, -, H4⟩, ⟨%d5, %f5, -, H5⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (coverO0 _)
  iexists _; isplitr
  swap; · iexact H5
  ipureintro
  exact View.read_writes_eq_canon _ _ _ (coverO0 _)

/-! ## The proof data -/

/-- The region's proof data on core `c`: the arrays as the region finds them; after the body at point `t` each input's
    buffer still holds its block and each result's buffer the product of the point's row block with its weights; the
    invariant is the scoped rest and the generator register, untouched; nothing is owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => outL0 (blk0 V c 0 t) (blk0 V c 1 t)
    | ⟨4, _⟩ => outR0 (blk0 V c 0 t) (blk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = outL0 (blk0 V c 0 t) (blk0 V c 1 t) := by dsimp only [dat0]
theorem after0_4 (c : Dev nD) (t : Fin cfg0.N) : (dat0 V c).after 4 t = outR0 (blk0 V c 0 t) (blk0 V c 2 t) := by dsimp only [dat0]

/-- An input's staging buffer holds its block at every point. The body leaves an input's buffer as it found it, so
    whether the point fetched the block or an earlier point did (the two weight matrices are fetched once: their block
    index never moves) the buffer holds what a fetch there would put in it; and no window of this region is cut, so
    that is the whole block. Both steps are the definitions unfolded. -/
theorem before0_0 (c : Dev nD) (t : Fin cfg0.N) (d) : (dat0 V c).before 0 t d = blk0 V c 0 t := by
  rw [(dat0 V c).before_in_eq_fetched 0 rfl (fun _ => rfl) (fun _ _ _ => rfl) (fun _ => rfl) t d]
  rfl
theorem before0_1 (c : Dev nD) (t : Fin cfg0.N) (d) : (dat0 V c).before 1 t d = blk0 V c 1 t := by
  rw [(dat0 V c).before_in_eq_fetched 1 rfl (fun _ => rfl) (fun _ _ _ => rfl) (fun _ => rfl) t d]
  rfl
theorem before0_2 (c : Dev nD) (t : Fin cfg0.N) (d) : (dat0 V c).before 2 t d = blk0 V c 2 t := by
  rw [(dat0 V c).before_in_eq_fetched 2 rfl (fun _ => rfl) (fun _ _ _ => rfl) (fun _ => rfl) t d]
  rfl

/-! ## The body at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- At any point the inputs' buffers hold their blocks, so the triple applies; the invariant and what the core owes
    pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (kernel0_triple c Set.univ _ _ _ _ _ _ _ _ _ _ _ (blk0 V c 0 t) (blk0 V c 1 t) (blk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KiR1.lean ====
/-
  The second kernel region: one grid point t of twenty takes rows 5000·t … 5000·t + 4999 of the neighbour mean and of the
  root projection, and the bias row, and writes max(mean + root + bias, 0) into the same rows of the hidden features.
  What a point leaves in the result's staging buffer is a function of the three input blocks; the body's triple, the proof
  data over the arrays the region finds, and the body obligation at every point follow.
-/
import proofs.«400510_j11458972746403_3_alg».proof.Proof.KernelIdealLaunchP
import proofs.«400510_j11458972746403_3_alg».proof.Proof.Gen.KernelIdeal.Skeleton
import proofs.«400510_j11458972746403_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents the region is entered with: a parameter, instantiated when the regions are put in sequence
variable (V : (c : Dev nD) → (b : Ref sig .tc) → Buf (Elt F) ((c : Thread nD τ).loc b))

/-! ## Blocks -/

/-- The block of window `w` at grid point `t`, read off the array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rH1 : Rect S5000x64 := Rect.unit (s := S5000x64) ![0, 0] S5000x64.size inb_S5000x64_S5000x64_0_0
abbrev rB1 : Rect S1x64 := Rect.unit (s := S1x64) ![0, 0] S1x64.size inb_S1x64_S1x64_0_0

/-- What a point leaves in the result's buffer: the one store of the rectified sum. -/
def outH1 (mn xr : Vec F S5000x64 .f32) (b : Vec F S1x64 .f32) : Vec F S5000x64 .f32 :=
  View.canon [⟨rH1, k1_pay1 (View.ld mn rH1) (View.ld xr rH1) (View.ld b rB1)⟩]

theorem coverH1 (p0 : Vec F S5000x64 .f32) (y : S5000x64.Idx) :
    ∃ pc ∈ ([⟨rH1, p0⟩] : List (View.Piece (Elt F) S5000x64 .f32)), y ∈ pc.1.set :=
  View.cover_of_tiled [⟨rH1, p0⟩] S5000x64.size (by rfl) y

/-! ## The body's triple -/

set_option maxHeartbeats 1000000 in
theorem kernel1_triple (c : Dev nD) (E : Set ℕ) (i : grid1.Coords)
    (arg1 : Memref sig .tc .vmem S5000x64 .f32) (harg1 : arg1.IsWhole) (arg2 : Memref sig .tc .vmem S5000x64 .f32) (harg2 : arg2.IsWhole)
    (arg3 : Memref sig .tc .vmem S1x64 .f32) (harg3 : arg3.IsWhole) (arg4 : Memref sig .tc .vmem S5000x64 .f32) (harg4 : arg4.IsWhole)
    (mn xr : Vec F S5000x64 .f32) (b : Vec F S1x64 .f32) (K : PUnit → sProp 𝕄) :
    iprop(owns (c : Thread nD τ) arg1 fullShare mn ∗ owns (c : Thread nD τ) arg2 fullShare xr ∗ owns (c : Thread nD τ) arg3 fullShare b
        ∗ (∃ d, owns (c : Thread nD τ) arg4 fullShare d)
        ∗ (iprop(owns (c : Thread nD τ) arg1 fullShare mn ∗ owns (c : Thread nD τ) arg2 fullShare xr ∗ owns (c : Thread nD τ) arg3 fullShare b
            ∗ owns (c : Thread nD τ) arg4 fullShare (outH1 mn xr b)) -∗ K ⟨⟩))
      ⊢ wp frame (wpE (defs₀ (F := F)) Variants.none c none) E (cc1__sage1_kernel i arg1 harg1 arg2 harg2 arg3 harg3 arg4 harg4) K := by
  simp only [cc1__sage1_kernel_eq_skeleton]; unfold cc1__sage1_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (coverH1 _)

/-! ## The proof data -/

/-- The region's proof data on core `c`: the arrays as the region finds them; after the body at point `t` each input's
    buffer still holds its block and the result's buffer the rectified sum of the point's blocks; the invariant is the
    scoped rest and the generator register, untouched; nothing is owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => outH1 (blk1 V c 0 t) (blk1 V c 1 t) (blk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) :
    (dat1 V c).after 3 t = outH1 (blk1 V c 0 t) (blk1 V c 1 t) (blk1 V c 2 t) := by dsimp only [dat1]

/-- An input's staging buffer holds its block at every point: the body leaves it as found, so fetched at this point or
    at an earlier one (the bias row is fetched once) it holds what a fetch there puts in it, and no window here is cut. -/
theorem before1_0 (c : Dev nD) (t : Fin cfg1.N) (d) : (dat1 V c).before 0 t d = blk1 V c 0 t := by
  rw [(dat1 V c).before_in_eq_fetched 0 rfl (fun _ => rfl) (fun _ _ _ => rfl) (fun _ => rfl) t d]
  rfl
theorem before1_1 (c : Dev nD) (t : Fin cfg1.N) (d) : (dat1 V c).before 1 t d = blk1 V c 1 t := by
  rw [(dat1 V c).before_in_eq_fetched 1 rfl (fun _ => rfl) (fun _ _ _ => rfl) (fun _ => rfl) t d]
  rfl
theorem before1_2 (c : Dev nD) (t : Fin cfg1.N) (d) : (dat1 V c).before 2 t d = blk1 V c 2 t := by
  rw [(dat1 V c).before_in_eq_fetched 2 rfl (fun _ => rfl) (fun _ _ _ => rfl) (fun _ => rfl) t d]
  rfl

/-! ## The body at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- At any point the inputs' buffers hold their blocks, so the triple applies; the invariant and what the core owes
    pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (kernel1_triple c Set.univ _ _ _ _ _ _ _ _ _ (blk1 V c 0 t) (blk1 V c 1 t) (blk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KiR2.lean ====
/-
  The third kernel region: a pooled sum over twenty grid points, ten per core half. Point t has coordinates
  (t / 10, t % 10). From its six input blocks (two blocks of 5000 feature rows, the rows' 5000 segment ids, two weight
  matrices and a bias row) a point computes a 512 × 128 contribution (the one-hot matrix of the segment ids, transposed,
  times the transformed rows) and a 512 × 1 count contribution (the same one-hot matrix times a column of ones), and adds
  them into two accumulators that live in scratch memory and are CARRIED from point to point. A point with t % 10 = 0
  first clears both accumulators; a point with t % 10 = 9 copies them out into the two result blocks of its half, which
  are written back there and nowhere else.

  What the accumulators hold after each point is stated by recursion on the point, over the body's payload functions
  applied to the point's input blocks. The body's triple is stated once per case of its two conditionals; the proof
  data carries the accumulators' contents in its invariant; the body obligation follows by cases on t % 10.
-/
import proofs.«400510_j11458972746403_3_alg».proof.Proof.KernelIdealLaunchP
import proofs.«400510_j11458972746403_3_alg».proof.Proof.Gen.KernelIdeal.Skeleton
import proofs.«400510_j11458972746403_3_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Whole-buffer loads and stores

Every load and store of this kernel goes through the rectangle that is the whole buffer (zero offsets, the buffer's own
sizes). Such a load reads the contents; such a store, made last, leaves its payload whatever was stored before. -/

theorem zeroOff2 : (![0, 0] : Fin 2 → Nat) = fun _ => 0 := funext fun a => by fin_cases a <;> rfl
theorem zeroOff3 : (![0, 0, 0] : Fin 3 → Nat) = fun _ => 0 := funext fun a => by fin_cases a <;> rfl

/-- A load through the whole-buffer rectangle reads the buffer's contents. -/
theorem readAt_wholeRect {S : Shape} {e : EltTy} {κ : Kind} {sp : Space} (v : View sig κ sp S e) (f : v.ty.Contents (Elt F))
    {off : Fin S.rank → Nat} (h : off = fun _ => 0) (inb : ∀ a, off a + S.size a ≤ S.size a) :
    v.readAt (Elt F) (Rect.unit off S.size inb).toLoadRect f = v.read (Elt F) f :=
  View.ld_unit_zero h inb _

/-- After a last store through the whole-buffer rectangle the buffer reads as that store's payload. -/
theorem read_writes_wholeRect {S : Shape} {e : EltTy} {κ : Kind} {sp : Space} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

/-- A load through the whole-buffer rectangle after a last store through it reads that store's payload. -/
theorem readCov_wholeRect {S : Shape} {e : EltTy} {κ : Kind} {sp : Space} (v : View sig κ sp S e)
    {off : Fin S.rank → Nat} (h : off = fun _ => 0) (inb : ∀ a, off a + S.size a ≤ S.size a) (w : S.Idx → Elt F e)
    (L : List (View.Piece (Elt F) S e)) :
    v.readCov ((⟨Rect.unit off S.size inb, w⟩ : View.Piece (Elt F) S e) :: L) (Rect.unit off S.size inb).toLoadRect = w := by
  rw [View.readCov_eq_canon', View.canon_cons_unit_zero h inb w L]
  exact View.ld_unit_zero h inb w

/-! ## The branch conditions -/

/-- The first conditional's condition (second grid coordinate zero), as the body computes it. -/
abbrev cond2_0 (i : grid2.Coords) : Prop := (Scalar.cmpi .ne (Scalar.extui (Scalar.cmpi .eq (BitVec.ofNat 32 (i 1).val) 0#32)) 0#32) = 1#1
/-- The second conditional's condition (second grid coordinate nine). -/
abbrev cond2_1 (i : grid2.Coords) : Prop := k2_cond2 i = 1#1

/-! ## The body's triple, case by case

Over arbitrary whole memrefs: the six inputs hold `x0 … x5` and are left as found. The accumulators are named by
what they hold before (`a`, `n`; anything, where the body clears them first) and after. -/

set_option maxHeartbeats 1000000 in
/-- Second coordinate zero: the accumulators, whatever they held, are cleared and then receive the point's
    contributions. Nothing is copied out. -/
theorem kernel2_triple_first (c : Dev nD) (E : Set ℕ) (i : grid2.Coords) (hc0 : cond2_0 i) (hc1 : ¬cond2_1 i)
    (arg2 : Memref sig .tc .vmem S5000x64 .f32) (harg2 : arg2.IsWhole) (arg3 : Memref sig .tc .vmem S5000x64 .f32) (harg3 : arg3.IsWhole)
    (arg4 : Memref sig .tc .vmem S5000x1 .i32) (harg4 : arg4.IsWhole) (arg5 : Memref sig .tc .vmem S64x128 .f32) (harg5 : arg5.IsWhole)
    (arg6 : Memref sig .tc .vmem S64x128 .f32) (harg6 : arg6.IsWhole) (arg7 : Memref sig .tc .vmem S1x128 .f32) (harg7 : arg7.IsWhole)
    (arg8 : Memref sig .tc .vmem S1x512x128 .f32) (harg8 : arg8.IsWhole) (arg9 : Memref sig .tc .vmem S1x512x1 .f32) (harg9 : arg9.IsWhole)
    (arg10 : Memref sig .tc .vmem S512x128 .f32) (harg10 : arg10.IsWhole) (arg11 : Memref sig .tc .vmem S512x1 .f32) (harg11 : arg11.IsWhole)
    (x0 x1 : Vec F S5000x64 .f32) (x2 : Vec F S5000x1 .i32) (x3 x4 : Vec F S64x128 .f32) (x5 : Vec F S1x128 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
            ∗ owns (c : Thread nD τ) arg10 fullShare (k2_pay1 (k2_pay9 x0 x1 x3 x4 x5 x2 k2_pay5))
            ∗ owns (c : Thread nD τ) arg11 fullShare (k2_pay2 (k2_pay8 x2) k2_pay6)) -∗ K ⟨⟩))
      ⊢ wp frame (wpE (defs₀ (F := F)) Variants.none c none) E (cc2__sage2_pool_kernel i arg2 harg2 arg3 harg3 arg4 harg4 arg5 harg5 arg6 harg6 arg7 harg7 arg8 harg8 arg9 harg9 arg10 harg10 arg11 harg11) K := by
  simp only [cc2__sage2_pool_kernel_eq_skeleton]; unfold cc2__sage2_pool_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d10, %f10, -, H10⟩, ⟨%d11, %f11, -, H11⟩, Hk⟩
  subst hf0; subst hf1; subst hf2; subst hf3; subst hf4; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H10]
  · iexists _; isplitr
    swap; · iexact H10
    ipureintro
    refine (read_writes_wholeRect (S := S512x128) _ _ zeroOff2 _ _ _).trans ?_
    sl_unfold_run_names
    simp only [readAt_wholeRect (S := S5000x64) _ _ zeroOff2, readAt_wholeRect (S := S5000x1) _ _ zeroOff2, readAt_wholeRect (S := S64x128) _ _ zeroOff2, readAt_wholeRect (S := S1x128) _ _ zeroOff2, readAt_wholeRect (S := S512x128) _ _ zeroOff2, readAt_wholeRect (S := S512x1) _ _ zeroOff2, readCov_wholeRect (S := S512x128) _ zeroOff2, readCov_wholeRect (S := S512x1) _ zeroOff2, read_writes_wholeRect (S := S512x128) _ _ zeroOff2, read_writes_wholeRect (S := S512x1) _ _ zeroOff2]
  iexists _; isplitr
  swap; · iexact H11
  ipureintro
  refine (read_writes_wholeRect (S := S512x1) _ _ zeroOff2 _ _ _).trans ?_
  sl_unfold_run_names
  simp only [readAt_wholeRect (S := S5000x64) _ _ zeroOff2, readAt_wholeRect (S := S5000x1) _ _ zeroOff2, readAt_wholeRect (S := S64x128) _ _ zeroOff2, readAt_wholeRect (S := S1x128) _ _ zeroOff2, readAt_wholeRect (S := S512x128) _ _ zeroOff2, readAt_wholeRect (S := S512x1) _ _ zeroOff2, readCov_wholeRect (S := S512x128) _ zeroOff2, readCov_wholeRect (S := S512x1) _ zeroOff2, read_writes_wholeRect (S := S512x128) _ _ zeroOff2, read_writes_wholeRect (S := S512x1) _ _ zeroOff2]

set_option maxHeartbeats 1000000 in
/-- Second coordinate strictly between zero and nine: the accumulators receive the point's contributions on top of
    what they held. Nothing is copied out. -/
theorem kernel2_triple_mid (c : Dev nD) (E : Set ℕ) (i : grid2.Coords) (hc0 : ¬cond2_0 i) (hc1 : ¬cond2_1 i)
    (arg2 : Memref sig .tc .vmem S5000x64 .f32) (harg2 : arg2.IsWhole) (arg3 : Memref sig .tc .vmem S5000x64 .f32) (harg3 : arg3.IsWhole)
    (arg4 : Memref sig .tc .vmem S5000x1 .i32) (harg4 : arg4.IsWhole) (arg5 : Memref sig .tc .vmem S64x128 .f32) (harg5 : arg5.IsWhole)
    (arg6 : Memref sig .tc .vmem S64x128 .f32) (harg6 : arg6.IsWhole) (arg7 : Memref sig .tc .vmem S1x128 .f32) (harg7 : arg7.IsWhole)
    (arg8 : Memref sig .tc .vmem S1x512x128 .f32) (harg8 : arg8.IsWhole) (arg9 : Memref sig .tc .vmem S1x512x1 .f32) (harg9 : arg9.IsWhole)
    (arg10 : Memref sig .tc .vmem S512x128 .f32) (harg10 : arg10.IsWhole) (arg11 : Memref sig .tc .vmem S512x1 .f32) (harg11 : arg11.IsWhole)
    (x0 x1 : Vec F S5000x64 .f32) (x2 : Vec F S5000x1 .i32) (x3 x4 : Vec F S64x128 .f32) (x5 : Vec F S1x128 .f32)
    (a : Vec F S512x128 .f32) (n : Vec F S512x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg10 fullShare a ∗ owns (c : Thread nD τ) arg11 fullShare n
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
            ∗ owns (c : Thread nD τ) arg10 fullShare (k2_pay1 (k2_pay9 x0 x1 x3 x4 x5 x2 a))
            ∗ owns (c : Thread nD τ) arg11 fullShare (k2_pay2 (k2_pay8 x2) n)) -∗ K ⟨⟩))
      ⊢ wp frame (wpE (defs₀ (F := F)) Variants.none c none) E (cc2__sage2_pool_kernel i arg2 harg2 arg3 harg3 arg4 harg4 arg5 harg5 arg6 harg6 arg7 harg7 arg8 harg8 arg9 harg9 arg10 harg10 arg11 harg11) K := by
  simp only [cc2__sage2_pool_kernel_eq_skeleton]; unfold cc2__sage2_pool_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f10, %hf10, H10⟩, ⟨%f11, %hf11, H11⟩, Hk⟩
  subst hf0; subst hf1; subst hf2; subst hf3; subst hf4; subst hf5; subst hf10; subst hf11
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H10]
  · iexists _; isplitr
    swap; · iexact H10
    ipureintro
    refine (read_writes_wholeRect (S := S512x128) _ _ zeroOff2 _ _ _).trans ?_
    simp only [readAt_wholeRect (S := S5000x64) _ _ zeroOff2, readAt_wholeRect (S := S5000x1) _ _ zeroOff2, readAt_wholeRect (S := S64x128) _ _ zeroOff2, readAt_wholeRect (S := S1x128) _ _ zeroOff2, readAt_wholeRect (S := S512x128) _ _ zeroOff2, readAt_wholeRect (S := S512x1) _ _ zeroOff2, readCov_wholeRect (S := S512x128) _ zeroOff2, readCov_wholeRect (S := S512x1) _ zeroOff2, read_writes_wholeRect (S := S512x128) _ _ zeroOff2, read_writes_wholeRect (S := S512x1) _ _ zeroOff2]
  iexists _; isplitr
  swap; · iexact H11
  ipureintro
  refine (read_writes_wholeRect (S := S512x1) _ _ zeroOff2 _ _ _).trans ?_
  simp only [readAt_wholeRect (S := S5000x64) _ _ zeroOff2, readAt_wholeRect (S := S5000x1) _ _ zeroOff2, readAt_wholeRect (S := S64x128) _ _ zeroOff2, readAt_wholeRect (S := S1x128) _ _ zeroOff2, readAt_wholeRect (S := S512x128) _ _ zeroOff2, readAt_wholeRect (S := S512x1) _ _ zeroOff2, readCov_wholeRect (S := S512x128) _ zeroOff2, readCov_wholeRect (S := S512x1) _ zeroOff2, read_writes_wholeRect (S := S512x128) _ _ zeroOff2, read_writes_wholeRect (S := S512x1) _ _ zeroOff2]

set_option maxHeartbeats 1000000 in
/-- Second coordinate nine: the accumulators receive the point's contributions on top of what they held, and are then
    copied out, reshaped, into the two result buffers, whatever those held. -/
theorem kernel2_triple_last (c : Dev nD) (E : Set ℕ) (i : grid2.Coords) (hc0 : ¬cond2_0 i) (hc1 : cond2_1 i)
    (arg2 : Memref sig .tc .vmem S5000x64 .f32) (harg2 : arg2.IsWhole) (arg3 : Memref sig .tc .vmem S5000x64 .f32) (harg3 : arg3.IsWhole)
    (arg4 : Memref sig .tc .vmem S5000x1 .i32) (harg4 : arg4.IsWhole) (arg5 : Memref sig .tc .vmem S64x128 .f32) (harg5 : arg5.IsWhole)
    (arg6 : Memref sig .tc .vmem S64x128 .f32) (harg6 : arg6.IsWhole) (arg7 : Memref sig .tc .vmem S1x128 .f32) (harg7 : arg7.IsWhole)
    (arg8 : Memref sig .tc .vmem S1x512x128 .f32) (harg8 : arg8.IsWhole) (arg9 : Memref sig .tc .vmem S1x512x1 .f32) (harg9 : arg9.IsWhole)
    (arg10 : Memref sig .tc .vmem S512x128 .f32) (harg10 : arg10.IsWhole) (arg11 : Memref sig .tc .vmem S512x1 .f32) (harg11 : arg11.IsWhole)
    (x0 x1 : Vec F S5000x64 .f32) (x2 : Vec F S5000x1 .i32) (x3 x4 : Vec F S64x128 .f32) (x5 : Vec F S1x128 .f32)
    (a : Vec F S512x128 .f32) (n : Vec F S512x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d) ∗ (∃ d, owns (c : Thread nD τ) arg9 fullShare d)
        ∗ owns (c : Thread nD τ) arg10 fullShare a ∗ owns (c : Thread nD τ) arg11 fullShare n
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
            ∗ owns (c : Thread nD τ) arg8 fullShare (k2_pay3 (k2_pay1 (k2_pay9 x0 x1 x3 x4 x5 x2 a)))
            ∗ owns (c : Thread nD τ) arg9 fullShare (k2_pay4 (k2_pay2 (k2_pay8 x2) n))
            ∗ owns (c : Thread nD τ) arg10 fullShare (k2_pay1 (k2_pay9 x0 x1 x3 x4 x5 x2 a))
            ∗ owns (c : Thread nD τ) arg11 fullShare (k2_pay2 (k2_pay8 x2) n)) -∗ K ⟨⟩))
      ⊢ wp frame (wpE (defs₀ (F := F)) Variants.none c none) E (cc2__sage2_pool_kernel i arg2 harg2 arg3 harg3 arg4 harg4 arg5 harg5 arg6 harg6 arg7 harg7 arg8 harg8 arg9 harg9 arg10 harg10 arg11 harg11) K := by
  simp only [cc2__sage2_pool_kernel_eq_skeleton]; unfold cc2__sage2_pool_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d8, %f8, -, H8⟩, ⟨%d9, %f9, -, H9⟩, ⟨%f10, %hf10, H10⟩, ⟨%f11, %hf11, H11⟩, Hk⟩
  subst hf0; subst hf1; subst hf2; subst hf3; subst hf4; subst hf5; subst hf10; subst hf11
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H8]
  · iexists _; isplitr
    swap; · iexact H8
    ipureintro
    refine (read_writes_wholeRect (S := S1x512x128) _ _ zeroOff3 _ _ _).trans ?_
    sl_unfold_run_names
    simp only [readAt_wholeRect (S := S5000x64) _ _ zeroOff2, readAt_wholeRect (S := S5000x1) _ _ zeroOff2, readAt_wholeRect (S := S64x128) _ _ zeroOff2, readAt_wholeRect (S := S1x128) _ _ zeroOff2, readAt_wholeRect (S := S512x128) _ _ zeroOff2, readAt_wholeRect (S := S512x1) _ _ zeroOff2, readCov_wholeRect (S := S512x128) _ zeroOff2, readCov_wholeRect (S := S512x1) _ zeroOff2, read_writes_wholeRect (S := S512x128) _ _ zeroOff2, read_writes_wholeRect (S := S512x1) _ _ zeroOff2]
  isplitl [H9]
  · iexists _; isplitr
    swap; · iexact H9
    ipureintro
    refine (read_writes_wholeRect (S := S1x512x1) _ _ zeroOff3 _ _ _).trans ?_
    sl_unfold_run_names
    simp only [readAt_wholeRect (S := S5000x64) _ _ zeroOff2, readAt_wholeRect (S := S5000x1) _ _ zeroOff2, readAt_wholeRect (S := S64x128) _ _ zeroOff2, readAt_wholeRect (S := S1x128) _ _ zeroOff2, readAt_wholeRect (S := S512x128) _ _ zeroOff2, readAt_wholeRect (S := S512x1) _ _ zeroOff2, readCov_wholeRect (S := S512x128) _ zeroOff2, readCov_wholeRect (S := S512x1) _ zeroOff2, read_writes_wholeRect (S := S512x128) _ _ zeroOff2, read_writes_wholeRect (S := S512x1) _ _ zeroOff2]
  isplitl [H10]
  · iexists _; isplitr
    swap; · iexact H10
    ipureintro
    sl_unfold_run_names
    refine (read_writes_wholeRect (S := S512x128) _ _ zeroOff2 _ _ _).trans ?_
    simp only [readAt_wholeRect (S := S5000x64) _ _ zeroOff2, readAt_wholeRect (S := S5000x1) _ _ zeroOff2, readAt_wholeRect (S := S64x128) _ _ zeroOff2, readAt_wholeRect (S := S1x128) _ _ zeroOff2, readAt_wholeRect (S := S512x128) _ _ zeroOff2, readAt_wholeRect (S := S512x1) _ _ zeroOff2, readCov_wholeRect (S := S512x128) _ zeroOff2, readCov_wholeRect (S := S512x1) _ zeroOff2, read_writes_wholeRect (S := S512x128) _ _ zeroOff2, read_writes_wholeRect (S := S512x1) _ _ zeroOff2]
  iexists _; isplitr
  swap; · iexact H11
  ipureintro
  sl_unfold_run_names
  refine (read_writes_wholeRect (S := S512x1) _ _ zeroOff2 _ _ _).trans ?_
  simp only [readAt_wholeRect (S := S5000x64) _ _ zeroOff2, readAt_wholeRect (S := S5000x1) _ _ zeroOff2, readAt_wholeRect (S := S64x128) _ _ zeroOff2, readAt_wholeRect (S := S1x128) _ _ zeroOff2, readAt_wholeRect (S := S512x128) _ _ zeroOff2, readAt_wholeRect (S := S512x1) _ _ zeroOff2, readCov_wholeRect (S := S512x128) _ zeroOff2, readCov_wholeRect (S := S512x1) _ zeroOff2, read_writes_wholeRect (S := S512x128) _ _ zeroOff2, read_writes_wholeRect (S := S512x1) _ _ zeroOff2]

/-! ## The conditions in closed form, and where the result windows are idle -/

/-- The first condition holds at the points whose index is a multiple of ten: decided over the grid. -/
theorem hcond2_0 : ∀ t : Fin cfg2.N, cond2_0 (grid2.coords t) ↔ t.val % 10 = 0 :=
  (by decide +kernel : ∀ t : Fin grid2.N, cond2_0 (grid2.coords t) ↔ t.val % 10 = 0)
/-- The second condition holds at the points whose index is nine modulo ten. -/
theorem hcond2_1 : ∀ t : Fin cfg2.N, cond2_1 (grid2.coords t) ↔ t.val % 10 = 9 :=
  (by decide +kernel : ∀ t : Fin grid2.N, cond2_1 (grid2.coords t) ↔ t.val % 10 = 9)

/-- Away from the points nine modulo ten the two result windows are idle (the body stores nothing into them), -/
theorem idleAt2_6 : ∀ t : Fin cfg2.N, t.val % 10 ≠ 9 → cfg2.idle 6 (grid2.coords t) = true := by decide +kernel
theorem idleAt2_7 : ∀ t : Fin cfg2.N, t.val % 10 ≠ 9 → cfg2.idle 7 (grid2.coords t) = true := by decide +kernel
/-- and are not written back; -/
theorem noFlush2_6 (t : Fin cfg2.N) (h : t.val % 10 ≠ 9) : (cfg2.win 6).flush t = false :=
  Bool.eq_false_iff.mpr fun hf => h ((flush2_6 t).mp hf)
theorem noFlush2_7 (t : Fin cfg2.N) (h : t.val % 10 ≠ 9) : (cfg2.win 7).flush t = false :=
  Bool.eq_false_iff.mpr fun hf => h ((flush2_7 t).mp hf)
/-- at those points they are live. -/
theorem liveAt2_6 : ∀ t : Fin cfg2.N, t.val % 10 = 9 → cfg2.idle 6 (grid2.coords t) = false := by decide +kernel
theorem liveAt2_7 : ∀ t : Fin cfg2.N, t.val % 10 = 9 → cfg2.idle 7 (grid2.coords t) = false := by decide +kernel

/-! ## The accumulators as memrefs, and the region invariant around them -/

/-- The 512 × 128 accumulator: a whole scoped buffer of the kernel's own, passed beside the windows. -/
abbrev scA2 : Memref sig .tc .vmem S512x128 .f32 := Memref.whole cc2_scratch0
/-- The 512 × 1 count accumulator. -/
abbrev scN2 : Memref sig .tc .vmem S512x1 .f32 := Memref.whole cc2_scratch1

/-- The core's scoped buffers that are neither a staging buffer of this region nor one of the two accumulators (the
    other regions' staging buffers), each at some contents: carried through unopened. -/
abbrev others2 (c : Dev nD) : sProp 𝕄 :=
  Pipeline.scopedRestBut (Ix := Unit) (Name := ℕ) (U := UR sig nD τ) (Lvl := ℕ) (Val := Elt F) spec2 c [cc2_scratch0, cc2_scratch1]

/-- What the launch hands the region, with the two accumulators taken out as memrefs owned at some contents. -/
theorem PhiA2_eq (c : Dev nD) :
    (Pipeline.ΦA spec2 c : sProp 𝕄)
      = iprop((((∃ d, owns (c : Thread nD τ) scA2 fullShare d) ∗ (∃ d, owns (c : Thread nD τ) scN2 fullShare d)) ∗ others2 c) ∗ (∃ r, prngReg c r)) := by
  unfold Pipeline.ΦA
  rw [Pipeline.scopedRest_split_of_list spec2 c [cc2_scratch0, cc2_scratch1] (by decide) (by decide)]
  simp only [scA2, scN2, owns_whole]; rfl

-- the buffer contents the region is entered with: a parameter, instantiated when the regions are put in sequence
variable (V : (c : Dev nD) → (b : Ref sig .tc) → Buf (Elt F) ((c : Thread nD τ).loc b))

/-! ## Blocks -/

/-- The block of window `w` at grid point `t`, read off the array as the region finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The accumulation -/

/-- What the two accumulators (the 512 × 128 sums, the 512 × 1 counts) hold after the body at point `n`. At a point
    whose index is a multiple of ten they were just cleared, so they hold the point's contributions added to the
    cleared contents; at any other point, the contributions added to what the point before left. -/
def acc2 (c : Dev nD) : (n : ℕ) → n < cfg2.N → Vec F S512x128 .f32 × Vec F S512x1 .f32
  | 0, hn => ((k2_pay1 (k2_pay9 (blk2 V c 0 ⟨0, hn⟩) (blk2 V c 1 ⟨0, hn⟩) (blk2 V c 3 ⟨0, hn⟩) (blk2 V c 4 ⟨0, hn⟩) (blk2 V c 5 ⟨0, hn⟩) (blk2 V c 2 ⟨0, hn⟩) (k2_pay5 (F := F)))), (k2_pay2 (k2_pay8 (blk2 V c 2 ⟨0, hn⟩)) (k2_pay6 (F := F))))
  | n + 1, hn =>
    if (n + 1) % 10 = 0 then
      ((k2_pay1 (k2_pay9 (blk2 V c 0 ⟨n + 1, hn⟩) (blk2 V c 1 ⟨n + 1, hn⟩) (blk2 V c 3 ⟨n + 1, hn⟩) (blk2 V c 4 ⟨n + 1, hn⟩) (blk2 V c 5 ⟨n + 1, hn⟩) (blk2 V c 2 ⟨n + 1, hn⟩) (k2_pay5 (F := F)))), (k2_pay2 (k2_pay8 (blk2 V c 2 ⟨n + 1, hn⟩)) (k2_pay6 (F := F))))
    else
      ((k2_pay1 (k2_pay9 (blk2 V c 0 ⟨n + 1, hn⟩) (blk2 V c 1 ⟨n + 1, hn⟩) (blk2 V c 3 ⟨n + 1, hn⟩) (blk2 V c 4 ⟨n + 1, hn⟩) (blk2 V c 5 ⟨n + 1, hn⟩) (blk2 V c 2 ⟨n + 1, hn⟩) (acc2 c n (Nat.lt_of_succ_lt hn)).1)), (k2_pay2 (k2_pay8 (blk2 V c 2 ⟨n + 1, hn⟩)) (acc2 c n (Nat.lt_of_succ_lt hn)).2))

/-- At a point whose index is a multiple of ten: the contributions over the cleared accumulators. -/
theorem acc2_first (c : Dev nD) (t : Fin cfg2.N) (h : t.val % 10 = 0) :
    acc2 V c t.val t.isLt = ((k2_pay1 (k2_pay9 (blk2 V c 0 t) (blk2 V c 1 t) (blk2 V c 3 t) (blk2 V c 4 t) (blk2 V c 5 t) (blk2 V c 2 t) (k2_pay5 (F := F)))), (k2_pay2 (k2_pay8 (blk2 V c 2 t)) (k2_pay6 (F := F)))) := by
  obtain ⟨n, hn⟩ := t
  cases n with
  | zero => rfl
  | succ n => exact (if_pos h).trans rfl

/-- At any other point: the contributions over what the point before left. -/
theorem acc2_next (c : Dev nD) (t : Fin cfg2.N) (h : t.val % 10 ≠ 0) :
    acc2 V c t.val t.isLt = ((k2_pay1 (k2_pay9 (blk2 V c 0 t) (blk2 V c 1 t) (blk2 V c 3 t) (blk2 V c 4 t) (blk2 V c 5 t) (blk2 V c 2 t) (acc2 V c (t.val - 1) (Nat.lt_of_le_of_lt (Nat.sub_le _ _) t.isLt)).1)), (k2_pay2 (k2_pay8 (blk2 V c 2 t)) (acc2 V c (t.val - 1) (Nat.lt_of_le_of_lt (Nat.sub_le _ _) t.isLt)).2)) := by
  obtain ⟨n, hn⟩ := t
  cases n with
  | zero => exact absurd (Nat.zero_mod _) h
  | succ n => exact (if_neg h).trans rfl

/-- The region invariant before position `n`. Before the first point, what the launch hands over (both accumulators
    at anything); afterwards the accumulators at what the point before left in them, the other scoped buffers and
    the generator register untouched. -/
def Phi2 (c : Dev nD) : (n : ℕ) → n ≤ cfg2.N → sProp 𝕄
  | 0, _ => Pipeline.ΦA spec2 c
  | n + 1, hn => iprop(((owns (c : Thread nD τ) scA2 fullShare (acc2 V c n hn).1 ∗ owns (c : Thread nD τ) scN2 fullShare (acc2 V c n hn).2) ∗ others2 c) ∗ (∃ r, prngReg c r))

theorem Phi2_zero (c : Dev nD) (n : ℕ) (h : n ≤ cfg2.N) (hz : n = 0) : Phi2 V c n h = Pipeline.ΦA spec2 c := by
  subst hz; rfl

theorem Phi2_succ (c : Dev nD) (n : ℕ) (hn : n < cfg2.N) :
    Phi2 V c (n + 1) hn = iprop(((owns (c : Thread nD τ) scA2 fullShare (acc2 V c n hn).1 ∗ owns (c : Thread nD τ) scN2 fullShare (acc2 V c n hn).2) ∗ others2 c) ∗ (∃ r, prngReg c r)) := rfl

theorem Phi2_pos (c : Dev nD) (n : ℕ) (h : n ≤ cfg2.N) (hz : n ≠ 0) :
    Phi2 V c n h = iprop(((owns (c : Thread nD τ) scA2 fullShare (acc2 V c (n - 1) (by omega)).1 ∗ owns (c : Thread nD τ) scN2 fullShare (acc2 V c (n - 1) (by omega)).2) ∗ others2 c) ∗ (∃ r, prngReg c r)) := by
  cases n with
  | zero => exact absurd rfl hz
  | succ n => rfl

/-! ## The proof data -/

/-- The region's proof data on core `c`: the arrays as the region finds them; after the body at point `t` each
    input's buffer still holds its block, and each result's buffer the accumulator as it then stands, reshaped (what
    the body stores there at the points nine modulo ten, the only ones that write the results back; at the other
    points the result windows are idle and this entry is not consulted); the invariant carries the accumulators;
    nothing is owed; full shares. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => blk2 V c 3 t
    | ⟨4, _⟩ => blk2 V c 4 t
    | ⟨5, _⟩ => blk2 V c 5 t
    | ⟨6, _⟩ => k2_pay3 (acc2 V c t.val t.isLt).1
    | ⟨7, _⟩ => k2_pay4 (acc2 V c t.val t.isLt).2
  Φ t := Phi2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = blk2 V c 0 t := by dsimp only [dat2]
theorem after2_1 (c : Dev nD) (t : Fin cfg2.N) : (dat2 V c).after 1 t = blk2 V c 1 t := by dsimp only [dat2]
theorem after2_2 (c : Dev nD) (t : Fin cfg2.N) : (dat2 V c).after 2 t = blk2 V c 2 t := by dsimp only [dat2]
theorem after2_3 (c : Dev nD) (t : Fin cfg2.N) : (dat2 V c).after 3 t = blk2 V c 3 t := by dsimp only [dat2]
theorem after2_4 (c : Dev nD) (t : Fin cfg2.N) : (dat2 V c).after 4 t = blk2 V c 4 t := by dsimp only [dat2]
theorem after2_5 (c : Dev nD) (t : Fin cfg2.N) : (dat2 V c).after 5 t = blk2 V c 5 t := by dsimp only [dat2]
/-- At a point nine modulo ten the results' buffers hold the accumulators as they stand after it, reshaped. -/
theorem after2_6_last (c : Dev nD) (t : Fin cfg2.N) (h : t.val % 10 = 9) :
    (dat2 V c).after 6 t = k2_pay3 (acc2 V c t.val t.isLt).1 := by dsimp only [dat2]
theorem after2_7_last (c : Dev nD) (t : Fin cfg2.N) (h : t.val % 10 = 9) :
    (dat2 V c).after 7 t = k2_pay4 (acc2 V c t.val t.isLt).2 := by dsimp only [dat2]

/-- The invariant at a point's start, restated at the point's index. -/
theorem Phi2_castSucc (c : Dev nD) (t : Fin cfg2.N) :
    (dat2 V c).Φ t.castSucc = Phi2 V c t.val (Nat.le_of_lt t.isLt) := by
  dsimp only [dat2]; simp only [Fin.coe_castSucc]

/-- An input's staging buffer holds its block at every point: the body leaves it as found, so whether this point
    fetched the block or an earlier one did (the weights and the bias are fetched once: their block index never
    moves) the buffer holds what a fetch there would put in it; no window of this region is cut, so that is the
    whole block. -/
theorem before2_0 (c : Dev nD) (t : Fin cfg2.N) (d) : (dat2 V c).before 0 t d = blk2 V c 0 t := by
  rw [(dat2 V c).before_in_eq_fetched 0 rfl (fun _ => rfl) (fun _ _ _ => rfl) (fun _ => rfl) t d]
  rfl
theorem before2_1 (c : Dev nD) (t : Fin cfg2.N) (d) : (dat2 V c).before 1 t d = blk2 V c 1 t := by
  rw [(dat2 V c).before_in_eq_fetched 1 rfl (fun _ => rfl) (fun _ _ _ => rfl) (fun _ => rfl) t d]
  rfl
theorem before2_2 (c : Dev nD) (t : Fin cfg2.N) (d) : (dat2 V c).before 2 t d = blk2 V c 2 t := by
  rw [(dat2 V c).before_in_eq_fetched 2 rfl (fun _ => rfl) (fun _ _ _ => rfl) (fun _ => rfl) t d]
  rfl
theorem before2_3 (c : Dev nD) (t : Fin cfg2.N) (d) : (dat2 V c).before 3 t d = blk2 V c 3 t := by
  rw [(dat2 V c).before_in_eq_fetched 3 rfl (fun _ => rfl) (fun _ _ _ => rfl) (fun _ => rfl) t d]
  rfl
theorem before2_4 (c : Dev nD) (t : Fin cfg2.N) (d) : (dat2 V c).before 4 t d = blk2 V c 4 t := by
  rw [(dat2 V c).before_in_eq_fetched 4 rfl (fun _ => rfl) (fun _ _ _ => rfl) (fun _ => rfl) t d]
  rfl
theorem before2_5 (c : Dev nD) (t : Fin cfg2.N) (d) : (dat2 V c).before 5 t d = blk2 V c 5 t := by
  rw [(dat2 V c).before_in_eq_fetched 5 rfl (fun _ => rfl) (fun _ _ _ => rfl) (fun _ => rfl) t d]
  rfl

/-! ## The body at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ (dat2 V c).leavesExact 6 t
    ∗ (dat2 V c).leavesExact 7 t)

set_option maxHeartbeats 4000000 in
/-- The body at any point. The inputs' buffers hold their blocks; the index modulo ten says which of the three cases
    the point is in, and the invariant hands the body the accumulators: at anything where the body clears them first
    (before the very first point as the launch left them, at index ten as the first half left them), else at what the
    point before left. The case's triple applies and returns the accumulators at this point's contents, which is the
    invariant at the next position. Away from index nine modulo ten the result windows are idle and are handed back
    as found; there, they come back holding the accumulators. The core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl,
    show (dat2 V c).Φ t.succ = Phi2 V c (t.val + 1) t.isLt from rfl, Phi2_succ, Phi2_castSucc,
    after2_0, after2_1, after2_2, after2_3, after2_4, after2_5]
  have hN : t.val < 20 := lt_of_lt_of_eq t.isLt (show cfg2.N = 20 from N_2)
  by_cases h0 : t.val % 10 = 0
  · have h9 : t.val % 10 ≠ 9 := by omega
    rw [Dat.leavesExact_idle (dat2 V c) 6 t (idleAt2_6 t h9) (noFlush2_6 t h9),
      Dat.leavesExact_idle (dat2 V c) 7 t (idleAt2_7 t h9) (noFlush2_7 t h9), acc2_first V c t h0]
    by_cases hz : t.val = 0
    · rw [Phi2_zero V c _ _ hz, PhiA2_eq]
      iintro ⟨⟨⟨⟨HA, HN⟩, Hr⟩, Hg⟩, Ho, ⟨%d0, H0⟩, ⟨%d1, H1⟩, ⟨%d2, H2⟩, ⟨%d3, H3⟩, ⟨%d4, H4⟩, ⟨%d5, H5⟩, H6, H7⟩
      iapply (kernel2_triple_first c Set.univ _ ((hcond2_0 t).mpr h0) (fun h => h9 ((hcond2_1 t).mp h)) _ _ _ _ _ _ _ _ _ _ _ _ _ _ _ _ _ _ _ _
        (blk2 V c 0 t) (blk2 V c 1 t) (blk2 V c 2 t) (blk2 V c 3 t) (blk2 V c 4 t) (blk2 V c 5 t) _)
      isplitl [H0]; · iexact H0
      isplitl [H1]; · iexact H1
      isplitl [H2]; · iexact H2
      isplitl [H3]; · iexact H3
      isplitl [H4]; · iexact H4
      isplitl [H5]; · iexact H5
      isplitl [HA]; · iexact HA
      isplitl [HN]; · iexact HN
      iintro ⟨H0, H1, H2, H3, H4, H5, HA, HN⟩
      isplitl [HA HN Hr Hg]
      · isplitl [HA HN Hr]
        · isplitl [HA HN]
          · isplitl [HA]; · iexact HA
            iexact HN
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · rw [Phi2_pos V c _ _ hz]
      iintro ⟨⟨⟨⟨HA, HN⟩, Hr⟩, Hg⟩, Ho, ⟨%d0, H0⟩, ⟨%d1, H1⟩, ⟨%d2, H2⟩, ⟨%d3, H3⟩, ⟨%d4, H4⟩, ⟨%d5, H5⟩, H6, H7⟩
      iapply (kernel2_triple_first c Set.univ _ ((hcond2_0 t).mpr h0) (fun h => h9 ((hcond2_1 t).mp h)) _ _ _ _ _ _ _ _ _ _ _ _ _ _ _ _ _ _ _ _
        (blk2 V c 0 t) (blk2 V c 1 t) (blk2 V c 2 t) (blk2 V c 3 t) (blk2 V c 4 t) (blk2 V c 5 t) _)
      isplitl [H0]; · iexact H0
      isplitl [H1]; · iexact H1
      isplitl [H2]; · iexact H2
      isplitl [H3]; · iexact H3
      isplitl [H4]; · iexact H4
      isplitl [H5]; · iexact H5
      isplitl [HA]; · iexists _; iexact HA
      isplitl [HN]; · iexists _; iexact HN
      iintro ⟨H0, H1, H2, H3, H4, H5, HA, HN⟩
      isplitl [HA HN Hr Hg]
      · isplitl [HA HN Hr]
        · isplitl [HA HN]
          · isplitl [HA]; · iexact HA
            iexact HN
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
  · have hz : t.val ≠ 0 := fun e => h0 (by rw [e])
    by_cases h9 : t.val % 10 = 9
    · rw [show (dat2 V c).leavesExact 6 t = owns (c : Thread nD τ) (st2_6 t) fullShare ((dat2 V c).after 6 t) from by
          unfold Dat.leavesExact; rw [liveAt2_6 t h9],
        show (dat2 V c).leavesExact 7 t = owns (c : Thread nD τ) (st2_7 t) fullShare ((dat2 V c).after 7 t) from by
          unfold Dat.leavesExact; rw [liveAt2_7 t h9],
        after2_6_last V c t h9, after2_7_last V c t h9, acc2_next V c t h0, Phi2_pos V c _ _ hz]
      iintro ⟨⟨⟨⟨HA, HN⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (kernel2_triple_last c Set.univ _ (fun h => h0 ((hcond2_0 t).mp h)) ((hcond2_1 t).mpr h9) _ _ _ _ _ _ _ _ _ _ _ _ _ _ _ _ _ _ _ _
        (blk2 V c 0 t) (blk2 V c 1 t) (blk2 V c 2 t) (blk2 V c 3 t) (blk2 V c 4 t) (blk2 V c 5 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HA]; · iexact HA
      isplitl [HN]; · iexact HN
      iintro ⟨H0, H1, H2, H3, H4, H5, H6, H7, HA, HN⟩
      isplitl [HA HN Hr Hg]
      · isplitl [HA HN Hr]
        · isplitl [HA HN]
          · isplitl [HA]; · iexact HA
            iexact HN
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · rw [Dat.leavesExact_idle (dat2 V c) 6 t (idleAt2_6 t h9) (noFlush2_6 t h9),
        Dat.leavesExact_idle (dat2 V c) 7 t (idleAt2_7 t h9) (noFlush2_7 t h9), acc2_next V c t h0, Phi2_pos V c _ _ hz]
      iintro ⟨⟨⟨⟨HA, HN⟩, Hr⟩, Hg⟩, Ho, ⟨%d0, H0⟩, ⟨%d1, H1⟩, ⟨%d2, H2⟩, ⟨%d3, H3⟩, ⟨%d4, H4⟩, ⟨%d5, H5⟩, H6, H7⟩
      iapply (kernel2_triple_mid c Set.univ _ (fun h => h0 ((hcond2_0 t).mp h)) (fun h => h9 ((hcond2_1 t).mp h)) _ _ _ _ _ _ _ _ _ _ _ _ _ _ _ _ _ _ _ _
        (blk2 V c 0 t) (blk2 V c 1 t) (blk2 V c 2 t) (blk2 V c 3 t) (blk2 V c 4 t) (blk2 V c 5 t) _ _ _)
      isplitl [H0]; · iexact H0
      isplitl [H1]; · iexact H1
      isplitl [H2]; · iexact H2
      isplitl [H3]; · iexact H3
      isplitl [H4]; · iexact H4
      isplitl [H5]; · iexact H5
      isplitl [HA]; · iexact HA
      isplitl [HN]; · iexact HN
      iintro ⟨H0, H1, H2, H3, H4, H5, HA, HN⟩
      isplitl [HA HN Hr Hg]
      · isplitl [HA HN Hr]
        · isplitl [HA HN]
          · isplitl [HA]; · iexact HA
            iexact HN
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7

theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = Phi2 V c 0 (Nat.zero_le _) from rfl, Phi2_zero V c 0 _ rfl]

/-- After the last point the invariant gives back what the launch handed over: the accumulators' named contents are
    forgotten. -/
theorem hout2 (c : Dev nD) : (dat2 V c).Φ (Fin.last cfg2.N) ⊢ Pipeline.ΦA spec2 c := by
  have hN : (Fin.last cfg2.N).val ≠ 0 := by rw [Fin.val_last]; have : cfg2.N = 20 := N_2; omega
  rw [show (dat2 V c).Φ (Fin.last cfg2.N) = Phi2 V c (Fin.last cfg2.N).val (Nat.le_of_lt_succ (Fin.last cfg2.N).isLt) from rfl,
    Phi2_pos V c _ _ hN, PhiA2_eq]
  iintro ⟨⟨⟨HA, HN⟩, Hr⟩, Hg⟩
  isplitl [HA HN Hr]
  · isplitl [HA HN]
    · isplitl [HA]
      · iexists _; iexact HA
      iexists _; iexact HN
    iexact Hr
  iexact Hg

end Cert.KernelIdeal.Hand

end
-- ==== Proof.KiChain.lean ====
/-
  The buffer contents at each boundary of the program, by a fold from the launch memory: a stretch of host operations
  applies its operations; a kernel region replaces its arrays by what its write-backs leave and keeps every other buffer.
  A buffer that a stretch does not write, and an array a region only reads, pass through unchanged.
-/
import proofs.«400510_j11458972746403_3_alg».proof.Proof.KernelIdealLaunchP
import proofs.«400510_j11458972746403_3_alg».proof.Proof.Gen.KernelIdeal.Skeleton
import proofs.«400510_j11458972746403_3_alg».proof.Proof.Gen.KernelIdeal.Points
import proofs.«400510_j11458972746403_3_alg».proof.Proof.KernelIdealRegionsP
import proofs.«400510_j11458972746403_3_alg».proof.Proof.KiR0
import proofs.«400510_j11458972746403_3_alg».proof.Proof.KiR1
import proofs.«400510_j11458972746403_3_alg».proof.Proof.KiR2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at each boundary -/

/-- At launch. -/
abbrev W0 : Dev nD → Valuation τ sig (Elt F) := fun c b => m (c, b)
/-- After the first stretch of host operations. -/
abbrev W1 : Dev nD → Valuation τ sig (Elt F) := fun c => StableHlo.after hostOps0 (W0 m c)
abbrev U1 : (c : Dev nD) → (b : Ref sig .tc) → Buf (Elt F) ((c : Thread nD τ).loc b) := fun c b => W1 m c b

/-- After region 0: its arrays at what the region's write-backs leave, every other buffer as the region found it. -/
def W2 (c : Dev nD) : Valuation τ sig (Elt F) :=
  Pipeline.withArrays spec0 c (W1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem hF0 (c : Dev nD) (w : Fin cfg0.W) : (dat0 (U1 m) c).arrAt w cfg0.N = W2 m c (Pipeline.arrRef spec0 w) :=
  (W2_arr m c w).symm
theorem hrest0 (c : Dev nD) : ∀ b : Ref sig .tc, b ∉ Finset.univ.image (Pipeline.arrRef spec0) → W2 m c b = W1 m c b :=
  fun b hb => W2_of_ne m c b fun w e => hb (Finset.mem_image.mpr ⟨w, Finset.mem_univ _, e⟩)

/-- After the second stretch of host operations. -/
abbrev W3 : Dev nD → Valuation τ sig (Elt F) := fun c => StableHlo.after hostOps1 (W2 m c)
abbrev U3 : (c : Dev nD) → (b : Ref sig .tc) → Buf (Elt F) ((c : Thread nD τ).loc b) := fun c b => W3 m c b

/-- After region 1: its arrays at what the region's write-backs leave, every other buffer as the region found it. -/
def W4 (c : Dev nD) : Valuation τ sig (Elt F) :=
  Pipeline.withArrays spec1 c (W3 m c) fun w => (dat1 (U3 m) c).arrAt w cfg1.N
theorem W4_arr (c : Dev nD) (w : Fin cfg1.W) :
    W4 m c (Proc.devRef .tc (Pipeline.arrRef spec1 w)) = (dat1 (U3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
theorem hF1 (c : Dev nD) (w : Fin cfg1.W) : (dat1 (U3 m) c).arrAt w cfg1.N = W4 m c (Pipeline.arrRef spec1 w) :=
  (W4_arr m c w).symm
theorem hrest1 (c : Dev nD) : ∀ b : Ref sig .tc, b ∉ Finset.univ.image (Pipeline.arrRef spec1) → W4 m c b = W3 m c b :=
  fun b hb => W4_of_ne m c b fun w e => hb (Finset.mem_image.mpr ⟨w, Finset.mem_univ _, e⟩)

/-- After the third stretch of host operations. -/
abbrev W5 : Dev nD → Valuation τ sig (Elt F) := fun c => StableHlo.after hostOps2 (W4 m c)
abbrev U5 : (c : Dev nD) → (b : Ref sig .tc) → Buf (Elt F) ((c : Thread nD τ).loc b) := fun c b => W5 m c b

/-- After region 2: its arrays at what the region's write-backs leave, every other buffer as the region found it. -/
def W6 (c : Dev nD) : Valuation τ sig (Elt F) :=
  Pipeline.withArrays spec2 c (W5 m c) fun w => (dat2 (U5 m) c).arrAt w cfg2.N
theorem W6_arr (c : Dev nD) (w : Fin cfg2.W) :
    W6 m c (Proc.devRef .tc (Pipeline.arrRef spec2 w)) = (dat2 (U5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
theorem hF2 (c : Dev nD) (w : Fin cfg2.W) : (dat2 (U5 m) c).arrAt w cfg2.N = W6 m c (Pipeline.arrRef spec2 w) :=
  (W6_arr m c w).symm
theorem hrest2 (c : Dev nD) : ∀ b : Ref sig .tc, b ∉ Finset.univ.image (Pipeline.arrRef spec2) → W6 m c b = W5 m c b :=
  fun b hb => W6_of_ne m c b fun w e => hb (Finset.mem_image.mpr ⟨w, Finset.mem_univ _, e⟩)

/-- After the last stretch of host operations: what the program returns with. -/
abbrev W7 : Dev nD → Valuation τ sig (Elt F) := fun c => StableHlo.after hostOps3 (W6 m c)

/-! ## What passes through unchanged -/

/-- A buffer a stretch of host operations does not write holds after it what it held before. -/
theorem W1_keep (c : Dev nD) (r : Ref sig .tc) (h : r ∉ hostOps0_W) : W1 m c r = W0 m c r :=
  StableHlo.after_of_writes_sub hostOps0 _ hostOps0_writes h
theorem W3_keep (c : Dev nD) (r : Ref sig .tc) (h : r ∉ hostOps1_W) : W3 m c r = W2 m c r :=
  StableHlo.after_of_writes_sub hostOps1 _ hostOps1_writes h
theorem W5_keep (c : Dev nD) (r : Ref sig .tc) (h : r ∉ hostOps2_W) : W5 m c r = W4 m c r :=
  StableHlo.after_of_writes_sub hostOps2 _ hostOps2_writes h
theorem W7_keep (c : Dev nD) (r : Ref sig .tc) (h : r ∉ hostOps3_W) : W7 m c r = W6 m c r :=
  StableHlo.after_of_writes_sub hostOps3 _ hostOps3_writes h

/-- An input window's array leaves its region as it entered: the region only reads it. -/
theorem W2_in (c : Dev nD) (w : Fin cfg0.W) (hw : (cfg0.win w).isOut = false) :
    W2 m c (Proc.devRef .tc (Pipeline.arrRef spec0 w)) = W1 m c (Proc.devRef .tc (Pipeline.arrRef spec0 w)) :=
  (W2_arr m c w).trans (((dat0 (U1 m) c).arrAt_in w hw _).trans (A_eq0 (U1 m) c w))
theorem W4_in (c : Dev nD) (w : Fin cfg1.W) (hw : (cfg1.win w).isOut = false) :
    W4 m c (Proc.devRef .tc (Pipeline.arrRef spec1 w)) = W3 m c (Proc.devRef .tc (Pipeline.arrRef spec1 w)) :=
  (W4_arr m c w).trans (((dat1 (U3 m) c).arrAt_in w hw _).trans (A_eq1 (U3 m) c w))
theorem W6_in (c : Dev nD) (w : Fin cfg2.W) (hw : (cfg2.win w).isOut = false) :
    W6 m c (Proc.devRef .tc (Pipeline.arrRef spec2 w)) = W5 m c (Proc.devRef .tc (Pipeline.arrRef spec2 w)) :=
  (W6_arr m c w).trans (((dat2 (U5 m) c).arrAt_in w hw _).trans (A_eq2 (U5 m) c w))

end Cert.KernelIdeal.Hand

end
-- ==== Proof.KiRun.lean ====
/-
  The whole program as a sequence of segments — host operations, the first kernel region, host operations, the second
  region, host operations, the third region, host operations — each entered with the buffers at the contents the one
  before left. Every weakly fair execution ends with each unscoped buffer at the last boundary's contents; in
  particular every argument array ends as launched.
-/
import proofs.«400510_j11458972746403_3_alg».proof.Proof.KernelIdealLaunchP
import proofs.«400510_j11458972746403_3_alg».proof.Proof.Gen.KernelIdeal.Skeleton
import proofs.«400510_j11458972746403_3_alg».proof.Proof.Gen.KernelIdeal.Points
import proofs.«400510_j11458972746403_3_alg».proof.Proof.KiChain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and what rides beside the buffers -/

abbrev admK : (p : Fin 3) → (pcfgs (F := F) p).Adm := fun p => (cfgs p).toPCfg_adm

/-- Each region's proof data at the contents its region is entered with. -/
def pdats : (p : Fin 3) → (c : Dev nD) → Dat τ (Elt F) Unit ℕ (UR sig nD τ) ℕ (Pipeline.pin (pcfgs (F := F)) admK p) c
  | ⟨0, _⟩ => fun c => dat0 (U1 m) c
  | ⟨1, _⟩ => fun c => dat1 (U3 m) c
  | ⟨2, _⟩ => fun c => dat2 (U5 m) c

abbrev 𝒱K : Variants := Variants.none
abbrev LK : GSem nD τ sig → Finset Unit := fun _ => ∅
abbrev lvK : GSem nD τ sig → Unit → ℕ := fun _ _ => 0

/-- Beside the buffers: the core's generator register at some state, and the core owing nothing. -/
abbrev Rest (c : Dev nD) : sProp 𝕄 := iprop((∃ r, prngReg c r) ∗ ∃ W, owes (c : Thread nD τ) (0 : CellTallies nD τ sig Unit) W)

/-- A stretch of host operations as a segment, from the contents `W`. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱K LK lvK :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- Region 0 as a segment: entered with every unscoped buffer at the contents the segment before left, left with the
    region's arrays at what its write-backs leave and every other buffer as entered. The arrays are split out of the
    unscoped buffers at entry and put back at exit; the generator register goes into the region's invariant and comes
    back; the core owes nothing throughout; the kernel has no semaphore of its own. -/
def reg0 : Pipeline.RegionSeg (pcfgs (F := F)) admK (pdats m) () defs₀ 𝒱K LK lvK 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ LK lvK 0 fun _ _ => rfl
  pre c := iprop(StableHlo.held (c : Thread nD τ) (Pipeline.ucRefs τ sig) (W1 m c) ∗ Rest c)
  post c := iprop(StableHlo.held (c : Thread nD τ) (Pipeline.ucRefs τ sig) (W2 m c) ∗ Rest c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) admK (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admK (Ix := Unit) (Name := ℕ) (U := UR sig nD τ) (Lvl := ℕ)
      launch0.win launch0.arr_whole c (pdats m) ((pdats m 0 c).share_full fun _ => rfl)
      (U1 m c) (fun b => W2 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at the contents the segment before left, left with the
    region's arrays at what its write-backs leave and every other buffer as entered. The arrays are split out of the
    unscoped buffers at entry and put back at exit; the generator register goes into the region's invariant and comes
    back; the core owes nothing throughout; the kernel has no semaphore of its own. -/
def reg1 : Pipeline.RegionSeg (pcfgs (F := F)) admK (pdats m) () defs₀ 𝒱K LK lvK 1 where
  win := launch1.win.to₀
  block_pos := launch1.block_pos
  stage_whole := launch1.stage_whole
  K := PEmpty
  osem k := k.elim
  ho := Pipeline.OwnSemFacts.none _
  hbody c := (body_obligation1 (U3 m) c).loose
  hwaits := Pipeline.hwaits_of_owed_zero _ _ _ _ LK lvK 1 fun _ _ => rfl
  pre c := iprop(StableHlo.held (c : Thread nD τ) (Pipeline.ucRefs τ sig) (W3 m c) ∗ Rest c)
  post c := iprop(StableHlo.held (c : Thread nD τ) (Pipeline.ucRefs τ sig) (W4 m c) ∗ Rest c)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := Pipeline.arrays_of_unscopedBufs (p := 1) (pcfgs (F := F)) admK (pdats m) launch1.win launch1.arr_whole c
      ((pdats m 1 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admK (Ix := Unit) (Name := ℕ) (U := UR sig nD τ) (Lvl := ℕ)
      launch1.win launch1.arr_whole c (pdats m) ((pdats m 1 c).share_full fun _ => rfl)
      (U3 m c) (fun b => W4 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered with every unscoped buffer at the contents the segment before left, left with the
    region's arrays at what its write-backs leave and every other buffer as entered. The arrays are split out of the
    unscoped buffers at entry and put back at exit; the generator register goes into the region's invariant and comes
    back; the core owes nothing throughout; the kernel has no semaphore of its own. -/
def reg2 : Pipeline.RegionSeg (pcfgs (F := F)) admK (pdats m) () defs₀ 𝒱K LK lvK 2 where
  win := launch2.win.to₀
  block_pos := launch2.block_pos
  stage_whole := launch2.stage_whole
  K := PEmpty
  osem k := k.elim
  ho := Pipeline.OwnSemFacts.none _
  hbody c := (body_obligation2 (U5 m) c).loose
  hwaits := Pipeline.hwaits_of_owed_zero _ _ _ _ LK lvK 2 fun _ _ => rfl
  pre c := iprop(StableHlo.held (c : Thread nD τ) (Pipeline.ucRefs τ sig) (W5 m c) ∗ Rest c)
  post c := iprop(StableHlo.held (c : Thread nD τ) (Pipeline.ucRefs τ sig) (W6 m c) ∗ Rest c)
  X c := iprop(∃ r, prngReg c r)
  Y c := iprop(∃ r, prngReg c r)
  Z c := Pipeline.unscopedRest (Ix := Unit) (Name := ℕ) (U := UR sig nD τ) (Lvl := ℕ) spec2 c (U5 m c)
  hentry c := by
    rw [Pipeline.ownSems0_none]
    have hsplit := Pipeline.arrays_of_unscopedBufs (p := 2) (pcfgs (F := F)) admK (pdats m) launch2.win launch2.arr_whole c
      ((pdats m 2 c).share_full fun _ => rfl) (U5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 := hin2 (U5 m) c
    unfold Pipeline.ΦA at h1
    rw [show (pdats m 2 c).Φ 0 = (dat2 (U5 m) c).Φ 0 from rfl]
    iintro ⟨Hp, -, Hr⟩
    iapply h1
    isplitl [Hr]; · iexact Hr
    iexact Hp
  hout c := by
    have h1 := hout2 (U5 m) c
    unfold Pipeline.ΦA at h1
    rw [Pipeline.ownSems0_none, show (pdats m 2 c).Φ (Fin.last _) = (dat2 (U5 m) c).Φ (Fin.last cfg2.N) from rfl]
    iintro H
    ihave H' := h1 $$ H
    icases H' with ⟨Hr, Hp⟩
    isplitl [Hp]; · iexact Hp
    isplitr; · iempintro
    iexact Hr
  hexit c := by
    have hjoin := Pipeline.unscopedBufs_of_arrays (p := 2) (pcfgs (F := F)) admK (Ix := Unit) (Name := ℕ) (U := UR sig nD τ) (Lvl := ℕ)
      launch2.win launch2.arr_whole c (pdats m) ((pdats m 2 c).share_full fun _ => rfl)
      (U5 m c) (fun b => W6 m c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and its run -/

abbrev segsK : List (Pipeline.Seg (pcfgs (F := F)) admK (pdats m) () defs₀ 𝒱K LK lvK) :=
  [ .host (hostSeg hostOps0 hostOps0_sub hostOps0_fresh (W0 m)),
    .region (reg0 m),
    .host (hostSeg hostOps1 hostOps1_sub hostOps1_fresh (W2 m)),
    .region (reg1 m),
    .host (hostSeg hostOps2 hostOps2_sub hostOps2_fresh (W4 m)),
    .region (reg2 m),
    .host (hostSeg hostOps3 hostOps3_sub hostOps3_fresh (W6 m)) ]

theorem main_runK (c : Dev nD) : main (F := F) c = Pipeline.Seg.run (segsK m) := (main_chain c).trans (by chain_rfl)

set_option backward.isDefEq.respectTransparency.types false in
/-- Every weakly fair execution from memory `m` with zero counters terminates, nothing faulting, with every unscoped
    buffer of every core at the last boundary's contents. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W7 m c b) :=
  Pipeline.θ_run_regions_kit (pcfgs (F := F)) admK (pdats m) () cellOf_inj emb₁ defs₀ 𝒱K LK lvK m ρ main (segsK m)
    (fun c Q => by rw [main_runK m c])
    (by simp only [segsK, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rest c))
    (Tₙ := fun c => iprop(StableHlo.held (c : Thread nD τ) (Pipeline.ucRefs τ sig) (W7 m c) ∗ ∃ r, prngReg c r))
    (hch := ⟨fun _ => .rfl, fun _ => .rfl, fun _ => .rfl, fun _ => .rfl, fun _ => .rfl, fun _ => .rfl, fun _ => .rfl, fun c => by
      show (iprop(StableHlo.held (c : Thread nD τ) (Pipeline.ucRefs τ sig) (W7 m c) ∗ Rest c) : sProp 𝕄) ⊢ _
      iintro ⟨Hh, Hp, Ho⟩
      isplitl [Hh Hp]
      · isplitl [Hh]; · iexact Hh
        iexact Hp
      iexact Ho⟩)
    (hinit := by
      refine Pipeline.initEach LK lvK fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c => h c)

/-! ## The arguments end as launched -/

theorem W7_main_arg0 (c : Dev nD) : W7 m c (Proc.devRef .tc main_arg0) = m ((c : Thread nD τ).loc main_arg0) :=
  (W7_keep m c main_arg0 (by decide)).trans <| (W6_of_ne m c main_arg0 (by decide)).trans <| (W5_keep m c main_arg0 (by decide)).trans <|
    (W4_of_ne m c main_arg0 (by decide)).trans <| (W3_keep m c main_arg0 (by decide)).trans <| (W2_in m c 0 rfl).trans <|
    (W1_keep m c main_arg0 (by decide)).trans rfl
theorem W7_main_arg1 (c : Dev nD) : W7 m c (Proc.devRef .tc main_arg1) = m ((c : Thread nD τ).loc main_arg1) :=
  (W7_keep m c main_arg1 (by decide)).trans <| (W6_of_ne m c main_arg1 (by decide)).trans <| (W5_keep m c main_arg1 (by decide)).trans <|
    (W4_of_ne m c main_arg1 (by decide)).trans <| (W3_keep m c main_arg1 (by decide)).trans <| (W2_in m c 1 rfl).trans <|
    (W1_keep m c main_arg1 (by decide)).trans rfl
theorem W7_main_arg2 (c : Dev nD) : W7 m c (Proc.devRef .tc main_arg2) = m ((c : Thread nD τ).loc main_arg2) :=
  (W7_keep m c main_arg2 (by decide)).trans <| (W6_of_ne m c main_arg2 (by decide)).trans <| (W5_keep m c main_arg2 (by decide)).trans <|
    (W4_of_ne m c main_arg2 (by decide)).trans <| (W3_keep m c main_arg2 (by decide)).trans <| (W2_in m c 2 rfl).trans <|
    (W1_keep m c main_arg2 (by decide)).trans rfl
theorem W7_main_arg3 (c : Dev nD) : W7 m c (Proc.devRef .tc main_arg3) = m ((c : Thread nD τ).loc main_arg3) :=
  (W7_keep m c main_arg3 (by decide)).trans <| (W6_of_ne m c main_arg3 (by decide)).trans <| (W5_keep m c main_arg3 (by decide)).trans <|
    (W4_of_ne m c main_arg3 (by decide)).trans <| (W3_keep m c main_arg3 (by decide)).trans <| (W2_of_ne m c main_arg3 (by decide)).trans <|
    (W1_keep m c main_arg3 (by decide)).trans rfl
theorem W7_main_arg4 (c : Dev nD) : W7 m c (Proc.devRef .tc main_arg4) = m ((c : Thread nD τ).loc main_arg4) :=
  (W7_keep m c main_arg4 (by decide)).trans <| (W6_in m c 3 rfl).trans <| (W5_keep m c main_arg4 (by decide)).trans <|
    (W4_of_ne m c main_arg4 (by decide)).trans <| (W3_keep m c main_arg4 (by decide)).trans <| (W2_of_ne m c main_arg4 (by decide)).trans <|
    (W1_keep m c main_arg4 (by decide)).trans rfl
theorem W7_main_arg5 (c : Dev nD) : W7 m c (Proc.devRef .tc main_arg5) = m ((c : Thread nD τ).loc main_arg5) :=
  (W7_keep m c main_arg5 (by decide)).trans <| (W6_in m c 4 rfl).trans <| (W5_keep m c main_arg5 (by decide)).trans <|
    (W4_of_ne m c main_arg5 (by decide)).trans <| (W3_keep m c main_arg5 (by decide)).trans <| (W2_of_ne m c main_arg5 (by decide)).trans <|
    (W1_keep m c main_arg5 (by decide)).trans rfl
theorem W7_main_arg6 (c : Dev nD) : W7 m c (Proc.devRef .tc main_arg6) = m ((c : Thread nD τ).loc main_arg6) :=
  (W7_keep m c main_arg6 (by decide)).trans <| (W6_of_ne m c main_arg6 (by decide)).trans <| (W5_keep m c main_arg6 (by decide)).trans <|
    (W4_of_ne m c main_arg6 (by decide)).trans <| (W3_keep m c main_arg6 (by decide)).trans <| (W2_of_ne m c main_arg6 (by decide)).trans <|
    (W1_keep m c main_arg6 (by decide)).trans rfl
theorem W7_main_arg7 (c : Dev nD) : W7 m c (Proc.devRef .tc main_arg7) = m ((c : Thread nD τ).loc main_arg7) :=
  (W7_keep m c main_arg7 (by decide)).trans <| (W6_of_ne m c main_arg7 (by decide)).trans <| (W5_keep m c main_arg7 (by decide)).trans <|
    (W4_of_ne m c main_arg7 (by decide)).trans <| (W3_keep m c main_arg7 (by decide)).trans <| (W2_of_ne m c main_arg7 (by decide)).trans <|
    (W1_keep m c main_arg7 (by decide)).trans rfl
theorem W7_main_arg8 (c : Dev nD) : W7 m c (Proc.devRef .tc main_arg8) = m ((c : Thread nD τ).loc main_arg8) :=
  (W7_keep m c main_arg8 (by decide)).trans <| (W6_of_ne m c main_arg8 (by decide)).trans <| (W5_keep m c main_arg8 (by decide)).trans <|
    (W4_of_ne m c main_arg8 (by decide)).trans <| (W3_keep m c main_arg8 (by decide)).trans <| (W2_of_ne m c main_arg8 (by decide)).trans <|
    (W1_keep m c main_arg8 (by decide)).trans rfl

/-- Every weakly fair execution terminates, nothing faulting, with each argument array as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨
      (h c _ (mem_uc main_arg0 (by decide))).trans (W7_main_arg0 m c),
      (h c _ (mem_uc main_arg1 (by decide))).trans (W7_main_arg1 m c),
      (h c _ (mem_uc main_arg2 (by decide))).trans (W7_main_arg2 m c),
      (h c _ (mem_uc main_arg3 (by decide))).trans (W7_main_arg3 m c),
      (h c _ (mem_uc main_arg4 (by decide))).trans (W7_main_arg4 m c),
      (h c _ (mem_uc main_arg5 (by decide))).trans (W7_main_arg5 m c),
      (h c _ (mem_uc main_arg6 (by decide))).trans (W7_main_arg6 m c),
      (h c _ (mem_uc main_arg7 (by decide))).trans (W7_main_arg7 m c),
      (h c _ (mem_uc main_arg8 (by decide))).trans (W7_main_arg8 m c)⟩) (run_all m ρ)

end Cert.KernelIdeal.Hand

end
-- ==== Proof.Spec.lean ====
/-
  What both programs compute, as functions over abstract finite index types. A graph is three maps: each edge's source
  node, each edge's target node if it has one (an edge whose target index falls outside the node range contributes to no
  node), and each node's graph if it has one. A layer takes the mean over a node's incoming edges of the neighbours'
  features, multiplies it by one weight matrix, adds the node's own features times another and a bias. The two programs
  differ in the first layer only: one aggregates the projected features and divides, the other divides the aggregate
  and projects. The last step averages node rows per graph.
-/
import Idealize.ShloMosaic.PureOps.Ideal

noncomputable section

namespace Cert.Spec

open scoped BigOperators
open Idealize.ShloMosaic

variable {N E K J O G : Type} [Fintype N] [Fintype E] [Fintype K] [Fintype J] [Fintype O] [Fintype G]
  [DecidableEq N] [DecidableEq G]

/-- The number of edges into node `n`, at least one. -/
def deg (dst : E → Option N) (n : N) : EReal := max (∑ e : E, if dst e = some n then (1 : EReal) else 0) 1

/-- The sum over the edges into `n` of the source node's row. -/
def agg (src : E → N) (dst : E → Option N) (v : N → J → EReal) (n : N) (j : J) : EReal :=
  ∑ e : E, if dst e = some n then v (src e) j else 0

/-- Rows times a matrix. -/
def mm (a : N → K → EReal) (w : K → J → EReal) (n : N) (j : J) : EReal := ∑ k : K, a n k * w k j

/-- The mean over incoming edges (the quotient is the extended reals' `x · y⁻¹`; the divisor here is never zero). -/
def mean (src : E → N) (dst : E → Option N) (v : N → J → EReal) (n : N) (j : J) : EReal :=
  Ideal.div (agg src dst v n j) (deg dst n)

/-- First layer, projecting before aggregating: max(mean of (x·Wl) + x·Wr + b, 0). -/
def hiddenProjFirst (src : E → N) (dst : E → Option N) (x : N → K → EReal) (wl wr : K → J → EReal) (b : J → EReal)
    (n : N) (j : J) : EReal :=
  max (mean src dst (mm x wl) n j + mm x wr n j + b j) 0

/-- First layer, aggregating before projecting: max((mean of x)·Wl + x·Wr + b, 0). -/
def hiddenAggFirst (src : E → N) (dst : E → Option N) (x : N → K → EReal) (wl wr : K → J → EReal) (b : J → EReal)
    (n : N) (j : J) : EReal :=
  max (mm (mean src dst x) wl n j + mm x wr n j + b j) 0

/-- Second layer: (mean of h)·Wl + h·Wr + b. -/
def second (src : E → N) (dst : E → Option N) (h : N → J → EReal) (wl wr : J → O → EReal) (b : O → EReal)
    (n : N) (o : O) : EReal :=
  mm (mean src dst h) wl n o + mm h wr n o + b o

/-- The per-graph mean of node rows, an empty graph counted as one node. -/
def pool (seg : N → Option G) (v : N → O → EReal) (g : G) (o : O) : EReal :=
  Ideal.div (∑ n : N, if seg n = some g then v n o else 0) (max (∑ n : N, if seg n = some g then (1 : EReal) else 0) 1)

/-- The whole computation with the first layer projecting first. -/
def outProjFirst (src : E → N) (dst : E → Option N) (seg : N → Option G) (x : N → K → EReal) (wl1 wr1 : K → J → EReal)
    (b1 : J → EReal) (wl2 wr2 : J → O → EReal) (b2 : O → EReal) : G → O → EReal :=
  pool seg (second src dst (hiddenProjFirst src dst x wl1 wr1 b1) wl2 wr2 b2)

/-- The whole computation with the first layer aggregating first. -/
def outAggFirst (src : E → N) (dst : E → Option N) (seg : N → Option G) (x : N → K → EReal) (wl1 wr1 : K → J → EReal)
    (b1 : J → EReal) (wl2 wr2 : J → O → EReal) (b2 : O → EReal) : G → O → EReal :=
  pool seg (second src dst (hiddenAggFirst src dst x wl1 wr1 b1) wl2 wr2 b2)

end Cert.Spec

end
-- ==== Proof.Graph.lean ====
/-
  The graph both programs read off their integer inputs. The edge list is a [2, E] array of 32-bit words: row 0 names
  each edge's source node, a negative word wrapped once by adding the node count and the result clamped into the node
  range when it is read (a gather never reads outside its operand); row 1 names its target node, read signed and NOT
  clamped: an edge whose target word is outside the node range adds to no node. The node-to-graph array is read like a
  target. Arrays are read at entries by row and column.
-/
import Idealize.ShloMosaic.PureOps.Ideal
import Idealize.ShloMosaic.Lib.ValueIdx

noncomputable section

namespace Cert.Graph

open Idealize.ShloMosaic Idealize.ShloMosaic.ValueIdx

/-- Entry (p, q) of a two-axis array. -/
abbrev at2 {A B : Nat} (a : (⟨2, ![A, B]⟩ : Shape).Idx → EReal) (p : Fin A) (q : Fin B) : EReal := a (ix2 p q)
/-- Entry p of a one-axis array. -/
abbrev at1 {A : Nat} (a : (⟨1, ![A]⟩ : Shape).Idx → EReal) (p : Fin A) : EReal := a (ix1 p)

/-- The word naming edge `e`'s source node: row 0 of the edge list, a negative word wrapped by adding the node count. -/
def srcWord (ei : (⟨2, ![2, 1600000]⟩ : Shape).Idx → BitVec 32) (e : Fin 1600000) : BitVec 32 :=
  Scalar.select (IntOp.cmpi .slt (ei (ix2 (0 : Fin 2) e)) 0#32) (IntOp.addi (ei (ix2 (0 : Fin 2) e)) 100000#32) (ei (ix2 (0 : Fin 2) e))

/-- The word naming edge `e`'s target node: row 1 of the edge list. -/
def dstWord (ei : (⟨2, ![2, 1600000]⟩ : Shape).Idx → BitVec 32) (e : Fin 1600000) : BitVec 32 := ei (ix2 (1 : Fin 2) e)

/-- A word read as a row of an array of `n` rows, clamped into range. -/
def clampRow (n : Nat) (hn : 0 < n) (w : BitVec 32) : Fin n := ⟨min w.toInt.toNat (n - 1), by omega⟩

/-- A word read as a row of an array of `n` rows, none when it is outside the range. -/
def rowIn (n : Nat) (w : BitVec 32) : Option (Fin n) :=
  if h : 0 ≤ w.toInt ∧ w.toInt < (n : Int) then some ⟨w.toInt.toNat, by omega⟩ else none

/-- Edge `e`'s source node. -/
def src (ei : (⟨2, ![2, 1600000]⟩ : Shape).Idx → BitVec 32) (e : Fin 1600000) : Fin 100000 :=
  clampRow 100000 (by decide) (srcWord ei e)
/-- Edge `e`'s target node, if its word names one. -/
def dst (ei : (⟨2, ![2, 1600000]⟩ : Shape).Idx → BitVec 32) (e : Fin 1600000) : Option (Fin 100000) :=
  rowIn 100000 (dstWord ei e)
/-- Node `n`'s graph, if its word names one of the 512. -/
def seg (bi : (⟨1, ![100000]⟩ : Shape).Idx → BitVec 32) (n : Fin 100000) : Option (Fin 512) :=
  rowIn 512 (bi (ix1 n))

end Cert.Graph

end
-- ==== Proof.LibGatherScatterAt.lean ====
/-
  ROW GATHER AND SEGMENT SCATTER-ADD, READ AT AN INDEX.

  Two array operations, each read at one element.

  * The row gather `x[idx]` of a table `x : [N, C]` at `E` start indices `idx : [E, 1]`: element `(e, k)` of the
    result `[E, C]` is `x` at row `idx[e, 0]`, read as a signed integer and clamped into `[0, N − 1]`, column `k`
    (`rowOf`, `gather_rows_apply`).
  * The segment sum: the scatter with an `add` body of updates `upd : [E, C]` (or `[E]`) into an operand `[N, C]` (or
    `[N]`) at the same kind of indices. Update row `e` lands in operand row `idx[e, 0]`, read signed and NOT clamped: an
    index outside `[0, N)` drops the row (`segOf`, `rowScatter_resultIdx`, `vecScatter_resultIdx`). So element `(n, k)`
    of the result is the operand's plus the sum over the edges `e` whose segment is `n` of `upd[e, k]`
    (`hostScatterAdd_rows_apply`, `hostScatterAdd_vec_apply`).

  The sizes `N`, `C`, `E` and the index width `w` are arbitrary naturals throughout.
-/
import Idealize.ShloMosaic.PureOps.Ideal
import Idealize.ShloMosaic.PureOps.Ideal.Laws
import Idealize.ShloMosaic.Lib.ValueIdx

noncomputable section

open scoped BigOperators

namespace Idealize.ShloMosaic.GatherScatterAt

open Idealize.ShloMosaic Idealize.ShloMosaic.ValueIdx

/-! ## The row gather -/

/-- The dimension numbers of a row gather: operand `[N, C]`, start indices `[E, 1]`, result `[E, C]`. The result's
    axis 1 is the offset axis (a whole row of `C` columns is sliced), the operand's axis 0 is collapsed (slice size 1)
    and is the one the start index addresses; the index vector lies along the start indices' axis 1. -/
abbrev rowGatherDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row edge `e` reads: its start index `idx[e, 0]` as a signed integer, clamped into `[0, N − 1]`. -/
def rowOf {E w : Nat} (N : Nat) (hN : 0 < N) (idx : IVec ⟨2, ![E, 1]⟩ w) (e : Fin E) : Fin N :=
  ⟨min (idx (ix2 e (0 : Fin 1))).toInt.toNat (N - 1), by omega⟩

/-- THE ROW GATHER READ AT `(e, k)`: the table at the clamped row of edge `e`, column `k`. -/
theorem gather_rows_apply {α : Type} {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowGatherDims N C E wf) x idx (ix2 e k) = x (ix2 (rowOf N hN idx e) k) := by
  -- the operand index, axis by axis: the clamped row on axis 0, the column on axis 1
  have h0 : (rowGatherDims N C E wf).start (ix2 e k) idx (0 : Fin 2) + (rowGatherDims N C E wf).batchCoord (ix2 e k) (0 : Fin 2)
      + (rowGatherDims N C E wf).offCoord (ix2 e k) (0 : Fin 2) = (rowOf N hN idx e).val := by
    -- the row axis: no batching axis; collapsed, so no offset; the start is the clamped start index of edge `e`
    rw [GatherDims.batchCoord_eq_zero _ _ _ List.not_mem_nil, GatherDims.offCoord_eq_zero _ _ _
      (fun h => ((GatherDims.mem_sKept _ _).mp h).1 (List.mem_singleton.mpr rfl)), Nat.add_zero]
    unfold GatherDims.start
    rw [dif_pos (show (0 : Fin 2) ∈ ([0] : List (Fin 2)) from List.mem_singleton.mpr rfl)]
    have hsi : (rowGatherDims N C E wf).siIdx (ix2 e k) ⟨List.idxOf (0 : Fin 2) ([0] : List (Fin 2)),
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  have h1 : (rowGatherDims N C E wf).start (ix2 e k) idx (1 : Fin 2) + (rowGatherDims N C E wf).batchCoord (ix2 e k) (1 : Fin 2)
      + (rowGatherDims N C E wf).offCoord (ix2 e k) (1 : Fin 2) = k.val := by
    -- the column axis: the start index map does not name it, so the start is 0; the offset is the column `k`
    have hstart : (rowGatherDims N C E wf).start (ix2 e k) idx (1 : Fin 2) = 0 := by
      unfold GatherDims.start
      rw [dif_neg (show (1 : Fin 2) ∉ ([0] : List (Fin 2)) by decide)]
    have hoff : (rowGatherDims N C E wf).offCoord (ix2 e k) (1 : Fin 2) = k.val := by
      unfold GatherDims.offCoord
      rw [dif_pos (show (1 : Fin 2) ∈ (⟨2, ![N, C]⟩ : Shape).kept (([0] : List (Fin 2)) ++ []) from
        (GatherDims.mem_sKept (rowGatherDims N C E wf) 1).mpr
          ⟨(show (1 : Fin 2) ∉ ([0] : List (Fin 2)) by decide), List.not_mem_nil⟩)]
      rfl
    rw [GatherDims.batchCoord_eq_zero _ _ _ List.not_mem_nil, hstart, hoff, Nat.add_zero, Nat.zero_add]
  unfold Host.gather
  congr 1
  funext a
  refine Fin.ext ?_
  match a with
  | ⟨0, _⟩ => exact h0
  | ⟨1, _⟩ => exact h1

/-! ## The segment scatter -/

/-- The dimension numbers of a row scatter: operand `[N, C]`, scatter indices `[E, 1]`, updates `[E, C]`. The updates'
    axis 1 is the window axis (a whole row), the operand's axis 0 is the inserted one and the one the scatter index
    addresses; the index vector lies along the scatter indices' axis 1. -/
abbrev rowScatterDims (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The dimension numbers of a scatter of scalars: operand `[N]`, scatter indices `[E, 1]`, updates `[E]`; no window
    axis, the operand's one axis inserted and addressed by the scatter index. -/
abbrev vecScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The segment of edge `e`: its index `idx[e, 0]` read as a signed integer when that lies in `[0, N)`, and none
    otherwise (no clamping: an edge whose index is out of range contributes to no segment). -/
def segOf {E w : Nat} (N : Nat) (idx : IVec ⟨2, ![E, 1]⟩ w) (e : Fin E) : Option (Fin N) :=
  if h : 0 ≤ (idx (ix2 e (0 : Fin 1))).toInt ∧ (idx (ix2 e (0 : Fin 1))).toInt < (N : Int) then
    some ⟨(idx (ix2 e (0 : Fin 1))).toInt.toNat, by omega⟩
  else none

/-- Where update element `(e, k)` of a row scatter lands: row the segment of `e`, column `k`; nowhere when `e` has no
    segment. -/
theorem rowScatter_resultIdx {N C E w : Nat} (wf : ScatterDims.WF ⟨2, ![N, C]⟩ ⟨2, ![E, 1]⟩ ⟨2, ![E, C]⟩ [1] [0] [0] 1)
    (idx : IVec ⟨2, ![E, 1]⟩ w) (e : Fin E) (k : Fin C) :
    (rowScatterDims N C E wf).resultIdx? (ix2 e k) idx = (segOf N idx e).map (fun n => ix2 n k) := by
  -- the landing position, axis by axis: the signed start index on the row axis, the column `k` on the window axis
  have hs0 : (rowScatterDims N C E wf).start (ix2 e k) idx (0 : Fin 2) = (idx (ix2 e (0 : Fin 1))).toInt := by
    unfold ScatterDims.start
    rw [dif_pos (show (0 : Fin 2) ∈ ([0] : List (Fin 2)) from List.mem_singleton.mpr rfl)]
    have hsi : (rowScatterDims N C E wf).siIdx (ix2 e k) ⟨List.idxOf (0 : Fin 2) ([0] : List (Fin 2)),
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hs1 : (rowScatterDims N C E wf).start (ix2 e k) idx (1 : Fin 2) = 0 := by
    unfold ScatterDims.start
    rw [dif_neg (show (1 : Fin 2) ∉ ([0] : List (Fin 2)) by decide)]
  have hw0 : (rowScatterDims N C E wf).window (ix2 e k) (0 : Fin 2) = 0 := by
    unfold ScatterDims.window
    rw [dif_neg (show (0 : Fin 2) ∉ (⟨2, ![N, C]⟩ : Shape).kept ([0] : List (Fin 2)) by
      simp [Shape.kept, List.mem_filter])]
  have hw1 : (rowScatterDims N C E wf).window (ix2 e k) (1 : Fin 2) = k.val := by
    unfold ScatterDims.window
    rw [dif_pos (show (1 : Fin 2) ∈ (⟨2, ![N, C]⟩ : Shape).kept ([0] : List (Fin 2)) by
      simp [Shape.kept, List.mem_filter, List.mem_finRange])]
    rfl
  unfold ScatterDims.resultIdx? segOf
  by_cases h : 0 ≤ (idx (ix2 e (0 : Fin 1))).toInt ∧ (idx (ix2 e (0 : Fin 1))).toInt < (N : Int)
  · -- the index is a row of the operand: the update lands, at that row and column `k`
    have hall : ∀ a : Fin 2,
        0 ≤ (rowScatterDims N C E wf).start (ix2 e k) idx a + ((rowScatterDims N C E wf).window (ix2 e k) a : Int) ∧
        (rowScatterDims N C E wf).start (ix2 e k) idx a + ((rowScatterDims N C E wf).window (ix2 e k) a : Int)
          < (((⟨2, ![N, C]⟩ : Shape).size a : Nat) : Int) := by
      intro a
      match a with
      | ⟨0, _⟩ =>
        show 0 ≤ (rowScatterDims N C E wf).start (ix2 e k) idx (0 : Fin 2) + ((rowScatterDims N C E wf).window (ix2 e k) (0 : Fin 2) : Int) ∧
          (rowScatterDims N C E wf).start (ix2 e k) idx (0 : Fin 2) + ((rowScatterDims N C E wf).window (ix2 e k) (0 : Fin 2) : Int) < (N : Int)
        rw [hs0, hw0]; simpa using h
      | ⟨1, _⟩ =>
        show 0 ≤ (rowScatterDims N C E wf).start (ix2 e k) idx (1 : Fin 2) + ((rowScatterDims N C E wf).window (ix2 e k) (1 : Fin 2) : Int) ∧
          (rowScatterDims N C E wf).start (ix2 e k) idx (1 : Fin 2) + ((rowScatterDims N C E wf).window (ix2 e k) (1 : Fin 2) : Int) < (C : Int)
        rw [hs1, hw1]; have := k.isLt; omega
    rw [dif_pos hall, dif_pos h]
    simp only [Option.map_some]
    congr 1
    funext a; refine Fin.ext ?_
    match a with
    | ⟨0, _⟩ =>
      show ((rowScatterDims N C E wf).start (ix2 e k) idx (0 : Fin 2) + ((rowScatterDims N C E wf).window (ix2 e k) (0 : Fin 2) : Int)).toNat
        = (idx (ix2 e (0 : Fin 1))).toInt.toNat
      rw [hs0, hw0]; simp
    | ⟨1, _⟩ =>
      show ((rowScatterDims N C E wf).start (ix2 e k) idx (1 : Fin 2) + ((rowScatterDims N C E wf).window (ix2 e k) (1 : Fin 2) : Int)).toNat
        = k.val
      rw [hs1, hw1]; simp
  · -- the index is no row of the operand: the update is dropped on the row axis
    rw [dif_neg (fun hall => h (by
      have h0 := hall (0 : Fin 2)
      rw [hs0, hw0] at h0
      simpa using h0)), dif_neg h]
    rfl

/-- Where update element `e` of a scatter of scalars lands: at the segment of `e`; nowhere when `e` has none. -/
theorem vecScatter_resultIdx {N E w : Nat} (wf : ScatterDims.WF ⟨1, ![N]⟩ ⟨2, ![E, 1]⟩ ⟨1, ![E]⟩ [] [0] [0] 1)
    (idx : IVec ⟨2, ![E, 1]⟩ w) (e : Fin E) :
    (vecScatterDims N E wf).resultIdx? (ix1 e) idx = (segOf N idx e).map ix1 := by
  -- the landing position on the operand's one axis: the signed start index, with no window coordinate
  have hs0 : (vecScatterDims N E wf).start (ix1 e) idx (0 : Fin 1) = (idx (ix2 e (0 : Fin 1))).toInt := by
    unfold ScatterDims.start
    rw [dif_pos (show (0 : Fin 1) ∈ ([0] : List (Fin 1)) from List.mem_singleton.mpr rfl)]
    have hsi : (vecScatterDims N E wf).siIdx (ix1 e) ⟨List.idxOf (0 : Fin 1) ([0] : List (Fin 1)),
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hw0 : (vecScatterDims N E wf).window (ix1 e) (0 : Fin 1) = 0 := by
    unfold ScatterDims.window
    rw [dif_neg (show (0 : Fin 1) ∉ (⟨1, ![N]⟩ : Shape).kept ([0] : List (Fin 1)) by
      simp [Shape.kept, List.mem_filter])]
  unfold ScatterDims.resultIdx? segOf
  by_cases h : 0 ≤ (idx (ix2 e (0 : Fin 1))).toInt ∧ (idx (ix2 e (0 : Fin 1))).toInt < (N : Int)
  · -- the index is a position of the operand: the update lands there
    have hall : ∀ a : Fin 1,
        0 ≤ (vecScatterDims N E wf).start (ix1 e) idx a + ((vecScatterDims N E wf).window (ix1 e) a : Int) ∧
        (vecScatterDims N E wf).start (ix1 e) idx a + ((vecScatterDims N E wf).window (ix1 e) a : Int)
          < (((⟨1, ![N]⟩ : Shape).size a : Nat) : Int) := by
      intro a
      match a with
      | ⟨0, _⟩ =>
        show 0 ≤ (vecScatterDims N E wf).start (ix1 e) idx (0 : Fin 1) + ((vecScatterDims N E wf).window (ix1 e) (0 : Fin 1) : Int) ∧
          (vecScatterDims N E wf).start (ix1 e) idx (0 : Fin 1) + ((vecScatterDims N E wf).window (ix1 e) (0 : Fin 1) : Int) < (N : Int)
        rw [hs0, hw0]; simpa using h
    rw [dif_pos hall, dif_pos h]
    simp only [Option.map_some]
    congr 1
    funext a; refine Fin.ext ?_
    match a with
    | ⟨0, _⟩ =>
      show ((vecScatterDims N E wf).start (ix1 e) idx (0 : Fin 1) + ((vecScatterDims N E wf).window (ix1 e) (0 : Fin 1) : Int)).toNat
        = (idx (ix2 e (0 : Fin 1))).toInt.toNat
      rw [hs0, hw0]; simp
  · -- the index is no position of the operand: the update is dropped
    rw [dif_neg (fun hall => h (by
      have h0 := hall (0 : Fin 1)
      rw [hs0, hw0] at h0
      simpa using h0)), dif_neg h]
    rfl

/-- THE ROW SCATTER-ADD READ AT `(n, k)`: the operand's element plus the sum, over the edges whose segment is `n`, of
    their update in column `k`. -/
theorem hostScatterAdd_rows_apply {N C E w : Nat} (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (upd : (⟨2, ![E, C]⟩ : Shape).Idx → EReal)
    (n : Fin N) (k : Fin C) :
    Ideal.hostScatterAdd (rowScatterDims N C E wf) x idx upd (ix2 n k)
      = x (ix2 n k) + ∑ e : Fin E, if segOf N idx e = some n then upd (ix2 e k) else 0 := by
  unfold Ideal.hostScatterAdd
  congr 1
  -- the sum over the updates landing at `(n, k)`, as a double sum over edge and column
  refine (Finset.sum_filter _ _).trans ?_
  refine (sum_idx2 _).trans ?_
  refine Finset.sum_congr rfl fun e _ => ?_
  simp only [rowScatter_resultIdx]
  -- edge `e` contributes its column `k` when its segment is `n`, and nothing otherwise
  cases segOf N idx e with
  | none => simp
  | some m =>
    have hix : ∀ c : Fin C, (ix2 m c = ix2 n k) ↔ (m = n ∧ c = k) := fun c =>
      ⟨fun h => ⟨congrFun h 0, congrFun h 1⟩, fun ⟨h1, h2⟩ => by rw [h1, h2]⟩
    simp only [Option.map_some, Option.some.injEq, hix]
    by_cases hmn : m = n
    · simp [hmn]
    · simp [hmn]

/-- A rank-1 index set is its one coordinate's range: an index is read at axis 0, a coordinate is placed there. -/
def idxEquiv1 {n : Nat} : (⟨1, ![n]⟩ : Shape).Idx ≃ Fin n where
  toFun i := i 0
  invFun a := ix1 a
  left_inv i := (eq_ix1 i).symm
  right_inv _ := rfl

/-- A sum over a rank-1 index set is the sum over its coordinate. -/
theorem sum_idx1 {M : Type*} [AddCommMonoid M] {n : Nat} (f : (⟨1, ![n]⟩ : Shape).Idx → M) :
    ∑ i, f i = ∑ a : Fin n, f (ix1 a) :=
  (Equiv.sum_comp (idxEquiv1 (n := n)).symm f).symm

/-- THE SCALAR SCATTER-ADD READ AT `n`: the operand's element plus the sum of the updates of the edges whose segment
    is `n`. -/
theorem hostScatterAdd_vec_apply {N E w : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal)
    (n : Fin N) :
    Ideal.hostScatterAdd (vecScatterDims N E wf) x idx upd (ix1 n)
      = x (ix1 n) + ∑ e : Fin E, if segOf N idx e = some n then upd (ix1 e) else 0 := by
  unfold Ideal.hostScatterAdd
  congr 1
  -- the sum over the updates landing at `n`, as a sum over the edges
  refine (Finset.sum_filter _ _).trans ?_
  refine (sum_idx1 _).trans ?_
  refine Finset.sum_congr rfl fun e _ => ?_
  simp only [vecScatter_resultIdx]
  -- edge `e` contributes its update when its segment is `n`, and nothing otherwise
  cases segOf N idx e with
  | none => simp
  | some m =>
    by_cases hmn : m = n
    · simp [hmn]
    · have hne : ix1 m ≠ ix1 n := fun h => hmn (congrFun h 0)
      simp [hmn, hne]

end Idealize.ShloMosaic.GatherScatterAt

end
-- ==== Proof.RefVal.lean ====
/-
  THE REFERENCE'S RESULT AT AN ENTRY IS THE SPECIFICATION.

  The reference program computes, in order: each edge's source and target words from the edge list; the mean over a
  node's incoming edges of the neighbours' rows (a row gather, a row scatter-add into zeros, a scatter-add of ones for
  the in-degree, a maximum with one and a quotient); a first layer (two matrix products, a bias, a maximum with zero);
  the same aggregation and a second layer on the first layer's output; and a per-graph mean of the node rows. Read at
  an entry, each stage is the corresponding function of the specification.
-/
import proofs.«400510_j11458972746403_3_alg».proof.Proof.Gen.ReferenceIdeal.Read
import proofs.«400510_j11458972746403_3_alg».proof.Proof.Spec
import proofs.«400510_j11458972746403_3_alg».proof.Proof.Graph
import proofs.«400510_j11458972746403_3_alg».proof.Proof.LibGatherScatterAt
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx Idealize.ShloMosaic.GatherScatterAt

/-! ## Bit patterns -/

/-- The 32-bit pattern `0x3F800000` is the number one. -/
theorem one_f32 : Ideal.ofBits .f32 0x3F800000#32 = 1 := by
  simp [Ideal.ofBits, Ideal.ieee]
  rw [← EReal.coe_mul]
  norm_num

/-! ## The edge words

  Row 0 of the edge list, reshaped to a vector, compared with zero and wrapped by the node count where negative, is the
  source word; row 1, reshaped, is the target word. The second layer recomputes both from the same input. -/

/-- A word read as a clamped row is the gather's row. -/
theorem rowOf_eq_clampRow {E : Nat} (N : Nat) (hN : 0 < N) (idx : IVec ⟨2, ![E, 1]⟩ 32) (e : Fin E) (wd : BitVec 32)
    (h : idx (ix2 e (0 : Fin 1)) = wd) : rowOf N hN idx e = Cert.Graph.clampRow N hN wd := by
  subst h; rfl

/-- A word read as an unclamped row is the scatter's segment. -/
theorem segOf_eq_rowIn {E : Nat} (N : Nat) (idx : IVec ⟨2, ![E, 1]⟩ 32) (e : Fin E) (wd : BitVec 32)
    (h : idx (ix2 e (0 : Fin 1)) = wd) : segOf N idx e = Cert.Graph.rowIn N wd := by
  subst h; rfl

variable (x7 : (⟨S2x1600000, .i32⟩ : BufTy).Contents (Elt Ideal)) (x8 : (⟨S100000, .i32⟩ : BufTy).Contents (Elt Ideal))

/-- Row 0 of the edge list as a vector. -/
theorem v1_at (e : Fin 1600000) : val_main_v1 (F := Ideal) x7 (ix1 e) = x7 (ix2 (0 : Fin 2) e) := by
  rw [val_main_v1_apply, val_main_v0_apply]
  congr 1
  funext a
  match a with
  | ⟨0, _⟩ => rfl
  | ⟨1, _⟩ => exact Fin.ext (Nat.mod_eq_of_lt e.isLt)

/-- Row 1 of the edge list as a vector. -/
theorem v3_at (e : Fin 1600000) : val_main_v3 (F := Ideal) x7 (ix1 e) = x7 (ix2 (1 : Fin 2) e) := by
  rw [val_main_v3_apply, val_main_v2_apply]
  congr 1
  funext a
  match a with
  | ⟨0, _⟩ => rfl
  | ⟨1, _⟩ => exact Fin.ext (Nat.mod_eq_of_lt e.isLt)

/-- Row 0 again, as the second layer reads it. -/
theorem v31_at (e : Fin 1600000) : val_main_v31 (F := Ideal) x7 (ix1 e) = x7 (ix2 (0 : Fin 2) e) := by
  rw [val_main_v31_apply, val_main_v30_apply]
  congr 1
  funext a
  match a with
  | ⟨0, _⟩ => rfl
  | ⟨1, _⟩ => exact Fin.ext (Nat.mod_eq_of_lt e.isLt)

/-- Row 1 again, as the second layer reads it. -/
theorem v33_at (e : Fin 1600000) : val_main_v33 (F := Ideal) x7 (ix1 e) = x7 (ix2 (1 : Fin 2) e) := by
  rw [val_main_v33_apply, val_main_v32_apply]
  congr 1
  funext a
  match a with
  | ⟨0, _⟩ => rfl
  | ⟨1, _⟩ => exact Fin.ext (Nat.mod_eq_of_lt e.isLt)

/-- The wrapped source word, first layer. -/
theorem v8_at (e : Fin 1600000) : val_main_v8 (F := Ideal) x7 (ix1 e) = Cert.Graph.srcWord x7 e := by
  rw [val_main_v8_apply, val_main_v5_apply, val_main_v7_apply, val_main_v4_apply, val_main_v6_apply, val_main_c_apply,
    val_main_c_0_apply, v1_at]
  rfl

/-- The wrapped source word, second layer. -/
theorem v38_at (e : Fin 1600000) : val_main_v38 (F := Ideal) x7 (ix1 e) = Cert.Graph.srcWord x7 e := by
  rw [val_main_v38_apply, val_main_v35_apply, val_main_v37_apply, val_main_v34_apply, val_main_v36_apply,
    val_main_c_4_apply, val_main_c_5_apply, v31_at]
  rfl

/-- The gather's index column, first layer: the source words. -/
theorem v9_at (e : Fin 1600000) : val_main_v9 (F := Ideal) x7 (ix2 e (0 : Fin 1)) = Cert.Graph.srcWord x7 e := by
  rw [val_main_v9_apply, show idx_main_v9 (ix2 e (0 : Fin 1)) = ix1 e from funext fun a => match a with | ⟨0, _⟩ => rfl]
  exact v8_at x7 e

/-- The gather's index column, second layer: the source words. -/
theorem v39_at (e : Fin 1600000) : val_main_v39 (F := Ideal) x7 (ix2 e (0 : Fin 1)) = Cert.Graph.srcWord x7 e := by
  rw [val_main_v39_apply, show idx_main_v39 (ix2 e (0 : Fin 1)) = ix1 e from funext fun a => match a with | ⟨0, _⟩ => rfl]
  exact v38_at x7 e

/-- The row scatter's index column, first layer: the target words. -/
theorem v12_at (e : Fin 1600000) : val_main_v12 (F := Ideal) x7 (ix2 e (0 : Fin 1)) = Cert.Graph.dstWord x7 e := by
  rw [val_main_v12_apply, show idx_main_v12 (ix2 e (0 : Fin 1)) = ix1 e from funext fun a => match a with | ⟨0, _⟩ => rfl]
  exact v3_at x7 e

/-- The degree scatter's index column, first layer: the target words. -/
theorem v16_at (e : Fin 1600000) : val_main_v16 (F := Ideal) x7 (ix2 e (0 : Fin 1)) = Cert.Graph.dstWord x7 e := by
  rw [val_main_v16_apply, show idx_main_v16 (ix2 e (0 : Fin 1)) = ix1 e from funext fun a => match a with | ⟨0, _⟩ => rfl]
  exact v3_at x7 e

/-- The row scatter's index column, second layer: the target words. -/
theorem v42_at (e : Fin 1600000) : val_main_v42 (F := Ideal) x7 (ix2 e (0 : Fin 1)) = Cert.Graph.dstWord x7 e := by
  rw [val_main_v42_apply, show idx_main_v42 (ix2 e (0 : Fin 1)) = ix1 e from funext fun a => match a with | ⟨0, _⟩ => rfl]
  exact v33_at x7 e

/-- The degree scatter's index column, second layer: the target words. -/
theorem v46_at (e : Fin 1600000) : val_main_v46 (F := Ideal) x7 (ix2 e (0 : Fin 1)) = Cert.Graph.dstWord x7 e := by
  rw [val_main_v46_apply, show idx_main_v46 (ix2 e (0 : Fin 1)) = ix1 e from funext fun a => match a with | ⟨0, _⟩ => rfl]
  exact v33_at x7 e

/-- The pooling scatters' index columns: the node-to-graph words. -/
theorem v60_at (n : Fin 100000) : val_main_v60 (F := Ideal) x8 (ix2 n (0 : Fin 1)) = x8 (ix1 n) := by
  rw [val_main_v60_apply, show idx_main_v60 (ix2 n (0 : Fin 1)) = ix1 n from funext fun a => match a with | ⟨0, _⟩ => rfl]

theorem v64_at (n : Fin 100000) : val_main_v64 (F := Ideal) x8 (ix2 n (0 : Fin 1)) = x8 (ix1 n) := by
  rw [val_main_v64_apply, show idx_main_v64 (ix2 n (0 : Fin 1)) = ix1 n from funext fun a => match a with | ⟨0, _⟩ => rfl]

/-- Sources, targets and graphs as the gather and the scatters read them. -/
theorem src1 (e : Fin 1600000) : rowOf 100000 (by decide) (val_main_v9 (F := Ideal) x7) e = Cert.Graph.src x7 e :=
  rowOf_eq_clampRow 100000 (by decide) _ e _ (v9_at x7 e)
theorem src2 (e : Fin 1600000) : rowOf 100000 (by decide) (val_main_v39 (F := Ideal) x7) e = Cert.Graph.src x7 e :=
  rowOf_eq_clampRow 100000 (by decide) _ e _ (v39_at x7 e)
theorem dst12 (e : Fin 1600000) : segOf 100000 (val_main_v12 (F := Ideal) x7) e = Cert.Graph.dst x7 e :=
  segOf_eq_rowIn 100000 _ e _ (v12_at x7 e)
theorem dst16 (e : Fin 1600000) : segOf 100000 (val_main_v16 (F := Ideal) x7) e = Cert.Graph.dst x7 e :=
  segOf_eq_rowIn 100000 _ e _ (v16_at x7 e)
theorem dst42 (e : Fin 1600000) : segOf 100000 (val_main_v42 (F := Ideal) x7) e = Cert.Graph.dst x7 e :=
  segOf_eq_rowIn 100000 _ e _ (v42_at x7 e)
theorem dst46 (e : Fin 1600000) : segOf 100000 (val_main_v46 (F := Ideal) x7) e = Cert.Graph.dst x7 e :=
  segOf_eq_rowIn 100000 _ e _ (v46_at x7 e)
theorem seg60 (n : Fin 100000) : segOf 512 (val_main_v60 (F := Ideal) x8) n = Cert.Graph.seg x8 n :=
  segOf_eq_rowIn 512 _ n _ (v60_at x8 n)
theorem seg64 (n : Fin 100000) : segOf 512 (val_main_v64 (F := Ideal) x8) n = Cert.Graph.seg x8 n :=
  segOf_eq_rowIn 512 _ n _ (v64_at x8 n)

/-! ## Constants read at an entry -/

theorem v11_at (n : Fin 100000) (k : Fin 128) : val_main_v11 (F := Ideal) (ix2 n k) = (0 : EReal) := by
  rw [val_main_v11_apply, val_main_cst_apply, Ideal.ofBits_def, Ideal.ofBits_zero_f32]
theorem v14_at (e : Fin 1600000) : val_main_v14 (F := Ideal) (ix1 e) = (1 : EReal) := by
  rw [val_main_v14_apply, val_main_cst_1_apply, Ideal.ofBits_def, one_f32]
theorem v15_at (n : Fin 100000) : val_main_v15 (F := Ideal) (ix1 n) = (0 : EReal) := by
  rw [val_main_v15_apply, val_main_cst_2_apply, Ideal.ofBits_def, Ideal.ofBits_zero_f32]
theorem v18_at (n : Fin 100000) : val_main_v18 (F := Ideal) (ix1 n) = (1 : EReal) := by
  rw [val_main_v18_apply, val_main_cst_3_apply, Ideal.ofBits_def, one_f32]
theorem call0_v0_at (n : Fin 100000) (j : Fin 64) : val_main_call0_v0 (F := Ideal) (ix2 n j) = (0 : EReal) := by
  rw [val_main_call0_v0_apply, val_main_call0_cst_apply, Ideal.ofBits_def, Ideal.ofBits_zero_f32]

/-! ## The in-degree: ones scattered by target into zeros, at least one -/

theorem v17_at (n : Fin 100000) : val_main_v17 (F := Ideal) x7 (ix1 n)
    = ∑ e : Fin 1600000, if Cert.Graph.dst x7 e = some n then (1 : EReal) else 0 := by
  have h : val_main_v17 (F := Ideal) x7 = Ideal.hostScatterAdd
      (vecScatterDims 100000 1600000 Facts₀.scatter_S100000_S1600000x1_S1600000_n_0_0_1_wf)
      (val_main_v15 (F := Ideal)) (val_main_v16 (F := Ideal) x7) (val_main_v14 (F := Ideal)) := rfl
  rw [h, hostScatterAdd_vec_apply, v15_at, zero_add]
  refine Finset.sum_congr rfl fun e _ => ?_
  rw [dst16, v14_at]

theorem v19_at (n : Fin 100000) : val_main_v19 (F := Ideal) x7 (ix1 n) = Cert.Spec.deg (Cert.Graph.dst x7) n := by
  rw [val_main_v19_apply, Ideal.maximumf_def, v17_at, v18_at]
  rfl

theorem v21_at (n : Fin 100000) (k : Fin 128) :
    val_main_v21 (F := Ideal) x7 (ix2 n k) = Cert.Spec.deg (Cert.Graph.dst x7) n := by
  rw [val_main_v21_apply, val_main_v20_apply,
    show idx_main_v20 (idx_main_v21 (ix2 n k)) = ix1 n from funext fun a => match a with | ⟨0, _⟩ => rfl]
  exact v19_at x7 n

/-! ## The first aggregation: the neighbours' rows gathered by source, summed by target, divided by the in-degree -/

variable (x0 : (⟨S100000x128, .f32⟩ : BufTy).Contents (Elt Ideal))

theorem v10_at (e : Fin 1600000) (k : Fin 128) :
    val_main_v10 (F := Ideal) x0 x7 (ix2 e k) = x0 (ix2 (Cert.Graph.src x7 e) k) := by
  have h : val_main_v10 (F := Ideal) x0 x7 = Host.gather
      (rowGatherDims 100000 128 1600000 Facts₀.gather_S100000x128_S1600000x1_S1600000x128_1_0_n_n_0_1_1128_wf)
      x0 (val_main_v9 (F := Ideal) x7) := rfl
  rw [h, gather_rows_apply (by decide : 0 < 100000), src1]

theorem v13_at (n : Fin 100000) (k : Fin 128) : val_main_v13 (F := Ideal) x0 x7 (ix2 n k)
    = Cert.Spec.agg (Cert.Graph.src x7) (Cert.Graph.dst x7) (Cert.Graph.at2 x0) n k := by
  have h : val_main_v13 (F := Ideal) x0 x7 = Ideal.hostScatterAdd
      (rowScatterDims 100000 128 1600000 Facts₀.scatter_S100000x128_S1600000x1_S1600000x128_1_0_0_1_wf)
      (val_main_v11 (F := Ideal)) (val_main_v12 (F := Ideal) x7) (val_main_v10 (F := Ideal) x0 x7) := rfl
  rw [h, hostScatterAdd_rows_apply, v11_at, zero_add]
  unfold Cert.Spec.agg
  refine Finset.sum_congr rfl fun e _ => ?_
  rw [dst12, v10_at]

theorem v22_at (n : Fin 100000) (k : Fin 128) : val_main_v22 (F := Ideal) x0 x7 (ix2 n k)
    = Cert.Spec.mean (Cert.Graph.src x7) (Cert.Graph.dst x7) (Cert.Graph.at2 x0) n k := by
  rw [val_main_v22_apply, Ideal.hostDivf_def, v13_at, v21_at]
  rfl

/-! ## The first layer -/

variable (x1 x2 : (⟨S128x64, .f32⟩ : BufTy).Contents (Elt Ideal)) (x3 : (⟨S64, .f32⟩ : BufTy).Contents (Elt Ideal))

theorem v23_at (n : Fin 100000) (j : Fin 64) : val_main_v23 (F := Ideal) x0 x1 x7 (ix2 n j)
    = Cert.Spec.mm (Cert.Spec.mean (Cert.Graph.src x7) (Cert.Graph.dst x7) (Cert.Graph.at2 x0)) (Cert.Graph.at2 x1) n j := by
  rw [val_main_v23_apply]
  unfold Cert.Spec.mm
  refine Finset.sum_congr rfl fun k _ => ?_
  rw [show lidx_main_v23 (ix2 n j) k = ix2 n k from funext fun a => match a with | ⟨0, _⟩ => rfl | ⟨1, _⟩ => rfl,
    show ridx_main_v23 (ix2 n j) k = ix2 k j from funext fun a => match a with | ⟨0, _⟩ => rfl | ⟨1, _⟩ => rfl, v22_at]

theorem v24_at (n : Fin 100000) (j : Fin 64) : val_main_v24 (F := Ideal) x0 x2 (ix2 n j)
    = Cert.Spec.mm (Cert.Graph.at2 x0) (Cert.Graph.at2 x2) n j := by
  rw [val_main_v24_apply]
  unfold Cert.Spec.mm
  refine Finset.sum_congr rfl fun k _ => ?_
  rw [show lidx_main_v24 (ix2 n j) k = ix2 n k from funext fun a => match a with | ⟨0, _⟩ => rfl | ⟨1, _⟩ => rfl,
    show ridx_main_v24 (ix2 n j) k = ix2 k j from funext fun a => match a with | ⟨0, _⟩ => rfl | ⟨1, _⟩ => rfl]

theorem v27_at (n : Fin 100000) (j : Fin 64) : val_main_v27 (F := Ideal) x3 (ix2 n j) = x3 (ix1 j) := by
  rw [val_main_v27_apply, val_main_v26_apply,
    show idx_main_v26 (idx_main_v27 (ix2 n j)) = ix1 j from funext fun a => match a with | ⟨0, _⟩ => rfl]

/-- The first layer's output at a node and a hidden column. -/
theorem v29_at (n : Fin 100000) (j : Fin 64) : val_main_v29 (F := Ideal) x0 x1 x2 x3 x7 (ix2 n j)
    = Cert.Spec.hiddenAggFirst (Cert.Graph.src x7) (Cert.Graph.dst x7) (Cert.Graph.at2 x0) (Cert.Graph.at2 x1)
        (Cert.Graph.at2 x2) (Cert.Graph.at1 x3) n j := by
  rw [val_main_v29_apply, Ideal.maximumf_def, val_main_v28_apply, Ideal.addf_def, val_main_v25_apply, Ideal.addf_def,
    v23_at, v24_at, v27_at, call0_v0_at]
  rfl

/-! ## The second aggregation, on the first layer's output -/

theorem v41_at (n : Fin 100000) (j : Fin 64) : val_main_v41 (F := Ideal) (ix2 n j) = (0 : EReal) := by
  rw [val_main_v41_apply, val_main_cst_6_apply, Ideal.ofBits_def, Ideal.ofBits_zero_f32]
theorem v44_at (e : Fin 1600000) : val_main_v44 (F := Ideal) (ix1 e) = (1 : EReal) := by
  rw [val_main_v44_apply, val_main_cst_7_apply, Ideal.ofBits_def, one_f32]
theorem v45_at (n : Fin 100000) : val_main_v45 (F := Ideal) (ix1 n) = (0 : EReal) := by
  rw [val_main_v45_apply, val_main_cst_8_apply, Ideal.ofBits_def, Ideal.ofBits_zero_f32]
theorem v48_at (n : Fin 100000) : val_main_v48 (F := Ideal) (ix1 n) = (1 : EReal) := by
  rw [val_main_v48_apply, val_main_cst_9_apply, Ideal.ofBits_def, one_f32]

theorem v40_at (e : Fin 1600000) (j : Fin 64) : val_main_v40 (F := Ideal) x0 x1 x2 x3 x7 (ix2 e j)
    = val_main_v29 (F := Ideal) x0 x1 x2 x3 x7 (ix2 (Cert.Graph.src x7 e) j) := by
  have h : val_main_v40 (F := Ideal) x0 x1 x2 x3 x7 = Host.gather
      (rowGatherDims 100000 64 1600000 Facts₀.gather_S100000x64_S1600000x1_S1600000x64_1_0_n_n_0_1_164_wf)
      (val_main_v29 (F := Ideal) x0 x1 x2 x3 x7) (val_main_v39 (F := Ideal) x7) := rfl
  rw [h, gather_rows_apply (by decide : 0 < 100000), src2]

theorem v43_at (n : Fin 100000) (j : Fin 64) : val_main_v43 (F := Ideal) x0 x1 x2 x3 x7 (ix2 n j)
    = Cert.Spec.agg (Cert.Graph.src x7) (Cert.Graph.dst x7)
        (Cert.Spec.hiddenAggFirst (Cert.Graph.src x7) (Cert.Graph.dst x7) (Cert.Graph.at2 x0) (Cert.Graph.at2 x1)
          (Cert.Graph.at2 x2) (Cert.Graph.at1 x3)) n j := by
  have h : val_main_v43 (F := Ideal) x0 x1 x2 x3 x7 = Ideal.hostScatterAdd
      (rowScatterDims 100000 64 1600000 Facts₀.scatter_S100000x64_S1600000x1_S1600000x64_1_0_0_1_wf)
      (val_main_v41 (F := Ideal)) (val_main_v42 (F := Ideal) x7) (val_main_v40 (F := Ideal) x0 x1 x2 x3 x7) := rfl
  rw [h, hostScatterAdd_rows_apply, v41_at, zero_add]
  unfold Cert.Spec.agg
  refine Finset.sum_congr rfl fun e _ => ?_
  rw [dst42, v40_at, v29_at]

theorem v47_at (n : Fin 100000) : val_main_v47 (F := Ideal) x7 (ix1 n)
    = ∑ e : Fin 1600000, if Cert.Graph.dst x7 e = some n then (1 : EReal) else 0 := by
  have h : val_main_v47 (F := Ideal) x7 = Ideal.hostScatterAdd
      (vecScatterDims 100000 1600000 Facts₀.scatter_S100000_S1600000x1_S1600000_n_0_0_1_wf)
      (val_main_v45 (F := Ideal)) (val_main_v46 (F := Ideal) x7) (val_main_v44 (F := Ideal)) := rfl
  rw [h, hostScatterAdd_vec_apply, v45_at, zero_add]
  refine Finset.sum_congr rfl fun e _ => ?_
  rw [dst46, v44_at]

theorem v49_at (n : Fin 100000) : val_main_v49 (F := Ideal) x7 (ix1 n) = Cert.Spec.deg (Cert.Graph.dst x7) n := by
  rw [val_main_v49_apply, Ideal.maximumf_def, v47_at, v48_at]
  rfl

theorem v51_at (n : Fin 100000) (j : Fin 64) :
    val_main_v51 (F := Ideal) x7 (ix2 n j) = Cert.Spec.deg (Cert.Graph.dst x7) n := by
  rw [val_main_v51_apply, val_main_v50_apply,
    show idx_main_v50 (idx_main_v51 (ix2 n j)) = ix1 n from funext fun a => match a with | ⟨0, _⟩ => rfl]
  exact v49_at x7 n

theorem v52_at (n : Fin 100000) (j : Fin 64) : val_main_v52 (F := Ideal) x0 x1 x2 x3 x7 (ix2 n j)
    = Cert.Spec.mean (Cert.Graph.src x7) (Cert.Graph.dst x7)
        (Cert.Spec.hiddenAggFirst (Cert.Graph.src x7) (Cert.Graph.dst x7) (Cert.Graph.at2 x0) (Cert.Graph.at2 x1)
          (Cert.Graph.at2 x2) (Cert.Graph.at1 x3)) n j := by
  rw [val_main_v52_apply, Ideal.hostDivf_def, v43_at, v51_at]
  rfl

/-! ## The second layer -/

variable (x4 x5 : (⟨S64x128, .f32⟩ : BufTy).Contents (Elt Ideal)) (x6 : (⟨S128, .f32⟩ : BufTy).Contents (Elt Ideal))

theorem v53_at (n : Fin 100000) (o : Fin 128) : val_main_v53 (F := Ideal) x0 x1 x2 x3 x4 x7 (ix2 n o)
    = Cert.Spec.mm (Cert.Spec.mean (Cert.Graph.src x7) (Cert.Graph.dst x7)
        (Cert.Spec.hiddenAggFirst (Cert.Graph.src x7) (Cert.Graph.dst x7) (Cert.Graph.at2 x0) (Cert.Graph.at2 x1)
          (Cert.Graph.at2 x2) (Cert.Graph.at1 x3))) (Cert.Graph.at2 x4) n o := by
  rw [val_main_v53_apply]
  unfold Cert.Spec.mm
  refine Finset.sum_congr rfl fun k _ => ?_
  rw [show lidx_main_v53 (ix2 n o) k = ix2 n k from funext fun a => match a with | ⟨0, _⟩ => rfl | ⟨1, _⟩ => rfl,
    show ridx_main_v53 (ix2 n o) k = ix2 k o from funext fun a => match a with | ⟨0, _⟩ => rfl | ⟨1, _⟩ => rfl, v52_at]

theorem v54_at (n : Fin 100000) (o : Fin 128) : val_main_v54 (F := Ideal) x0 x1 x2 x3 x5 x7 (ix2 n o)
    = Cert.Spec.mm (Cert.Spec.hiddenAggFirst (Cert.Graph.src x7) (Cert.Graph.dst x7) (Cert.Graph.at2 x0)
        (Cert.Graph.at2 x1) (Cert.Graph.at2 x2) (Cert.Graph.at1 x3)) (Cert.Graph.at2 x5) n o := by
  rw [val_main_v54_apply]
  unfold Cert.Spec.mm
  refine Finset.sum_congr rfl fun k _ => ?_
  rw [show lidx_main_v54 (ix2 n o) k = ix2 n k from funext fun a => match a with | ⟨0, _⟩ => rfl | ⟨1, _⟩ => rfl,
    show ridx_main_v54 (ix2 n o) k = ix2 k o from funext fun a => match a with | ⟨0, _⟩ => rfl | ⟨1, _⟩ => rfl, v29_at]

theorem v57_at (n : Fin 100000) (o : Fin 128) : val_main_v57 (F := Ideal) x6 (ix2 n o) = x6 (ix1 o) := by
  rw [val_main_v57_apply, val_main_v56_apply,
    show idx_main_v56 (idx_main_v57 (ix2 n o)) = ix1 o from funext fun a => match a with | ⟨0, _⟩ => rfl]

/-- The second layer's output at a node and an output column. -/
theorem v58_at (n : Fin 100000) (o : Fin 128) : val_main_v58 (F := Ideal) x0 x1 x2 x3 x4 x5 x6 x7 (ix2 n o)
    = Cert.Spec.second (Cert.Graph.src x7) (Cert.Graph.dst x7)
        (Cert.Spec.hiddenAggFirst (Cert.Graph.src x7) (Cert.Graph.dst x7) (Cert.Graph.at2 x0) (Cert.Graph.at2 x1)
          (Cert.Graph.at2 x2) (Cert.Graph.at1 x3)) (Cert.Graph.at2 x4) (Cert.Graph.at2 x5) (Cert.Graph.at1 x6) n o := by
  rw [val_main_v58_apply, Ideal.addf_def, val_main_v55_apply, Ideal.addf_def, v53_at, v54_at, v57_at]
  rfl

/-! ## The per-graph mean: rows summed by graph, divided by the graph's node count, at least one -/

theorem v59_at (g : Fin 512) (o : Fin 128) : val_main_v59 (F := Ideal) (ix2 g o) = (0 : EReal) := by
  rw [val_main_v59_apply, val_main_cst_10_apply, Ideal.ofBits_def, Ideal.ofBits_zero_f32]
theorem v62_at (n : Fin 100000) : val_main_v62 (F := Ideal) (ix1 n) = (1 : EReal) := by
  rw [val_main_v62_apply, val_main_cst_11_apply, Ideal.ofBits_def, one_f32]
theorem v63_at (g : Fin 512) : val_main_v63 (F := Ideal) (ix1 g) = (0 : EReal) := by
  rw [val_main_v63_apply, val_main_cst_12_apply, Ideal.ofBits_def, Ideal.ofBits_zero_f32]
theorem v66_at (g : Fin 512) : val_main_v66 (F := Ideal) (ix1 g) = (1 : EReal) := by
  rw [val_main_v66_apply, val_main_cst_13_apply, Ideal.ofBits_def, one_f32]

theorem v61_at (g : Fin 512) (o : Fin 128) : val_main_v61 (F := Ideal) x0 x1 x2 x3 x4 x5 x6 x7 x8 (ix2 g o)
    = ∑ n : Fin 100000, if Cert.Graph.seg x8 n = some g then
        Cert.Spec.second (Cert.Graph.src x7) (Cert.Graph.dst x7)
          (Cert.Spec.hiddenAggFirst (Cert.Graph.src x7) (Cert.Graph.dst x7) (Cert.Graph.at2 x0) (Cert.Graph.at2 x1)
            (Cert.Graph.at2 x2) (Cert.Graph.at1 x3)) (Cert.Graph.at2 x4) (Cert.Graph.at2 x5) (Cert.Graph.at1 x6) n o
      else 0 := by
  have h : val_main_v61 (F := Ideal) x0 x1 x2 x3 x4 x5 x6 x7 x8 = Ideal.hostScatterAdd
      (rowScatterDims 512 128 100000 Facts₀.scatter_S512x128_S100000x1_S100000x128_1_0_0_1_wf)
      (val_main_v59 (F := Ideal)) (val_main_v60 (F := Ideal) x8) (val_main_v58 (F := Ideal) x0 x1 x2 x3 x4 x5 x6 x7) := rfl
  rw [h, hostScatterAdd_rows_apply, v59_at, zero_add]
  refine Finset.sum_congr rfl fun n _ => ?_
  rw [seg60, v58_at]

theorem v65_at (g : Fin 512) : val_main_v65 (F := Ideal) x8 (ix1 g)
    = ∑ n : Fin 100000, if Cert.Graph.seg x8 n = some g then (1 : EReal) else 0 := by
  have h : val_main_v65 (F := Ideal) x8 = Ideal.hostScatterAdd
      (vecScatterDims 512 100000 Facts₀.scatter_S512_S100000x1_S100000_n_0_0_1_wf)
      (val_main_v63 (F := Ideal)) (val_main_v64 (F := Ideal) x8) (val_main_v62 (F := Ideal)) := rfl
  rw [h, hostScatterAdd_vec_apply, v63_at, zero_add]
  refine Finset.sum_congr rfl fun n _ => ?_
  rw [seg64, v62_at]

theorem v69_at (g : Fin 512) (o : Fin 128) : val_main_v69 (F := Ideal) x8 (ix2 g o)
    = max (∑ n : Fin 100000, if Cert.Graph.seg x8 n = some g then (1 : EReal) else 0) 1 := by
  rw [val_main_v69_apply, val_main_v68_apply,
    show idx_main_v68 (idx_main_v69 (ix2 g o)) = ix1 g from funext fun a => match a with | ⟨0, _⟩ => rfl,
    val_main_v67_apply, Ideal.maximumf_def, v65_at, v66_at]

/-! ## The reference's result -/

/-- THE REFERENCE'S RESULT AT GRAPH `g`, COLUMN `o` is the specification's aggregate-first computation on the graph
    read off the integer inputs. -/
theorem ref_value (x0 : (⟨S100000x128, .f32⟩ : BufTy).Contents (Elt Ideal)) (x1 x2 : (⟨S128x64, .f32⟩ : BufTy).Contents (Elt Ideal))
    (x3 : (⟨S64, .f32⟩ : BufTy).Contents (Elt Ideal)) (x4 x5 : (⟨S64x128, .f32⟩ : BufTy).Contents (Elt Ideal))
    (x6 : (⟨S128, .f32⟩ : BufTy).Contents (Elt Ideal)) (x7 : (⟨S2x1600000, .i32⟩ : BufTy).Contents (Elt Ideal))
    (x8 : (⟨S100000, .i32⟩ : BufTy).Contents (Elt Ideal)) (g : Fin 512) (o : Fin 128) :
    Cert.ReferenceIdeal.Read.val_main_v70 (F := Ideal) x0 x1 x2 x3 x4 x5 x6 x7 x8 (ix2 g o)
      = Cert.Spec.outAggFirst (Cert.Graph.src x7) (Cert.Graph.dst x7) (Cert.Graph.seg x8) (Cert.Graph.at2 x0)
          (Cert.Graph.at2 x1) (Cert.Graph.at2 x2) (Cert.Graph.at1 x3) (Cert.Graph.at2 x4) (Cert.Graph.at2 x5)
          (Cert.Graph.at1 x6) g o := by
  rw [val_main_v70_apply, Ideal.hostDivf_def, v61_at, v69_at]
  rfl

end Cert.ReferenceIdeal.RefValue

end
-- ==== Proof.LibMatmulAt.lean ====
/-
  A matrix product into a zero accumulator, read at one entry over the extended reals.

  For dimension numbers that contract the left operand's second axis with the right operand's first, with no batch
  axis — so that the left operand is read at (row, k) and the right at (k, column) — the entry (p, q) of the product
  of an [A × K] and a [K × B] matrix is `∑ₖ l[p, k] · r[k, q]`. The four facts about where the dimension numbers
  read their operands are hypotheses, so that the lemma serves any printed record of this kind.
-/
import Idealize.ShloMosaic.PureOps.Ideal.Laws
import Idealize.ShloMosaic.Lib.ValueIdx

noncomputable section

namespace Idealize.ShloMosaic.MatmulAt

open Idealize.ShloMosaic Idealize.ShloMosaic.ValueIdx

/-- Entry (p, q) of `l · r` accumulated into zero is the sum over the contracted axis of `l[p, k] · r[k, q]`, for
    dimension numbers `D` whose one contracted axis has extent `K` (`hr`, `hs`) and which read the left operand at
    (row, k) (`hl0`, `hl1`) and the right at (k, column) (`hr0`, `hr1`). -/
theorem matmul_zero_at {A K B : Nat} {φ₁ φ₂ : FTy}
    (D : DotDims (⟨2, ![A, K]⟩ : Shape) (⟨2, ![K, B]⟩ : Shape) (⟨2, ![A, B]⟩ : Shape))
    (hr : D.contr.rank = 1) (hs : D.contr.size ⟨0, by omega⟩ = K)
    (hl0 : ∀ (i : (⟨2, ![A, B]⟩ : Shape).Idx) (q : D.contr.Idx), (D.lhsIdx i q 0).val = (i 0).val)
    (hl1 : ∀ (i : (⟨2, ![A, B]⟩ : Shape).Idx) (q : D.contr.Idx), (D.lhsIdx i q 1).val = (q ⟨0, by omega⟩).val)
    (hr0 : ∀ (i : (⟨2, ![A, B]⟩ : Shape).Idx) (q : D.contr.Idx), (D.rhsIdx i q 0).val = (q ⟨0, by omega⟩).val)
    (hr1 : ∀ (i : (⟨2, ![A, B]⟩ : Shape).Idx) (q : D.contr.Idx), (D.rhsIdx i q 1).val = (i 1).val)
    (prec : Option ContractPrecision) (l : FVec Ideal (⟨2, ![A, K]⟩ : Shape) φ₁) (r : FVec Ideal (⟨2, ![K, B]⟩ : Shape) φ₂)
    (p : Fin A) (q : Fin B) :
    FloatOps.matmul D prec l r (constant (F := Ideal) (⟨2, ![A, B]⟩ : Shape) .f32 0x00000000#32) (ix2 p q)
      = ∑ k : Fin K, l (ix2 p k) * r (ix2 k q) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Idealize.ShloMosaic.MatmulAt

end
-- ==== Proof.KiVal0.lean ====
/-
  The value of the first kernel region at the ideal float instance: what its two result arrays hold after the region,
  read at an entry, as a function of the arrays the region found.

  One grid point t of twenty multiplies rows 5000·t … 5000·t + 4999 of the node features by each of the two layer-one
  weight matrices. Over the extended reals the change of format before the product is the identity and the product
  accumulates into zero, so entry (p, q) of a point's product is the sum over k of x[p, k] · w[k, q]. Row p of point
  t's feature block is row 5000·t + p of the feature array, each weight matrix is its own single block, and the point
  writes its product back to rows 5000·t … 5000·t + 4999 of the result. The twenty row blocks tile the 100000 rows, so
  after the region entry (r, f) of each result is the sum over k of features[r, k] · weights[k, f].
-/
import proofs.«400510_j11458972746403_3_alg».proof.Proof.KiR0
import proofs.«400510_j11458972746403_3_alg».proof.Proof.LibMatmulAt
import proofs.«400510_j11458972746403_3_alg».proof.Proof.Spec
import proofs.«400510_j11458972746403_3_alg».proof.Proof.Graph
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.Graph

variable (V : (c : Dev nD) → (b : Ref sig .tc) → Buf (Elt Ideal) ((c : Thread nD τ).loc b))

namespace Val0

/-! ## Where the product's dimension numbers read their operands

The record contracts the left operand's axis 1 with the right operand's axis 0 and has no batch axis: at result entry
`i` and contraction index `q` the left operand is read at (i₀, q) and the right at (q, i₁). -/

theorem lhs_proj_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide),
    dif_pos (show (0 : Fin S5000x128.rank) ∈ dot_S5000x128_S128x64_S5000x64_1_0_0_1_n_n.lhsNonContracting by decide)]
  rfl
theorem lhs_proj_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem rhs_proj_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem rhs_proj_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide),
    dif_pos (show (1 : Fin S128x64.rank) ∈ dot_S5000x128_S128x64_S5000x64_1_0_0_1_n_n.rhsNonContracting by decide)]
  rfl

/-! ## A point's products at an entry -/

/-- Entry (p, q) of the product a point computes from its row block `x` and a weight matrix `w`: the change of
    format before the product is the identity on extended reals, and the accumulator starts at zero. -/
theorem prod_at (x : Vec Ideal S5000x128 .f32) (w : Vec Ideal S128x64 .f32) (p : Fin 5000) (q : Fin 64) :
    FloatOps.matmul dot_S5000x128_S128x64_S5000x64_1_0_0_1_n_n none (truncf (F := Ideal) .bf16 x bitsLt_bf16_f32) (truncf (F := Ideal) .bf16 w bitsLt_bf16_f32)
        (constant (F := Ideal) S5000x64 .f32 0x00000000#32) (ix2 p q)
      = ∑ k : Fin 128, x (ix2 p k) * w (ix2 k q) :=
  MatmulAt.matmul_zero_at dot_S5000x128_S128x64_S5000x64_1_0_0_1_n_n rfl rfl lhs_proj_0 lhs_proj_1 rhs_proj_0 rhs_proj_1 none _ _ p q

theorem payL_at (x : Vec Ideal S5000x128 .f32) (w : Vec Ideal S128x64 .f32) (p : Fin 5000) (q : Fin 64) :
    k0_pay2 (F := Ideal) x w (ix2 p q) = ∑ k : Fin 128, x (ix2 p k) * w (ix2 k q) :=
  prod_at x w p q

theorem payR_at (x : Vec Ideal S5000x128 .f32) (w : Vec Ideal S128x64 .f32) (p : Fin 5000) (q : Fin 64) :
    k0_pay3 (F := Ideal) x w (ix2 p q) = ∑ k : Fin 128, x (ix2 p k) * w (ix2 k q) :=
  prod_at x w p q

/-! ## What a point leaves in a result's buffer, at an entry -/

theorem zeros2 : (![0, 0] : Fin 2 → Nat) = fun _ => 0 := funext fun a => by fin_cases a <;> rfl

/-- The one store covers the buffer and the loads read whole buffers, so the first result's buffer holds the product of
    the buffers' contents: entry (p, q) is the sum over k of x[p, k] · w[k, q]. -/
theorem outL_at (x : Vec Ideal S5000x128 .f32) (w : Vec Ideal S128x64 .f32) (p : Fin 5000) (q : Fin 64) :
    outL0 x w (ix2 p q) = ∑ k : Fin 128, x (ix2 p k) * w (ix2 k q) := by
  unfold outL0
  rw [View.canon_unit_zero zeros2, View.ld_unit_zero (S := S5000x128) zeros2, View.ld_unit_zero (S := S128x64) zeros2]
  exact payL_at x w p q

/-- The same for the second result's buffer. -/
theorem outR_at (x : Vec Ideal S5000x128 .f32) (w : Vec Ideal S128x64 .f32) (p : Fin 5000) (q : Fin 64) :
    outR0 x w (ix2 p q) = ∑ k : Fin 128, x (ix2 p k) * w (ix2 k q) := by
  unfold outR0
  rw [View.canon_unit_zero zeros2, View.ld_unit_zero (S := S5000x128) zeros2, View.ld_unit_zero (S := S128x64) zeros2]
  exact payR_at x w p q

/-! ## Where the blocks sit in their arrays -/

/-- At point `t` of the twenty, the feature rows' block and both results' blocks are block row `t` (column block 0),
    and each weight matrix is its one whole block. Decided over the grid. -/
theorem where0 : ∀ t : Fin cfg0.N, t.val < 20
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Row `p` of point `t`'s feature block is row 5000·t + p of the feature array. -/
theorem rows_at (c : Dev nD) (t : Fin cfg0.N) (p : Fin 5000) (k : Fin 128) (r : Fin 100000)
    (hr : r.val = 5000 * t.val + p.val) :
    blk0 V c 0 t (ix2 p k) = at2 (V c main_arg0) r k := by
  obtain ⟨-, e0, e1, -⟩ := where0 t
  show V c main_arg0 (((cfg0.win 0).blk t).view.emb (ix2 p k)) = V c main_arg0 (ix2 r k)
  refine congrArg _ (funext fun a => Fin.ext ?_)
  match a with
  | ⟨0, _⟩ => show win0_0.index t (0 : Fin 2) * 5000 + 1 * p.val = r.val; omega
  | ⟨1, _⟩ => show win0_0.index t (1 : Fin 2) * 128 + 1 * k.val = k.val; omega

/-- Point `t`'s block of the left weights is the whole matrix. -/
theorem wl_at (c : Dev nD) (t : Fin cfg0.N) (k : Fin 128) (q : Fin 64) :
    blk0 V c 1 t (ix2 k q) = at2 (V c main_arg1) k q := by
  obtain ⟨-, -, -, e0, e1, -⟩ := where0 t
  show V c main_arg1 (((cfg0.win 1).blk t).view.emb (ix2 k q)) = V c main_arg1 (ix2 k q)
  refine congrArg _ (funext fun a => Fin.ext ?_)
  match a with
  | ⟨0, _⟩ => show win0_1.index t (0 : Fin 2) * 128 + 1 * k.val = k.val; omega
  | ⟨1, _⟩ => show win0_1.index t (1 : Fin 2) * 64 + 1 * q.val = q.val; omega

/-- Point `t`'s block of the right weights is the whole matrix. -/
theorem wr_at (c : Dev nD) (t : Fin cfg0.N) (k : Fin 128) (q : Fin 64) :
    blk0 V c 2 t (ix2 k q) = at2 (V c main_arg2) k q := by
  obtain ⟨-, -, -, -, -, e0, e1, -⟩ := where0 t
  show V c main_arg2 (((cfg0.win 2).blk t).view.emb (ix2 k q)) = V c main_arg2 (ix2 k q)
  refine congrArg _ (funext fun a => Fin.ext ?_)
  match a with
  | ⟨0, _⟩ => show win0_2.index t (0 : Fin 2) * 128 + 1 * k.val = k.val; omega
  | ⟨1, _⟩ => show win0_2.index t (1 : Fin 2) * 64 + 1 * q.val = q.val; omega

/-! ## From blocks to the arrays -/

/-- The product of the feature array with the left weights, entry by entry. -/
abbrev projL (c : Dev nD) : S100000x64.Idx → EReal :=
  fun i => Cert.Spec.mm (at2 (V c main_arg0)) (at2 (V c main_arg1)) (i 0) (i 1)
/-- The product of the feature array with the right weights, entry by entry. -/
abbrev projR (c : Dev nD) : S100000x64.Idx → EReal :=
  fun i => Cert.Spec.mm (at2 (V c main_arg0)) (at2 (V c main_arg2)) (i 0) (i 1)

/-- Entry (p, q) of what point `t` leaves in the first result's buffer is entry (5000·t + p, q) of the product of the
    arrays: the sum over k runs over the same terms, each factor read where its block sits. -/
theorem blockL_at (c : Dev nD) (t : Fin cfg0.N) (p : Fin 5000) (q : Fin 64) (r : Fin 100000)
    (hr : r.val = 5000 * t.val + p.val) :
    outL0 (blk0 V c 0 t) (blk0 V c 1 t) (ix2 p q)
      = Cert.Spec.mm (at2 (V c main_arg0)) (at2 (V c main_arg1)) r q :=
  (outL_at _ _ p q).trans
    (Finset.sum_congr rfl fun k _ => congrArg₂ (· * ·) (rows_at V c t p k r hr) (wl_at V c t k q))

theorem blockR_at (c : Dev nD) (t : Fin cfg0.N) (p : Fin 5000) (q : Fin 64) (r : Fin 100000)
    (hr : r.val = 5000 * t.val + p.val) :
    outR0 (blk0 V c 0 t) (blk0 V c 2 t) (ix2 p q)
      = Cert.Spec.mm (at2 (V c main_arg0)) (at2 (V c main_arg2)) r q :=
  (outR_at _ _ p q).trans
    (Finset.sum_congr rfl fun k _ => congrArg₂ (· * ·) (rows_at V c t p k r hr) (wr_at V c t k q))

/-- What point `t` writes back to the first result is block `t` of the product. -/
theorem flushedL_eq (c : Dev nD) (t : Fin cfg0.N) :
    (dat0 (F := Ideal) V c).flushed 3 t = ((cfg0.win 3).blk t).view.read (Elt Ideal) (projL V c) := by
  show (cfg0.win 3).cut (grid0.coords t) ((dat0 V c).after 3 t) = _
  rw [after0_3]
  obtain ⟨ht, -, -, -, -, -, -, e0, e1, -⟩ := where0 t
  funext j
  obtain ⟨p, q, rfl⟩ : ∃ (p : Fin 5000) (q : Fin 64), j = ix2 p q := ⟨j 0, j 1, eq_ix2 j⟩
  have hp : p.val < 5000 := p.isLt
  have hi : ((cfg0.win 3).blk t).view.emb (ix2 p q) = ix2 (⟨5000 * t.val + p.val, by omega⟩ : Fin 100000) q := by
    funext a; apply Fin.ext
    match a with
    | ⟨0, _⟩ => show win0_3.index t (0 : Fin 2) * 5000 + 1 * p.val = 5000 * t.val + p.val; omega
    | ⟨1, _⟩ => show win0_3.index t (1 : Fin 2) * 64 + 1 * q.val = q.val; omega
  show outL0 (blk0 V c 0 t) (blk0 V c 1 t) (ix2 p q) = projL V c (((cfg0.win 3).blk t).view.emb (ix2 p q))
  rw [hi]
  exact blockL_at V c t p q _ rfl

/-- What point `t` writes back to the second result is block `t` of the product. -/
theorem flushedR_eq (c : Dev nD) (t : Fin cfg0.N) :
    (dat0 (F := Ideal) V c).flushed 4 t = ((cfg0.win 4).blk t).view.read (Elt Ideal) (projR V c) := by
  show (cfg0.win 4).cut (grid0.coords t) ((dat0 V c).after 4 t) = _
  rw [after0_4]
  obtain ⟨ht, -, -, -, -, -, -, -, -, e0, e1⟩ := where0 t
  funext j
  obtain ⟨p, q, rfl⟩ : ∃ (p : Fin 5000) (q : Fin 64), j = ix2 p q := ⟨j 0, j 1, eq_ix2 j⟩
  have hp : p.val < 5000 := p.isLt
  have hi : ((cfg0.win 4).blk t).view.emb (ix2 p q) = ix2 (⟨5000 * t.val + p.val, by omega⟩ : Fin 100000) q := by
    funext a; apply Fin.ext
    match a with
    | ⟨0, _⟩ => show win0_4.index t (0 : Fin 2) * 5000 + 1 * p.val = 5000 * t.val + p.val; omega
    | ⟨1, _⟩ => show win0_4.index t (1 : Fin 2) * 64 + 1 * q.val = q.val; omega
  show outR0 (blk0 V c 0 t) (blk0 V c 2 t) (ix2 p q) = projR V c (((cfg0.win 4).blk t).view.emb (ix2 p q))
  rw [hi]
  exact blockR_at V c t p q _ rfl

/-- An entry of a result array is in point `t`'s block iff on each axis its coordinate is in the block's range. -/
theorem mem_blockL (t : Fin cfg0.N) (i : S100000x64.Idx) :
    i ∈ ((cfg0.win 3).blk t).view.set
      ↔ ∀ a : Fin 2, win0_3.index t a * S5000x64.size a ≤ (i a).val ∧ (i a).val < win0_3.index t a * S5000x64.size a + S5000x64.size a := by
  show i ∈ ((View.whole main_v11_0).slice (win0_3.rect t)).set ↔ _
  rw [View.set_slice_whole, Rect.mem_set_unit]
  exact Iff.rfl
theorem mem_blockR (t : Fin cfg0.N) (i : S100000x64.Idx) :
    i ∈ ((cfg0.win 4).blk t).view.set
      ↔ ∀ a : Fin 2, win0_4.index t a * S5000x64.size a ≤ (i a).val ∧ (i a).val < win0_4.index t a * S5000x64.size a + S5000x64.size a := by
  show i ∈ ((View.whole main_v11_1).slice (win0_4.rect t)).set ↔ _
  rw [View.set_slice_whole, Rect.mem_set_unit]
  exact Iff.rfl

/-- Row `r` of a result is written by point `r / 5000`: the twenty blocks of 5000 rows tile the 100000 rows. -/
theorem coverL (i : S100000x64.Idx) :
    ∃ t : Fin cfg0.N, (cfg0.win 3).flush t = true ∧ i ∈ ((cfg0.win 3).blk t).view.set := by
  have h0 : (i 0).val < 100000 := (i 0).isLt
  have h1 : (i 1).val < 64 := (i 1).isLt
  let t : Fin cfg0.N := ⟨(i 0).val / 5000, by rw [show cfg0.N = 20 from N_0]; omega⟩
  have tv : t.val = (i 0).val / 5000 := rfl
  obtain ⟨-, -, -, -, -, -, -, e0, e1, -⟩ := where0 t
  refine ⟨t, flush0_3 t, ?_⟩
  rw [mem_blockL]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 64 ≤ (i 1).val ∧ (i 1).val < win0_3.index t (1 : Fin 2) * 64 + 64; omega
theorem coverR (i : S100000x64.Idx) :
    ∃ t : Fin cfg0.N, (cfg0.win 4).flush t = true ∧ i ∈ ((cfg0.win 4).blk t).view.set := by
  have h0 : (i 0).val < 100000 := (i 0).isLt
  have h1 : (i 1).val < 64 := (i 1).isLt
  let t : Fin cfg0.N := ⟨(i 0).val / 5000, by rw [show cfg0.N = 20 from N_0]; omega⟩
  have tv : t.val = (i 0).val / 5000 := rfl
  obtain ⟨-, -, -, -, -, -, -, -, -, e0, e1⟩ := where0 t
  refine ⟨t, flush0_4 t, ?_⟩
  rw [mem_blockR]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 64 ≤ (i 1).val ∧ (i 1).val < win0_4.index t (1 : Fin 2) * 64 + 64; omega

end Val0

/-! ## The two result arrays after the region -/

/-- After the region the first result array holds, at every entry, the features times the left weights. -/
theorem projL_at (c : Dev nD) (r : Fin 100000) (f : Fin 64) :
    (dat0 (F := Ideal) V c).arrAt 3 cfg0.N (ix2 r f)
      = Cert.Spec.mm (at2 (V c main_arg0)) (at2 (V c main_arg1)) r f :=
  congrFun ((dat0 (F := Ideal) V c).arrAt_eq_of_cover 3 (Val0.projL V c) (fun t _ => Val0.flushedL_eq V c t) Val0.coverL) (ix2 r f)

/-- After the region the second result array holds, at every entry, the features times the right weights. -/
theorem projR_at (c : Dev nD) (r : Fin 100000) (f : Fin 64) :
    (dat0 (F := Ideal) V c).arrAt 4 cfg0.N (ix2 r f)
      = Cert.Spec.mm (at2 (V c main_arg0)) (at2 (V c main_arg2)) r f :=
  congrFun ((dat0 (F := Ideal) V c).arrAt_eq_of_cover 4 (Val0.projR V c) (fun t _ => Val0.flushedR_eq V c t) Val0.coverR) (ix2 r f)

end Cert.KernelIdeal.Hand

end
-- ==== Proof.KiVal1.lean ====
/-
  The value of the second kernel region at the ideal float instance: what its result array holds after the region, read
  at an entry, as a function of the arrays the region found.

  One grid point t of twenty takes rows 5000·t … 5000·t + 4999 of the neighbour mean and of the root projection, and
  the bias row, and stores max(mean + root + bias, 0). Over the extended reals the casts to the same shape change
  nothing, the bias row stretched down the rows reads its entry q at (p, q), and the constant's word is zero, so entry
  (p, q) of a point's result is max(mean[p, q] + root[p, q] + bias[0, q], 0). Row p of point t's blocks is row
  5000·t + p of the arrays, the bias row is its own single block, and the point writes its result back to rows
  5000·t … 5000·t + 4999. The twenty row blocks tile the 100000 rows, so after the region entry (r, f) of the hidden
  features is max(mean[r, f] + root[r, f] + bias[0, f], 0).
-/
import proofs.«400510_j11458972746403_3_alg».proof.Proof.KiR1
import proofs.«400510_j11458972746403_3_alg».proof.Proof.LibMatmulAt
import proofs.«400510_j11458972746403_3_alg».proof.Proof.Spec
import proofs.«400510_j11458972746403_3_alg».proof.Proof.Graph
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.Graph

variable (V : (c : Dev nD) → (b : Ref sig .tc) → Buf (Elt Ideal) ((c : Thread nD τ).loc b))

namespace Val1

/-! ## A point's rectified sum at an entry -/

/-- The bias row stretched down the 5000 rows reads, at (p, q), the row's entry q. -/
theorem bias_at (b : Vec Ideal S1x64 .f32) (p : Fin 5000) (q : Fin 64) :
    broadcastTo S5000x64 b broadcasts_S1x64_S5000x64 (ix2 p q) = b (ix2 (0 : Fin 1) q) :=
  broadcastTo_apply b broadcasts_S1x64_S5000x64 (ix2 p q) (ix2 (0 : Fin 1) q) fun a => by
    match a with
    | ⟨0, _⟩ => rfl
    | ⟨1, _⟩ => rfl

/-- Entry (p, q) of what a point computes from its blocks of the neighbour mean `mn` and the root projection `xr`
    and the bias row `b`: the casts to the same shape change nothing, the sums and the maximum are the extended reals'
    at the entry, and the constant's word is zero. -/
theorem payH_at (mn xr : Vec Ideal S5000x64 .f32) (b : Vec Ideal S1x64 .f32) (p : Fin 5000) (q : Fin 64) :
    k1_pay1 (F := Ideal) mn xr b (ix2 p q) = max (mn (ix2 p q) + xr (ix2 p q) + b (ix2 (0 : Fin 1) q)) 0 := by
  unfold k1_pay1
  show max (shapeCast S5000x64 mn shapeCasts_S5000x64_S5000x64 (ix2 p q)
        + shapeCast S5000x64 xr shapeCasts_S5000x64_S5000x64 (ix2 p q)
        + broadcastTo S5000x64 (shapeCast S1x64 b shapeCasts_S1x64_S1x64) broadcasts_S1x64_S5000x64 (ix2 p q))
      (Ideal.ofBits .f32 0x00000000#32) = _
  rw [shapeCast_self mn, shapeCast_self xr, shapeCast_self b, bias_at, Ideal.ofBits_zero_f32]

theorem zeros2 : (![0, 0] : Fin 2 → Nat) = fun _ => 0 := funext fun a => by fin_cases a <;> rfl

/-- The one store covers the buffer and the loads read whole buffers, so the result's buffer holds the rectified sum of
    the buffers' contents. -/
theorem outH_at (mn xr : Vec Ideal S5000x64 .f32) (b : Vec Ideal S1x64 .f32) (p : Fin 5000) (q : Fin 64) :
    outH1 mn xr b (ix2 p q) = max (mn (ix2 p q) + xr (ix2 p q) + b (ix2 (0 : Fin 1) q)) 0 := by
  unfold outH1
  rw [View.canon_unit_zero zeros2, View.ld_unit_zero (S := S5000x64) zeros2, View.ld_unit_zero (S := S5000x64) zeros2,
    View.ld_unit_zero (S := S1x64) zeros2]
  exact payH_at mn xr b p q

/-! ## Where the blocks sit in their arrays -/

/-- At point `t` of the twenty, the blocks of the neighbour mean, of the root projection and of the result are block
    row `t` (column block 0), and the bias row is its one whole block. Decided over the grid. -/
theorem where1 : ∀ t : Fin cfg1.N, t.val < 20
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row `p` of point `t`'s block of the neighbour mean is row 5000·t + p of the array. -/
theorem mean_at (c : Dev nD) (t : Fin cfg1.N) (p : Fin 5000) (q : Fin 64) (r : Fin 100000)
    (hr : r.val = 5000 * t.val + p.val) :
    blk1 V c 0 t (ix2 p q) = at2 (V c main_v23) r q := by
  obtain ⟨-, e0, e1, -⟩ := where1 t
  show V c main_v23 (((cfg1.win 0).blk t).view.emb (ix2 p q)) = V c main_v23 (ix2 r q)
  refine congrArg _ (funext fun a => Fin.ext ?_)
  match a with
  | ⟨0, _⟩ => show win1_0.index t (0 : Fin 2) * 5000 + 1 * p.val = r.val; omega
  | ⟨1, _⟩ => show win1_0.index t (1 : Fin 2) * 64 + 1 * q.val = q.val; omega

/-- Row `p` of point `t`'s block of the root projection is row 5000·t + p of the array. -/
theorem root_at (c : Dev nD) (t : Fin cfg1.N) (p : Fin 5000) (q : Fin 64) (r : Fin 100000)
    (hr : r.val = 5000 * t.val + p.val) :
    blk1 V c 1 t (ix2 p q) = at2 (V c main_v11_1) r q := by
  obtain ⟨-, -, -, e0, e1, -⟩ := where1 t
  show V c main_v11_1 (((cfg1.win 1).blk t).view.emb (ix2 p q)) = V c main_v11_1 (ix2 r q)
  refine congrArg _ (funext fun a => Fin.ext ?_)
  match a with
  | ⟨0, _⟩ => show win1_1.index t (0 : Fin 2) * 5000 + 1 * p.val = r.val; omega
  | ⟨1, _⟩ => show win1_1.index t (1 : Fin 2) * 64 + 1 * q.val = q.val; omega

/-- Point `t`'s block of the bias is the whole row. -/
theorem biasrow_at (c : Dev nD) (t : Fin cfg1.N) (q : Fin 64) :
    blk1 V c 2 t (ix2 (0 : Fin 1) q) = at2 (V c main_v24) (0 : Fin 1) q := by
  obtain ⟨-, -, -, -, -, e0, e1, -⟩ := where1 t
  show V c main_v24 (((cfg1.win 2).blk t).view.emb (ix2 (0 : Fin 1) q)) = V c main_v24 (ix2 (0 : Fin 1) q)
  refine congrArg _ (funext fun a => Fin.ext ?_)
  match a with
  | ⟨0, _⟩ => show win1_2.index t (0 : Fin 2) * 1 + 1 * 0 = 0; omega
  | ⟨1, _⟩ => show win1_2.index t (1 : Fin 2) * 64 + 1 * q.val = q.val; omega

/-! ## From blocks to the array -/

/-- The rectified sum of the arrays, entry by entry. -/
abbrev hidden (c : Dev nD) : S100000x64.Idx → EReal :=
  fun i => max (at2 (V c main_v23) (i 0) (i 1) + at2 (V c main_v11_1) (i 0) (i 1) + at2 (V c main_v24) (0 : Fin 1) (i 1)) 0

/-- Entry (p, q) of what point `t` leaves in the result's buffer is the rectified sum of the arrays at (5000·t + p, q):
    each term read where its block sits. -/
theorem blockH_at (c : Dev nD) (t : Fin cfg1.N) (p : Fin 5000) (q : Fin 64) (r : Fin 100000)
    (hr : r.val = 5000 * t.val + p.val) :
    outH1 (blk1 V c 0 t) (blk1 V c 1 t) (blk1 V c 2 t) (ix2 p q)
      = max (at2 (V c main_v23) r q + at2 (V c main_v11_1) r q + at2 (V c main_v24) (0 : Fin 1) q) 0 :=
  (outH_at _ _ _ p q).trans
    (congrArg (max · (0 : EReal))
      (congrArg₂ (· + ·) (congrArg₂ (· + ·) (mean_at V c t p q r hr) (root_at V c t p q r hr)) (biasrow_at V c t q)))

/-- What point `t` writes back is block `t` of the rectified sum. -/
theorem flushedH_eq (c : Dev nD) (t : Fin cfg1.N) :
    (dat1 (F := Ideal) V c).flushed 3 t = ((cfg1.win 3).blk t).view.read (Elt Ideal) (hidden V c) := by
  show (cfg1.win 3).cut (grid1.coords t) ((dat1 V c).after 3 t) = _
  rw [after1_3]
  obtain ⟨ht, -, -, -, -, -, -, e0, e1⟩ := where1 t
  funext j
  obtain ⟨p, q, rfl⟩ : ∃ (p : Fin 5000) (q : Fin 64), j = ix2 p q := ⟨j 0, j 1, eq_ix2 j⟩
  have hp : p.val < 5000 := p.isLt
  have hi : ((cfg1.win 3).blk t).view.emb (ix2 p q) = ix2 (⟨5000 * t.val + p.val, by omega⟩ : Fin 100000) q := by
    funext a; apply Fin.ext
    match a with
    | ⟨0, _⟩ => show win1_3.index t (0 : Fin 2) * 5000 + 1 * p.val = 5000 * t.val + p.val; omega
    | ⟨1, _⟩ => show win1_3.index t (1 : Fin 2) * 64 + 1 * q.val = q.val; omega
  show outH1 (blk1 V c 0 t) (blk1 V c 1 t) (blk1 V c 2 t) (ix2 p q)
    = hidden V c (((cfg1.win 3).blk t).view.emb (ix2 p q))
  rw [hi]
  exact blockH_at V c t p q _ rfl

/-- An entry of the result array is in point `t`'s block iff on each axis its coordinate is in the block's range. -/
theorem mem_blockH (t : Fin cfg1.N) (i : S100000x64.Idx) :
    i ∈ ((cfg1.win 3).blk t).view.set
      ↔ ∀ a : Fin 2, win1_3.index t a * S5000x64.size a ≤ (i a).val ∧ (i a).val < win1_3.index t a * S5000x64.size a + S5000x64.size a := by
  show i ∈ ((View.whole main_v25).slice (win1_3.rect t)).set ↔ _
  rw [View.set_slice_whole, Rect.mem_set_unit]
  exact Iff.rfl

/-- Row `r` of the result is written by point `r / 5000`: the twenty blocks of 5000 rows tile the 100000 rows. -/
theorem coverH (i : S100000x64.Idx) :
    ∃ t : Fin cfg1.N, (cfg1.win 3).flush t = true ∧ i ∈ ((cfg1.win 3).blk t).view.set := by
  have h0 : (i 0).val < 100000 := (i 0).isLt
  have h1 : (i 1).val < 64 := (i 1).isLt
  let t : Fin cfg1.N := ⟨(i 0).val / 5000, by rw [show cfg1.N = 20 from N_1]; omega⟩
  have tv : t.val = (i 0).val / 5000 := rfl
  obtain ⟨-, -, -, -, -, -, -, e0, e1⟩ := where1 t
  refine ⟨t, flush1_3 t, ?_⟩
  rw [mem_blockH]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 64 ≤ (i 1).val ∧ (i 1).val < win1_3.index t (1 : Fin 2) * 64 + 64; omega

end Val1

/-! ## The result array after the region -/

/-- After the region the hidden features hold, at every entry, the maximum of zero and the sum of the neighbour mean,
    the root projection and the bias there. -/
theorem hidden_at (c : Dev nD) (r : Fin 100000) (f : Fin 64) :
    (dat1 (F := Ideal) V c).arrAt 3 cfg1.N (ix2 r f)
      = max (at2 (V c main_v23) r f + at2 (V c main_v11_1) r f + at2 (V c main_v24) (0 : Fin 1) f) 0 :=
  congrFun ((dat1 (F := Ideal) V c).arrAt_eq_of_cover 3 (Val1.hidden V c) (fun t _ => Val1.flushedH_eq V c t) Val1.coverH) (ix2 r f)

end Cert.KernelIdeal.Hand

end
-- ==== Proof.KiHost.lean ====
/-
  THE HOST OPERATIONS OF THE PROGRAM, READ AT THE IDEAL VALUES, STRETCH BY STRETCH.

  Between its three kernel regions the program runs four stretches of whole-array operations. Read at an entry, each
  stretch's result is a function of the specification:

  • the first cuts the edge list into its row of source words and its row of target words and counts, for each node, the
    edges whose target word names it, a count below one raised to one: the in-degree;
  • region 0 leaves the two products `x · Wl` and `x · Wr`; the second stretch wraps a negative source word by the node
    count, gathers the rows of `x · Wl` by source, adds them up by target and divides by the in-degree: the mean over a
    node's incoming edges of the projected rows; region 1 adds to it `x · Wr` and the bias and cuts off at zero: the
    first layer, projecting before aggregating;
  • the third stretch takes the same mean of the first layer's rows, and hands region 2 the node-to-graph words as a
    column and the second bias as a row;
  • region 2 leaves per-graph row sums and per-graph node counts in two slabs, one for each half of the nodes; the last
    stretch adds the slabs and divides the sums by the counts, a count below one raised to one.

  A layout operation (a slice, a change of shape, a broadcast) read at an entry written by its coordinates is its
  operand at the entry those coordinates name; a gather of rows reads the row its index word names, clamped into range;
  a scatter-add adds into the row its index word names and into none when the word is out of range. The two
  mean-aggregation stretches are one function of the arrays they read, proved once.
-/
import proofs.«400510_j11458972746403_3_alg».proof.Proof.KiChain
import proofs.«400510_j11458972746403_3_alg».proof.Proof.Spec
import proofs.«400510_j11458972746403_3_alg».proof.Proof.Graph
import proofs.«400510_j11458972746403_3_alg».proof.Proof.LibGatherScatterAt
import proofs.«400510_j11458972746403_3_alg».proof.Proof.KiVal0
import proofs.«400510_j11458972746403_3_alg».proof.Proof.KiVal1
import Idealize.ShloMosaic.Lib.ValueIdx
import Idealize.ShloMosaic.Lib.Pipeline.Value
import Idealize.ShloMosaic.Lib.ValueLayout
import Idealize.ShloMosaic.Lib.StableHlo.Run
import Idealize.ShloMosaic.PureOps.Ideal.Laws
import Idealize.ShloMosaic.Lib.IdealHost

set_option maxRecDepth 16384

noncomputable section

open scoped BigOperators

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo Idealize.ShloMosaic.ValueIdx Idealize.ShloMosaic.GatherScatterAt
open Cert.Graph

/-! ## Layout operations read at coordinates

  Each host stage is a composition of a few layout operations around a gather, a scatter-add, a maximum or a quotient.
  Read at an entry written by its coordinates, a layout operation is its operand at the entry the coordinates name. -/

/-- A column vector made from a vector (a size-one trailing axis added) holds the vector's entry in each row. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A vector broadcast along a new trailing axis of size one holds the vector's entry in each row. -/
theorem broadcastCol_apply {α : Type} {a : ℕ} (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ ![0] h x (ix2 i u) = x (ix1 i) :=
  broadcastInDim_apply _ h x _ _ fun ax => match ax with
    | ⟨0, _⟩ => by
      show i.val = if a = 1 then 0 else i.val
      split
      · omega
      · rfl

/-- A column broadcast across the columns of a matrix holds, in every column, the column's entry of that row. -/
theorem broadcastRows_apply {α : Type} {a b : ℕ} (x : (⟨2, ![a, 1]⟩ : Shape).Idx → α)
    (h : (⟨2, ![a, 1]⟩ : Shape).BroadcastsInDim ⟨2, ![a, b]⟩ (![0, 1] : Fin 2 → Fin 2)) (i : Fin a) (j : Fin b) :
    broadcastInDim ⟨2, ![a, b]⟩ ![0, 1] h x (ix2 i j) = x (ix2 i (0 : Fin 1)) :=
  broadcastInDim_apply _ h x _ _ fun ax => match ax with
    | ⟨0, _⟩ => by
      show i.val = if a = 1 then 0 else i.val
      split
      · omega
      · rfl
    | ⟨1, _⟩ => by
      show 0 = if (1 : ℕ) = 1 then 0 else j.val
      rw [if_pos rfl]

/-- A scalar constant broadcast to any shape is that constant at every entry. -/
theorem fillF_apply {t : Shape} (h : S_.BroadcastsInDim t (![] : Fin 0 → Fin t.rank)) (b : BitVec 32) (j : t.Idx) :
    broadcastInDim t ![] h (constant (F := Ideal) S_ .f32 b) j = Ideal.ofBits .f32 b :=
  broadcastInDim_apply _ h _ j ix0 fun ax => ax.elim0

/-- An integer scalar constant broadcast to any shape is that constant at every entry. -/
theorem fillI_apply {t : Shape} (h : S_.BroadcastsInDim t (![] : Fin 0 → Fin t.rank)) (b : BitVec 32) (j : t.Idx) :
    broadcastInDim t ![] h (constantI S_ 32 b) j = b :=
  broadcastInDim_apply _ h _ j ix0 fun ax => ax.elim0

/-- Row `k` of the edge list, cut out as a one-row matrix and flattened, read at an edge. -/
theorem edgeRow_apply (o : ℕ) (k : Fin 2) (hk : k.val = o) (ei : IVec S2x1600000 32)
    (hs : S2x1600000.Slices ![o, 0] S1x1600000) (hc : S1x1600000.ShapeCasts S1600000) (e : Fin 1600000) :
    shapeCast S1600000 (extractStridedSlice S1x1600000 ![o, 0] ei hs) hc (ix1 e) = ei (ix2 k e) := by
  rw [shapeCast_1a_a_apply]
  exact slice2_axis0_apply o ei hs (0 : Fin 1) e k (by rw [hk]; rfl)

/-- A word read as a clamped row is the row a gather reads. -/
theorem rowOf_of_word {E : ℕ} (N : ℕ) (hN : 0 < N) (idx : IVec ⟨2, ![E, 1]⟩ 32) (e : Fin E) (wd : BitVec 32)
    (h : idx (ix2 e (0 : Fin 1)) = wd) : rowOf N hN idx e = clampRow N hN wd := by
  rw [← h]; rfl

/-- A word read as a row, none outside the range, is the segment a scatter-add adds into. -/
theorem segOf_of_word {E : ℕ} (N : ℕ) (idx : IVec ⟨2, ![E, 1]⟩ 32) (e : Fin E) (wd : BitVec 32)
    (h : idx (ix2 e (0 : Fin 1)) = wd) : segOf N idx e = rowIn N wd := by
  rw [← h]; rfl

/-- The scalar constant zero broadcast to any shape is zero at every entry. -/
theorem fillZero_apply {t : Shape} (h : S_.BroadcastsInDim t (![] : Fin 0 → Fin t.rank)) (j : t.Idx) :
    broadcastInDim t ![] h (constant (F := Ideal) S_ .f32 0#32) j = (0 : EReal) :=
  (fillF_apply h _ j).trans Ideal.ofBits_zero_f32

/-- The scalar constant one broadcast to any shape is one at every entry. -/
theorem fillOne_apply {t : Shape} (h : S_.BroadcastsInDim t (![] : Fin 0 → Fin t.rank)) (j : t.Idx) :
    broadcastInDim t ![] h (constant (F := Ideal) S_ .f32 0x3F800000#32) j = (1 : EReal) :=
  (fillF_apply h _ j).trans Ideal.ofBits_one_f32

/-! ## The program's gather and scatter-adds are the row gather and the row and vector scatter-adds

  The dimension numbers the program prints are those of a gather of whole rows by a column of indices and of
  scatter-adds of whole rows, or of single entries, by a column of indices. -/

theorem degScatter_eq (X : FVec Ideal S100000 .f32) (I : IVec S1600000x1 32) (Y : FVec Ideal S1600000 .f32) :
    Host.scatterAdd scatter_S100000_S1600000x1_S1600000_n_0_0_1 X I Y
      = Ideal.hostScatterAdd (vecScatterDims 100000 1600000 scatter_S100000_S1600000x1_S1600000_n_0_0_1_wf) X I Y := rfl

theorem rowScatter_eq (X : FVec Ideal S100000x64 .f32) (I : IVec S1600000x1 32) (Y : FVec Ideal S1600000x64 .f32) :
    Host.scatterAdd scatter_S100000x64_S1600000x1_S1600000x64_1_0_0_1 X I Y
      = Ideal.hostScatterAdd (rowScatterDims 100000 64 1600000 scatter_S100000x64_S1600000x1_S1600000x64_1_0_0_1_wf) X I Y := rfl

theorem rowGather_eq (X : FVec Ideal S100000x64 .f32) (I : IVec S1600000x1 32) :
    Host.gather gather_S100000x64_S1600000x1_S1600000x64_1_0_n_n_0_1_164 X I
      = Host.gather (rowGatherDims 100000 64 1600000 gather_S100000x64_S1600000x1_S1600000x64_1_0_n_n_0_1_164_wf) X I := rfl

/-! ## The two stage functions

  Each is the composed term of one stretch's operations, as a function of the arrays the stretch reads. -/

/-- The in-degree column as a function of the vector of target words: ones added up by target into zeros, at least
    one, as a column. -/
def degStage (v3 : IVec S1600000 32) : FVec Ideal S100000x1 .f32 :=
  shapeCast S100000x1
    (maximumf
      (Host.scatterAdd scatter_S100000_S1600000x1_S1600000_n_0_0_1
        (broadcastInDim S100000 ![] bcast_S_S100000 (constant (F := Ideal) S_ .f32 0#32))
        (broadcastInDim S1600000x1 ![0] bcast_S1600000_S1600000x1_0 v3)
        (broadcastInDim S1600000 ![] bcast_S_S1600000 (constant (F := Ideal) S_ .f32 0x3F800000#32)))
      (broadcastInDim S100000 ![] bcast_S_S100000 (constant (F := Ideal) S_ .f32 0x3F800000#32)))
    shapeCasts_S100000_S100000x1

/-- Read at a node, the in-degree column is the specification's in-degree. -/
theorem degStage_apply (v3 : IVec S1600000 32) (ei : IVec S2x1600000 32)
    (h3 : ∀ e : Fin 1600000, v3 (ix1 e) = ei (ix2 (1 : Fin 2) e)) (n : Fin 100000) (u : Fin 1) :
    degStage v3 (ix2 n u) = Cert.Spec.deg (dst ei) n := by
  unfold degStage
  refine (shapeCast_a_a1_apply _ _ n u).trans ?_
  refine (maximumf_apply _ _ (ix1 n)).trans ?_
  unfold Cert.Spec.deg
  refine congrArg₂ max ?_ (fillOne_apply _ _)
  refine (congrFun (degScatter_eq _ _ _) (ix1 n)).trans ?_
  refine (hostScatterAdd_vec_apply _ _ _ _ n).trans ?_
  refine (congrArg₂ (· + ·) (fillZero_apply _ _) (Finset.sum_congr rfl fun e _ => ?_)).trans (zero_add _)
  have hw : segOf 100000 (broadcastInDim S1600000x1 ![0] bcast_S1600000_S1600000x1_0 v3) e = dst ei e :=
    segOf_of_word 100000 _ e (dstWord ei e) ((broadcastCol_apply v3 _ e 0).trans (h3 e))
  rw [hw]
  exact if_congr Iff.rfl (fillOne_apply _ _) rfl

/-- A mean-aggregation stage: the source words `v1` wrapped where negative, the rows of `P` gathered by source,
    added up by the target words `v3` into zeros, and divided by the in-degree column `d` broadcast across columns. -/
def meanStage (P : FVec Ideal S100000x64 .f32) (v1 v3 : IVec S1600000 32) (d : FVec Ideal S100000x1 .f32) :
    FVec Ideal S100000x64 .f32 :=
  Host.divf
    (Host.scatterAdd scatter_S100000x64_S1600000x1_S1600000x64_1_0_0_1
      (broadcastInDim S100000x64 ![] bcast_S_S100000x64 (constant (F := Ideal) S_ .f32 0#32))
      (broadcastInDim S1600000x1 ![0] bcast_S1600000_S1600000x1_0 v3)
      (Host.gather gather_S100000x64_S1600000x1_S1600000x64_1_0_n_n_0_1_164 P
        (broadcastInDim S1600000x1 ![0] bcast_S1600000_S1600000x1_0
          (select (cmpi .slt v1 (broadcastInDim S1600000 ![] bcast_S_S1600000 (constantI S_ 32 0#32)))
            (addi v1 (broadcastInDim S1600000 ![] bcast_S_S1600000 (constantI S_ 32 100000#32))) v1))))
    (broadcastInDim S100000x64 ![0, 1] bcast_S100000x1_S100000x64_0_1 d)

/-- The gather's index column holds the wrapped source words. -/
theorem srcCol_apply (v1 : IVec S1600000 32) (ei : IVec S2x1600000 32)
    (h1 : ∀ e : Fin 1600000, v1 (ix1 e) = ei (ix2 (0 : Fin 2) e)) (e : Fin 1600000) (u : Fin 1) :
    broadcastInDim S1600000x1 ![0] bcast_S1600000_S1600000x1_0
      (select (cmpi .slt v1 (broadcastInDim S1600000 ![] bcast_S_S1600000 (constantI S_ 32 0#32)))
        (addi v1 (broadcastInDim S1600000 ![] bcast_S_S1600000 (constantI S_ 32 100000#32))) v1) (ix2 e u)
      = srcWord ei e := by
  refine (broadcastCol_apply _ _ e u).trans ?_
  refine (select_apply _ _ _ (ix1 e)).trans ?_
  unfold srcWord
  exact congr (congr (congrArg Scalar.select (congrArg₂ (IntOp.cmpi .slt) (h1 e) (fillI_apply _ _ _)))
    (congrArg₂ IntOp.addi (h1 e) (fillI_apply _ _ _))) (h1 e)

/-- Read at node `n`, column `f`, a mean-aggregation stage is the specification's mean over incoming edges. -/
theorem meanStage_apply (P : FVec Ideal S100000x64 .f32) (v1 v3 : IVec S1600000 32) (d : FVec Ideal S100000x1 .f32)
    (ei : IVec S2x1600000 32)
    (h1 : ∀ e : Fin 1600000, v1 (ix1 e) = ei (ix2 (0 : Fin 2) e))
    (h3 : ∀ e : Fin 1600000, v3 (ix1 e) = ei (ix2 (1 : Fin 2) e))
    (hd : ∀ n : Fin 100000, d (ix2 n (0 : Fin 1)) = Cert.Spec.deg (dst ei) n) (n : Fin 100000) (f : Fin 64) :
    meanStage P v1 v3 d (ix2 n f) = Cert.Spec.mean (src ei) (dst ei) (at2 P) n f := by
  unfold meanStage Cert.Spec.mean
  refine congrArg₂ Ideal.div ?_ ((broadcastRows_apply d _ n f).trans (hd n))
  refine (congrFun (rowScatter_eq _ _ _) (ix2 n f)).trans ?_
  refine (hostScatterAdd_rows_apply _ _ _ _ n f).trans ?_
  unfold Cert.Spec.agg
  refine (congrArg₂ (· + ·) (fillZero_apply _ _) (Finset.sum_congr rfl fun e _ => ?_)).trans (zero_add _)
  have hw : segOf 100000 (broadcastInDim S1600000x1 ![0] bcast_S1600000_S1600000x1_0 v3) e = dst ei e :=
    segOf_of_word 100000 _ e (dstWord ei e) ((broadcastCol_apply v3 _ e 0).trans (h3 e))
  rw [hw]
  refine if_congr Iff.rfl ?_ rfl
  refine (congrFun (rowGather_eq _ _) (ix2 e f)).trans ?_
  refine (gather_rows_apply (by decide) _ P _ e f).trans ?_
  exact congrArg (fun r => P (ix2 r f)) (rowOf_of_word 100000 _ _ e (srcWord ei e) (srcCol_apply v1 ei h1 e 0))

/-! ## The program's inputs, and what passes through -/

variable (m : (ℓ : Loc nD τ sig) → Buf (Elt Ideal) ℓ) (c : Dev nD)

/-- The node features. -/
abbrev inX : S100000x128.Idx → EReal := m ((c : Thread nD τ).loc main_arg0)
/-- The first layer's two weight matrices and its bias. -/
abbrev inWl1 : S128x64.Idx → EReal := m ((c : Thread nD τ).loc main_arg1)
abbrev inWr1 : S128x64.Idx → EReal := m ((c : Thread nD τ).loc main_arg2)
abbrev inB1 : S64.Idx → EReal := m ((c : Thread nD τ).loc main_arg3)
/-- The second layer's two weight matrices and its bias. -/
abbrev inWl2 : S64x128.Idx → EReal := m ((c : Thread nD τ).loc main_arg4)
abbrev inWr2 : S64x128.Idx → EReal := m ((c : Thread nD τ).loc main_arg5)
abbrev inB2 : S128.Idx → EReal := m ((c : Thread nD τ).loc main_arg6)
/-- The edge list and the node-to-graph words. -/
abbrev inEi : S2x1600000.Idx → BitVec 32 := m ((c : Thread nD τ).loc main_arg7)
abbrev inBi : S100000.Idx → BitVec 32 := m ((c : Thread nD τ).loc main_arg8)

/-- A buffer the first stretch wrote and nothing later writes holds, at every later boundary, what the first stretch
    left in it. -/
theorem W2_same (r : Ref sig .tc) (h0 : ∀ w, Pipeline.arrRef spec0 w ≠ r) : W2 m c r = W1 m c r := W2_of_ne m c r h0
theorem W3_same (r : Ref sig .tc) (h0 : ∀ w, Pipeline.arrRef spec0 w ≠ r) (h1 : r ∉ hostOps1_W) : W3 m c r = W1 m c r :=
  (W3_keep m c r h1).trans (W2_same m c r h0)
theorem W4_same (r : Ref sig .tc) (h0 : ∀ w, Pipeline.arrRef spec0 w ≠ r) (h1 : r ∉ hostOps1_W)
    (h2 : ∀ w, Pipeline.arrRef spec1 w ≠ r) : W4 m c r = W1 m c r :=
  (W4_of_ne m c r h2).trans (W3_same m c r h0 h1)
theorem W5_same (r : Ref sig .tc) (h0 : ∀ w, Pipeline.arrRef spec0 w ≠ r) (h1 : r ∉ hostOps1_W)
    (h2 : ∀ w, Pipeline.arrRef spec1 w ≠ r) (h3 : r ∉ hostOps2_W) : W5 m c r = W1 m c r :=
  (W5_keep m c r h3).trans (W4_same m c r h0 h1 h2)

/-- An input no stretch writes and no region writes back holds at every boundary what it held at launch. -/
theorem W1_launch (r : Ref sig .tc) (h : r ∉ hostOps0_W) : W1 m c r = W0 m c r := W1_keep m c r h

theorem W4_launch (r : Ref sig .tc) (h : r ∉ hostOps0_W) (h0 : ∀ w, Pipeline.arrRef spec0 w ≠ r) (h1 : r ∉ hostOps1_W)
    (h2 : ∀ w, Pipeline.arrRef spec1 w ≠ r) : W4 m c r = W0 m c r :=
  (W4_same m c r h0 h1 h2).trans (W1_launch m c r h)
theorem W5_launch (r : Ref sig .tc) (h : r ∉ hostOps0_W) (h0 : ∀ w, Pipeline.arrRef spec0 w ≠ r) (h1 : r ∉ hostOps1_W)
    (h2 : ∀ w, Pipeline.arrRef spec1 w ≠ r) (h3 : r ∉ hostOps2_W) : W5 m c r = W0 m c r :=
  (W5_same m c r h0 h1 h2 h3).trans (W1_launch m c r h)

/-! ## The first stretch: the edge words and the in-degree -/

/-- Row 0 of the edge list as a vector, after the first stretch. -/
theorem W1_v1 : (W1 m c main_v1 : S1600000.Idx → BitVec 32)
    = shapeCast S1600000 (extractStridedSlice S1x1600000 ![0, 0] (inEi m c) slices_S2x1600000_S1x1600000_0_0)
        shapeCasts_S1x1600000_S1600000 := by
  show StableHlo.after hostOps0 (W0 m c) (Proc.devRef .tc main_v1) = _
  after_results
  rfl

/-- Row 1 of the edge list as a vector, after the first stretch. -/
theorem W1_v3 : (W1 m c main_v3 : S1600000.Idx → BitVec 32)
    = shapeCast S1600000 (extractStridedSlice S1x1600000 ![1, 0] (inEi m c) slices_S2x1600000_S1x1600000_1_0)
        shapeCasts_S1x1600000_S1600000 := by
  show StableHlo.after hostOps0 (W0 m c) (Proc.devRef .tc main_v3) = _
  after_results
  rfl

/-- The source words before wrapping, at an edge. -/
theorem W1_v1_at (e : Fin 1600000) :
    (W1 m c main_v1 : S1600000.Idx → BitVec 32) (ix1 e) = inEi m c (ix2 (0 : Fin 2) e) :=
  (congrFun (W1_v1 m c) (ix1 e)).trans (edgeRow_apply 0 0 rfl _ _ _ e)

/-- The target words, at an edge. -/
theorem W1_v3_at (e : Fin 1600000) :
    (W1 m c main_v3 : S1600000.Idx → BitVec 32) (ix1 e) = inEi m c (ix2 (1 : Fin 2) e) :=
  (congrFun (W1_v3 m c) (ix1 e)).trans (edgeRow_apply 1 1 rfl _ _ _ e)

/-- The in-degree column after the first stretch is the degree stage of the target words. -/
theorem W1_v10 : (W1 m c main_v10 : S100000x1.Idx → EReal)
    = degStage (shapeCast S1600000
        (extractStridedSlice S1x1600000 ![1, 0] (inEi m c) slices_S2x1600000_S1x1600000_1_0)
        shapeCasts_S1x1600000_S1600000) := by
  show StableHlo.after hostOps0 (W0 m c) (Proc.devRef .tc main_v10) = _
  after_results
  rfl

/-- THE IN-DEGREE: the degree column at node `n` is the number of edges into `n`, at least one. -/
theorem deg_at (n : Fin 100000) :
    at2 (W1 m c main_v10 : S100000x1.Idx → EReal) n (0 : Fin 1) = Cert.Spec.deg (dst (inEi m c)) n :=
  (congrFun (W1_v10 m c) (ix2 n 0)).trans
    (degStage_apply _ (inEi m c) (fun e => edgeRow_apply 1 1 rfl _ _ _ e) n 0)

/-! ## Region 0's products, the second stretch, and region 1

  Region 0 leaves `x · Wl` and `x · Wr`. The second stretch takes the mean over incoming edges of the rows of the first
  and turns the bias into a row; region 1 adds the mean, the second product and the bias and cuts off at zero. -/

/-- Region 0's first product at an entry. -/
theorem W2_v11_0_at (r : Fin 100000) (k : Fin 64) :
    at2 (W2 m c main_v11_0 : S100000x64.Idx → EReal) r k = Cert.Spec.mm (at2 (inX m c)) (at2 (inWl1 m c)) r k :=
  (congrFun (W2_arr m c 3) (ix2 r k)).trans ((projL_at (U1 m) c r k).trans
    (congrArg₂ (fun (a : S100000x128.Idx → EReal) (b : S128x64.Idx → EReal) => Cert.Spec.mm (at2 a) (at2 b) r k)
      (W1_launch m c main_arg0 (by decide)) (W1_launch m c main_arg1 (by decide))))

/-- Region 0's second product at an entry, as region 1 finds it. -/
theorem W3_v11_1_at (r : Fin 100000) (k : Fin 64) :
    at2 (W3 m c main_v11_1 : S100000x64.Idx → EReal) r k = Cert.Spec.mm (at2 (inX m c)) (at2 (inWr1 m c)) r k :=
  (congrFun (W3_keep m c main_v11_1 (by decide)) (ix2 r k)).trans
    ((congrFun (W2_arr m c 4) (ix2 r k)).trans ((projR_at (U1 m) c r k).trans
      (congrArg₂ (fun (a : S100000x128.Idx → EReal) (b : S128x64.Idx → EReal) => Cert.Spec.mm (at2 a) (at2 b) r k)
        (W1_launch m c main_arg0 (by decide)) (W1_launch m c main_arg2 (by decide)))))

/-- The second stretch's quotient is a mean-aggregation stage of region 0's first product. -/
theorem W3_v23 : (W3 m c main_v23 : S100000x64.Idx → EReal)
    = meanStage (W2 m c main_v11_0) (W2 m c main_v1) (W2 m c main_v3) (W2 m c main_v10) := by
  show StableHlo.after hostOps1 (W2 m c) (Proc.devRef .tc main_v23) = _
  after_results
  rfl

/-- The first bias as a row. -/
theorem W3_v24 : (W3 m c main_v24 : S1x64.Idx → EReal)
    = shapeCast S1x64 (W2 m c main_arg3 : S64.Idx → EReal) shapeCasts_S64_S1x64 := by
  show StableHlo.after hostOps1 (W2 m c) (Proc.devRef .tc main_v24) = _
  after_results
  rfl

theorem W3_v24_at (u : Fin 1) (f : Fin 64) :
    at2 (W3 m c main_v24 : S1x64.Idx → EReal) u f = at1 (inB1 m c) f :=
  (congrFun (W3_v24 m c) (ix2 u f)).trans ((shapeCast_a_1a_apply _ _ u f).trans
    (congrFun ((W2_same m c main_arg3 (by decide)).trans (W1_launch m c main_arg3 (by decide))) (ix1 f)))

/-- The edge words and the in-degree column as the second stretch finds them. -/
theorem W2_v1_at (e : Fin 1600000) :
    (W2 m c main_v1 : S1600000.Idx → BitVec 32) (ix1 e) = inEi m c (ix2 (0 : Fin 2) e) :=
  (congrFun (W2_same m c main_v1 (by decide)) (ix1 e)).trans (W1_v1_at m c e)
theorem W2_v3_at (e : Fin 1600000) :
    (W2 m c main_v3 : S1600000.Idx → BitVec 32) (ix1 e) = inEi m c (ix2 (1 : Fin 2) e) :=
  (congrFun (W2_same m c main_v3 (by decide)) (ix1 e)).trans (W1_v3_at m c e)
theorem W2_v10_at (n : Fin 100000) :
    (W2 m c main_v10 : S100000x1.Idx → EReal) (ix2 n (0 : Fin 1)) = Cert.Spec.deg (dst (inEi m c)) n :=
  (congrFun (W2_same m c main_v10 (by decide)) (ix2 n 0)).trans (deg_at m c n)

/-- THE FIRST MEAN: the mean over incoming edges of the rows of `x · Wl`. -/
theorem mean1_at (n : Fin 100000) (f : Fin 64) :
    at2 (W3 m c main_v23 : S100000x64.Idx → EReal) n f
      = Cert.Spec.mean (src (inEi m c)) (dst (inEi m c)) (Cert.Spec.mm (at2 (inX m c)) (at2 (inWl1 m c))) n f :=
  (congrFun (W3_v23 m c) (ix2 n f)).trans
    ((meanStage_apply _ _ _ _ (inEi m c) (W2_v1_at m c) (W2_v3_at m c) (W2_v10_at m c) n f).trans
      (congrArg (fun v => Cert.Spec.mean (src (inEi m c)) (dst (inEi m c)) v n f)
        (funext fun r => funext fun k => W2_v11_0_at m c r k)))

/-- THE FIRST LAYER: what region 1 leaves is the specification's first layer, projecting before aggregating. -/
theorem hidden_W4 (n : Fin 100000) (f : Fin 64) :
    at2 (W4 m c main_v25 : S100000x64.Idx → EReal) n f
      = Cert.Spec.hiddenProjFirst (src (inEi m c)) (dst (inEi m c)) (at2 (inX m c)) (at2 (inWl1 m c)) (at2 (inWr1 m c))
          (at1 (inB1 m c)) n f := by
  refine (congrFun (W4_arr m c 3) (ix2 n f)).trans ((hidden_at (U3 m) c n f).trans ?_)
  unfold Cert.Spec.hiddenProjFirst
  exact congrArg (fun t : EReal => max t 0)
    (congrArg₂ (· + ·) (congrArg₂ (· + ·) (mean1_at m c n f) (W3_v11_1_at m c n f)) (W3_v24_at m c 0 f))

/-! ## The third stretch, and what region 2 finds

  The third stretch takes the mean over incoming edges of the first layer's rows, turns the node-to-graph words into a
  column and the second bias into a row. Region 2 reads those, the first layer's output again, and the second layer's
  two weight matrices as they were at launch. -/

/-- The third stretch's quotient is a mean-aggregation stage of the first layer's output. -/
theorem W5_v37 : (W5 m c main_v37 : S100000x64.Idx → EReal)
    = meanStage (W4 m c main_v25) (W4 m c main_v1) (W4 m c main_v3) (W4 m c main_v10) := by
  show StableHlo.after hostOps2 (W4 m c) (Proc.devRef .tc main_v37) = _
  after_results
  rfl

/-- The edge words and the in-degree column as the third stretch finds them. -/
theorem W4_v1_at (e : Fin 1600000) :
    (W4 m c main_v1 : S1600000.Idx → BitVec 32) (ix1 e) = inEi m c (ix2 (0 : Fin 2) e) :=
  (congrFun (W4_same m c main_v1 (by decide) (by decide) (by decide)) (ix1 e)).trans (W1_v1_at m c e)
theorem W4_v3_at (e : Fin 1600000) :
    (W4 m c main_v3 : S1600000.Idx → BitVec 32) (ix1 e) = inEi m c (ix2 (1 : Fin 2) e) :=
  (congrFun (W4_same m c main_v3 (by decide) (by decide) (by decide)) (ix1 e)).trans (W1_v3_at m c e)
theorem W4_v10_at (n : Fin 100000) :
    (W4 m c main_v10 : S100000x1.Idx → EReal) (ix2 n (0 : Fin 1)) = Cert.Spec.deg (dst (inEi m c)) n :=
  (congrFun (W4_same m c main_v10 (by decide) (by decide) (by decide)) (ix2 n 0)).trans (deg_at m c n)

/-- THE SECOND MEAN: the mean over incoming edges of the first layer's rows. -/
theorem mean2_at (n : Fin 100000) (f : Fin 64) :
    at2 (W5 m c main_v37 : S100000x64.Idx → EReal) n f
      = Cert.Spec.mean (src (inEi m c)) (dst (inEi m c))
          (Cert.Spec.hiddenProjFirst (src (inEi m c)) (dst (inEi m c)) (at2 (inX m c)) (at2 (inWl1 m c)) (at2 (inWr1 m c))
            (at1 (inB1 m c))) n f :=
  (congrFun (W5_v37 m c) (ix2 n f)).trans
    ((meanStage_apply _ _ _ _ (inEi m c) (W4_v1_at m c) (W4_v3_at m c) (W4_v10_at m c) n f).trans
      (congrArg (fun v => Cert.Spec.mean (src (inEi m c)) (dst (inEi m c)) v n f)
        (funext fun r => funext fun k => hidden_W4 m c r k)))

/-- The first layer's output is what region 2 reads again. -/
theorem W5_v25 : (W5 m c main_v25 : S100000x64.Idx → EReal) = W4 m c main_v25 :=
  W5_keep m c main_v25 (by decide)

theorem hidden_W5 (n : Fin 100000) (f : Fin 64) :
    at2 (W5 m c main_v25 : S100000x64.Idx → EReal) n f
      = Cert.Spec.hiddenProjFirst (src (inEi m c)) (dst (inEi m c)) (at2 (inX m c)) (at2 (inWl1 m c)) (at2 (inWr1 m c))
          (at1 (inB1 m c)) n f :=
  (congrFun (W5_v25 m c) (ix2 n f)).trans (hidden_W4 m c n f)

/-- The node-to-graph words as a column. -/
theorem W5_v38 : (W5 m c main_v38 : S100000x1.Idx → BitVec 32)
    = shapeCast S100000x1 (W4 m c main_arg8 : S100000.Idx → BitVec 32) shapeCasts_S100000_S100000x1 := by
  show StableHlo.after hostOps2 (W4 m c) (Proc.devRef .tc main_v38) = _
  after_results
  rfl

theorem W5_v38_at (n : Fin 100000) (u : Fin 1) :
    (W5 m c main_v38 : S100000x1.Idx → BitVec 32) (ix2 n u) = inBi m c (ix1 n) :=
  (congrFun (W5_v38 m c) (ix2 n u)).trans ((shapeCast_a_a1_apply _ _ n u).trans
    (congrFun (W4_launch m c main_arg8 (by decide) (by decide) (by decide) (by decide)) (ix1 n)))

/-- The second bias as a row. -/
theorem W5_v39 : (W5 m c main_v39 : S1x128.Idx → EReal)
    = shapeCast S1x128 (W4 m c main_arg6 : S128.Idx → EReal) shapeCasts_S128_S1x128 := by
  show StableHlo.after hostOps2 (W4 m c) (Proc.devRef .tc main_v39) = _
  after_results
  rfl

theorem W5_v39_at (u : Fin 1) (o : Fin 128) :
    at2 (W5 m c main_v39 : S1x128.Idx → EReal) u o = at1 (inB2 m c) o :=
  (congrFun (W5_v39 m c) (ix2 u o)).trans ((shapeCast_a_1a_apply _ _ u o).trans
    (congrFun (W4_launch m c main_arg6 (by decide) (by decide) (by decide) (by decide)) (ix1 o)))

/-- The second layer's weight matrices reach region 2 as they were at launch. -/
theorem W5_arg4 : (W5 m c main_arg4 : S64x128.Idx → EReal) = inWl2 m c :=
  W5_launch m c main_arg4 (by decide) (by decide) (by decide) (by decide) (by decide)
theorem W5_arg5 : (W5 m c main_arg5 : S64x128.Idx → EReal) = inWr2 m c :=
  W5_launch m c main_arg5 (by decide) (by decide) (by decide) (by decide) (by decide)

/-! ## The last stretch: the two slabs added, and the quotient

  Region 2 leaves per-graph row sums and per-graph node counts in two slabs, one for each half of the nodes. The last
  stretch adds the slabs and divides the sums by the counts, a count below one raised to one. -/

/-- Slab `k` of a two-slab array, cut out and its unit axis dropped, read at an entry. -/
theorem slab_apply {α : Type} {a b : ℕ} (o : ℕ) (k : Fin 2) (hk : k.val = o) (X : (⟨3, ![2, a, b]⟩ : Shape).Idx → α)
    (hs : (⟨3, ![2, a, b]⟩ : Shape).Slices ![o, 0, 0] ⟨3, ![1, a, b]⟩)
    (hc : (⟨3, ![1, a, b]⟩ : Shape).ShapeCasts ⟨2, ![a, b]⟩) (i : Fin a) (j : Fin b) :
    shapeCast ⟨2, ![a, b]⟩ (extractStridedSlice ⟨3, ![1, a, b]⟩ ![o, 0, 0] X hs) hc (ix2 i j) = X (ix3 k i j) := by
  refine (shapeCast_1ab_ab_apply _ hc i j).trans ?_
  exact extractStridedSlice_apply _ X hs _ (ix3 k i j) fun ax => match ax with
    | ⟨0, _⟩ => by show k.val = o + 0; omega
    | ⟨1, _⟩ => by show i.val = 0 + i.val; omega
    | ⟨2, _⟩ => by show j.val = 0 + j.val; omega

/-- The last stretch as a function of region 2's two arrays. -/
def poolStage (S : FVec Ideal S2x512x128 .f32) (C : FVec Ideal S2x512x1 .f32) : FVec Ideal S512x128 .f32 :=
  Host.divf
    (addf
      (shapeCast S512x128 (extractStridedSlice S1x512x128 ![0, 0, 0] S slices_S2x512x128_S1x512x128_0_0_0)
        shapeCasts_S1x512x128_S512x128)
      (shapeCast S512x128 (extractStridedSlice S1x512x128 ![1, 0, 0] S slices_S2x512x128_S1x512x128_1_0_0)
        shapeCasts_S1x512x128_S512x128))
    (broadcastInDim S512x128 ![0, 1] bcast_S512x1_S512x128_0_1
      (maximumf
        (addf
          (shapeCast S512x1 (extractStridedSlice S1x512x1 ![0, 0, 0] C slices_S2x512x1_S1x512x1_0_0_0)
            shapeCasts_S1x512x1_S512x1)
          (shapeCast S512x1 (extractStridedSlice S1x512x1 ![1, 0, 0] C slices_S2x512x1_S1x512x1_1_0_0)
            shapeCasts_S1x512x1_S512x1))
        (broadcastInDim S512x1 ![] bcast_S_S512x1 (constant (F := Ideal) S_ .f32 0x3F800000#32))))

/-- Read at graph `g`, column `o`: the two slabs' sums added, over the two slabs' counts added, at least one. -/
theorem poolStage_apply (S : FVec Ideal S2x512x128 .f32) (C : FVec Ideal S2x512x1 .f32) (g : Fin 512) (o : Fin 128) :
    poolStage S C (ix2 g o)
      = Ideal.div (S (ix3 (0 : Fin 2) g o) + S (ix3 (1 : Fin 2) g o))
          (max (C (ix3 (0 : Fin 2) g (0 : Fin 1)) + C (ix3 (1 : Fin 2) g (0 : Fin 1))) 1) := by
  unfold poolStage
  refine congrArg₂ Ideal.div ?_ ?_
  · exact (addf_apply _ _ (ix2 g o)).trans
      (congrArg₂ (· + ·) (slab_apply 0 0 rfl S _ _ g o) (slab_apply 1 1 rfl S _ _ g o))
  · refine (broadcastRows_apply _ _ g o).trans ?_
    refine (maximumf_apply _ _ (ix2 g (0 : Fin 1))).trans (congrArg₂ max ?_ (fillOne_apply _ _))
    exact (addf_apply _ _ (ix2 g (0 : Fin 1))).trans
      (congrArg₂ (· + ·) (slab_apply 0 0 rfl C _ _ g 0) (slab_apply 1 1 rfl C _ _ g 0))

/-- Region 2's two result arrays after it: per-graph row sums and per-graph node counts, one slab for each half of the
    nodes. -/
abbrev poolSums : S2x512x128.Idx → EReal := W6 m c main_v40_0
abbrev poolCounts : S2x512x1.Idx → EReal := W6 m c main_v40_1

/-- The program's result is the last stage of region 2's two arrays. -/
theorem W7_v54 : (W7 m c main_v54 : S512x128.Idx → EReal) = poolStage (poolSums m c) (poolCounts m c) := by
  show StableHlo.after hostOps3 (W6 m c) (Proc.devRef .tc main_v54) = _
  after_results
  rfl

/-- THE RESULT at graph `g`, column `o`. -/
theorem final_at (g : Fin 512) (o : Fin 128) :
    at2 (W7 m c main_v54 : S512x128.Idx → EReal) g o
      = Ideal.div (poolSums m c (ix3 (0 : Fin 2) g o) + poolSums m c (ix3 (1 : Fin 2) g o))
          (max (poolCounts m c (ix3 (0 : Fin 2) g (0 : Fin 1)) + poolCounts m c (ix3 (1 : Fin 2) g (0 : Fin 1))) 1) :=
  (congrFun (W7_v54 m c) (ix2 g o)).trans (poolStage_apply _ _ g o)

end Cert.KernelIdeal.Hand

end
-- ==== Proof.LibMatmulTAt.lean ====
/-
  A matrix product that contracts the FIRST axis of both operands, into a zero accumulator, read at one entry over the
  extended reals.

  For dimension numbers that contract the left operand's first axis with the right operand's first, with no batch
  axis — so that the left operand is read at (k, row) and the right at (k, column) — the entry (p, q) of the product
  of a [K × A] and a [K × B] matrix is `∑ₖ l[k, p] · r[k, q]`: the transposed left operand times the right one. The
  four facts about where the dimension numbers read their operands are hypotheses, so that the lemma serves any printed
  record of this kind.
-/
import Idealize.ShloMosaic.PureOps.Ideal.Laws
import Idealize.ShloMosaic.Lib.ValueIdx

noncomputable section

namespace Idealize.ShloMosaic.MatmulTAt

open Idealize.ShloMosaic Idealize.ShloMosaic.ValueIdx

/-- Entry (p, q) of `lᵀ · r` accumulated into zero is the sum over the contracted axis of `l[k, p] · r[k, q]`, for
    dimension numbers `D` whose one contracted axis has extent `K` (`hr`, `hs`) and which read the left operand at
    (k, row) (`hl0`, `hl1`) and the right at (k, column) (`hr0`, `hr1`). -/
theorem matmul_zero_at_T {K A B : Nat} {φ₁ φ₂ : FTy}
    (D : DotDims (⟨2, ![K, A]⟩ : Shape) (⟨2, ![K, B]⟩ : Shape) (⟨2, ![A, B]⟩ : Shape))
    (hr : D.contr.rank = 1) (hs : D.contr.size ⟨0, by omega⟩ = K)
    (hl0 : ∀ (i : (⟨2, ![A, B]⟩ : Shape).Idx) (q : D.contr.Idx), (D.lhsIdx i q 0).val = (q ⟨0, by omega⟩).val)
    (hl1 : ∀ (i : (⟨2, ![A, B]⟩ : Shape).Idx) (q : D.contr.Idx), (D.lhsIdx i q 1).val = (i 0).val)
    (hr0 : ∀ (i : (⟨2, ![A, B]⟩ : Shape).Idx) (q : D.contr.Idx), (D.rhsIdx i q 0).val = (q ⟨0, by omega⟩).val)
    (hr1 : ∀ (i : (⟨2, ![A, B]⟩ : Shape).Idx) (q : D.contr.Idx), (D.rhsIdx i q 1).val = (i 1).val)
    (prec : Option ContractPrecision) (l : FVec Ideal (⟨2, ![K, A]⟩ : Shape) φ₁) (r : FVec Ideal (⟨2, ![K, B]⟩ : Shape) φ₂)
    (p : Fin A) (q : Fin B) :
    FloatOps.matmul D prec l r (constant (F := Ideal) (⟨2, ![A, B]⟩ : Shape) .f32 0x00000000#32) (ix2 p q)
      = ∑ k : Fin K, l (ix2 k p) * r (ix2 k q) := by
  -- the product at an entry is the sum over the contraction index; that index is its one coordinate
  rw [Ideal.matmul_constant_zero_apply, ← Equiv.sum_comp (contrEquiv1 D K hr hs).symm]
  refine Finset.sum_congr rfl fun k _ => ?_
  have hk := contrEquiv1_symm_val D K hr hs k
  -- both operands are read in row k; the left one in column p, the right one in column q
  have el : D.lhsIdx (ix2 p q) ((contrEquiv1 D K hr hs).symm k) = ix2 k p := funext fun a => Fin.ext (by
    match a with
    | ⟨0, _⟩ => exact (hl0 _ _).trans hk
    | ⟨1, _⟩ => exact hl1 _ _)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Idealize.ShloMosaic.MatmulTAt

end
-- ==== Proof.KiVal2.lean ====
/-
  The value of the third kernel region at the ideal float instance: what its two result arrays hold after the region,
  read at an entry, as sums over the node rows.

  Grid point t of the twenty, with coordinates (t / 10, t % 10), reads rows 5000·t … 5000·t + 4999 of the mean array,
  of the hidden array and of the column of graph words, and the two weight matrices and the bias row whole. From them it
  forms the 5000 rows of the second layer, (mean row)·Wl + (hidden row)·Wr + bias, and the 5000 × 512 one-hot matrix of
  the graph words: entry (r, g) is the comparison "row r's word is the word g", widened and converted, so it is one
  where the word names graph g and zero elsewhere. The point adds (one-hot)ᵀ · (rows) to the 512 × 128 accumulator and
  (one-hot)ᵀ · (a column of ones) to the 512 × 1 accumulator. Over the extended reals a change of float format is the
  identity and each product accumulates into zero, so entry (g, o) of the first contribution is the sum over the block's
  rows r of onehot[r, g] · row[r, o]; a factor that is one or zero selects its cofactor or nothing (one times anything is
  that thing and zero times anything is zero, infinities included), so it is the sum of the rows whose word names g.

  The accumulators are cleared at the points that are multiples of ten and carried otherwise, so by induction on the
  point they hold after point n the tiles 10·(n / 10) … n of n's half, added up; addition on the extended reals is
  associative and commutative with no finiteness asked. A block's row p is its array's row 5000·t + p. A 32-bit word
  equals the word of g < 512 exactly when, read signed, it lies in [0, 512) and is g. Only the points nine modulo ten
  write the results back: point 10·s + 9 writes slab s of each two-slab result array with the accumulators as they
  then stand, and the two slabs tile the arrays. So entry (s, g, o) of the first result is the sum over the 50000 rows of
  half s whose word names g of the second layer's row, and entry (s, g, 0) of the second is the number of such rows.
-/
import proofs.«400510_j11458972746403_3_alg».proof.Proof.KiR2
import proofs.«400510_j11458972746403_3_alg».proof.Proof.LibMatmulAt
import proofs.«400510_j11458972746403_3_alg».proof.Proof.LibMatmulTAt
import proofs.«400510_j11458972746403_3_alg».proof.Proof.Spec
import proofs.«400510_j11458972746403_3_alg».proof.Proof.Graph
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.Graph

variable (V : (c : Dev nD) → (b : Ref sig .tc) → Buf (Elt Ideal) ((c : Thread nD τ).loc b))

/-- Row `n` of the second layer, column `o`, from the arrays the region finds: the mean row times the left weights
    plus the hidden row times the right weights plus the bias. -/
def h2row (c : Dev nD) (n : Fin 100000) (o : Fin 128) : EReal :=
  Cert.Spec.mm (at2 (V c main_v37)) (at2 (V c main_arg4)) n o + Cert.Spec.mm (at2 (V c main_v25)) (at2 (V c main_arg5)) n o
    + at2 (V c main_v39) (0 : Fin 1) o

namespace Val2

/-! ## Words: a comparison bit as an extended real, and a word naming a graph

The one-hot matrix of a block of graph words has, at (row r, graph g), the comparison "row r's word is the word g"
widened to a 32-bit word and converted to a float: one where the two words agree, zero elsewhere. -/

/-- A comparison bit, widened and converted, is one where the two words agree and zero where they differ. -/
theorem onehot_word (a b : BitVec 32) :
    (FloatOps.sitofp (F := Ideal) .f32 ((IntOp.cmpi .eq a b).setWidth 32) : EReal) = if a = b then 1 else 0 := by
  show ((((IntOp.cmpi .eq a b).setWidth 32).toInt : ℝ) : EReal) = _
  by_cases h : a = b
  · have e : IntOp.cmpi .eq a b = 1#1 := by
      show BitVec.ofBool (a == b) = 1#1
      rw [show (a == b) = true from beq_iff_eq.mpr h]; rfl
    rw [if_pos h, e, show ((1#1 : BitVec 1).setWidth 32).toInt = 1 by decide]
    norm_num
  · have e : IntOp.cmpi .eq a b = 0#1 := by
      show BitVec.ofBool (a == b) = 0#1
      rw [show (a == b) = false from beq_eq_false_iff_ne.mpr h]; rfl
    rw [if_neg h, e, show ((0#1 : BitVec 1).setWidth 32).toInt = 0 by decide]
    norm_num

/-- The bf16 word 0x3F80 is the extended real one. -/
theorem one_bf16 : Ideal.ofBits .bf16 0x3F80#16 = 1 := by
  rw [show (1 : EReal) = ((1 : ℝ) : EReal) by norm_cast]
  simp [Ideal.ofBits, Ideal.ieee, -EReal.coe_mul]; norm_num

/-- A 32-bit word is the word of a graph number below 512 exactly when, read signed, it names that graph. -/
theorem word_eq_iff (w : BitVec 32) (g : Fin 512) : w = BitVec.ofNat 32 g.val ↔ rowIn 512 w = some g := by
  have hg : g.val < 512 := g.isLt
  have hn : (BitVec.ofNat 32 g.val).toNat = g.val := by
    rw [BitVec.toNat_ofNat]; exact Nat.mod_eq_of_lt (by omega)
  have ht : (BitVec.ofNat 32 g.val).toInt = (g.val : Int) := by
    rw [BitVec.toInt_eq_toNat_of_lt (by rw [hn]; omega), hn]
  unfold rowIn
  constructor
  · intro h
    subst h
    rw [dif_pos (by rw [ht]; omega)]
    refine congrArg some (Fin.ext ?_)
    show (BitVec.ofNat 32 g.val).toInt.toNat = g.val
    rw [ht]; omega
  · intro h
    split at h
    · rename_i hr
      have e := congrArg Fin.val (Option.some.inj h)
      have e' : w.toInt.toNat = g.val := e
      apply BitVec.eq_of_toInt_eq
      rw [ht]; omega
    · exact absurd h (by simp)

/-! ## Layout: a column broadcast over many columns -/

/-- An `[a, 1]` column broadcast to `[a, b]` reads, at `(p, c)`, the operand's row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Entry (r, g) of the one-hot matrix of a block's graph words: one where row r's word is the word g. -/
theorem onehot_at (x2 : Vec Ideal S5000x1 .i32) (r : Fin 5000) (g : Fin 512) :
    k2_pay7 (F := Ideal) x2 (ix2 r g) = if x2 (ix2 r (0 : Fin 1)) = BitVec.ofNat 32 g.val then (1 : EReal) else 0 := by
  have hA : broadcastTo S5000x512 (shapeCast S5000x1 x2 shapeCasts_S5000x1_S5000x1) broadcasts_S5000x1_S5000x512 (ix2 r g)
      = x2 (ix2 r (0 : Fin 1)) := by
    rw [shapeCast_self]; exact broadcastTo_a1_ab_apply x2 _ r g
  have hB : broadcastTo S5000x512 (iota .tc S1x512 32 [1] iota_S1x512_d1_w32) broadcasts_S1x512_S5000x512 (ix2 r g)
      = BitVec.ofNat 32 g.val :=
    (broadcastTo_1b_ab_apply _ _ r g).trans (iota_single_apply .tc S1x512 32 1 iota_S1x512_d1_w32 (ix2 (0 : Fin 1) g))
  refine Eq.trans ?_ (onehot_word (x2 (ix2 r (0 : Fin 1))) (BitVec.ofNat 32 g.val))
  unfold k2_pay7
  show FloatOps.sitofp (F := Ideal) .f32 ((IntOp.cmpi .eq _ _).setWidth 32) = FloatOps.sitofp (F := Ideal) .f32 ((IntOp.cmpi .eq _ _).setWidth 32)
  rw [hA, hB]

/-! ## Where the products' dimension numbers read their operands

The layer's product contracts the left operand's axis 1 with the right operand's axis 0: at result entry `i` and
contraction index `q` the left operand is read at (i₀, q) and the right at (q, i₁). The two pooling products contract
axis 0 of BOTH operands: the left operand is read at (q, i₀), the right at (q, i₁). None has a batch axis. -/

theorem lhs_lin_0 (i : S5000x128.Idx) (q : dot_S5000x64_S64x128_S5000x128_1_0_0_1_n_n.contr.Idx) :
    (dot_S5000x64_S64x128_S5000x128_1_0_0_1_n_n.lhsIdx i q 0).val = (i 0).val := by
  unfold DotDims.lhsIdx
  rw [dif_neg (show ¬(0 : Fin S5000x64.rank) ∈ dot_S5000x64_S64x128_S5000x128_1_0_0_1_n_n.lhsBatch by decide),
    dif_pos (show (0 : Fin S5000x64.rank) ∈ dot_S5000x64_S64x128_S5000x128_1_0_0_1_n_n.lhsNonContracting by decide)]
  rfl
theorem lhs_lin_1 (i : S5000x128.Idx) (q : dot_S5000x64_S64x128_S5000x128_1_0_0_1_n_n.contr.Idx) :
    (dot_S5000x64_S64x128_S5000x128_1_0_0_1_n_n.lhsIdx i q 1).val = (q ⟨0, by decide⟩).val :=
  dot_S5000x64_S64x128_S5000x128_1_0_0_1_n_n.lhsIdx_val_of_single rfl i q
theorem rhs_lin_0 (i : S5000x128.Idx) (q : dot_S5000x64_S64x128_S5000x128_1_0_0_1_n_n.contr.Idx) :
    (dot_S5000x64_S64x128_S5000x128_1_0_0_1_n_n.rhsIdx i q 0).val = (q ⟨0, by decide⟩).val :=
  dot_S5000x64_S64x128_S5000x128_1_0_0_1_n_n.rhsIdx_val_of_single rfl i q
theorem rhs_lin_1 (i : S5000x128.Idx) (q : dot_S5000x64_S64x128_S5000x128_1_0_0_1_n_n.contr.Idx) :
    (dot_S5000x64_S64x128_S5000x128_1_0_0_1_n_n.rhsIdx i q 1).val = (i 1).val := by
  unfold DotDims.rhsIdx
  rw [dif_neg (show ¬(1 : Fin S64x128.rank) ∈ dot_S5000x64_S64x128_S5000x128_1_0_0_1_n_n.rhsBatch by decide),
    dif_pos (show (1 : Fin S64x128.rank) ∈ dot_S5000x64_S64x128_S5000x128_1_0_0_1_n_n.rhsNonContracting by decide)]
  rfl

theorem lhs_pool_0 (i : S512x128.Idx) (q : dot_S5000x512_S5000x128_S512x128_0_0_1_1_n_n.contr.Idx) :
    (dot_S5000x512_S5000x128_S512x128_0_0_1_1_n_n.lhsIdx i q 0).val = (q ⟨0, by decide⟩).val :=
  dot_S5000x512_S5000x128_S512x128_0_0_1_1_n_n.lhsIdx_val_of_single rfl i q
theorem lhs_pool_1 (i : S512x128.Idx) (q : dot_S5000x512_S5000x128_S512x128_0_0_1_1_n_n.contr.Idx) :
    (dot_S5000x512_S5000x128_S512x128_0_0_1_1_n_n.lhsIdx i q 1).val = (i 0).val := by
  unfold DotDims.lhsIdx
  rw [dif_neg (show ¬(1 : Fin S5000x512.rank) ∈ dot_S5000x512_S5000x128_S512x128_0_0_1_1_n_n.lhsBatch by decide),
    dif_pos (show (1 : Fin S5000x512.rank) ∈ dot_S5000x512_S5000x128_S512x128_0_0_1_1_n_n.lhsNonContracting by decide)]
  rfl
theorem rhs_pool_0 (i : S512x128.Idx) (q : dot_S5000x512_S5000x128_S512x128_0_0_1_1_n_n.contr.Idx) :
    (dot_S5000x512_S5000x128_S512x128_0_0_1_1_n_n.rhsIdx i q 0).val = (q ⟨0, by decide⟩).val :=
  dot_S5000x512_S5000x128_S512x128_0_0_1_1_n_n.rhsIdx_val_of_single rfl i q
theorem rhs_pool_1 (i : S512x128.Idx) (q : dot_S5000x512_S5000x128_S512x128_0_0_1_1_n_n.contr.Idx) :
    (dot_S5000x512_S5000x128_S512x128_0_0_1_1_n_n.rhsIdx i q 1).val = (i 1).val := by
  unfold DotDims.rhsIdx
  rw [dif_neg (show ¬(1 : Fin S5000x128.rank) ∈ dot_S5000x512_S5000x128_S512x128_0_0_1_1_n_n.rhsBatch by decide),
    dif_pos (show (1 : Fin S5000x128.rank) ∈ dot_S5000x512_S5000x128_S512x128_0_0_1_1_n_n.rhsNonContracting by decide)]
  rfl

theorem lhs_cnt_0 (i : S512x1.Idx) (q : dot_S5000x512_S5000x1_S512x1_0_0_1_1_n_n.contr.Idx) :
    (dot_S5000x512_S5000x1_S512x1_0_0_1_1_n_n.lhsIdx i q 0).val = (q ⟨0, by decide⟩).val :=
  dot_S5000x512_S5000x1_S512x1_0_0_1_1_n_n.lhsIdx_val_of_single rfl i q
theorem lhs_cnt_1 (i : S512x1.Idx) (q : dot_S5000x512_S5000x1_S512x1_0_0_1_1_n_n.contr.Idx) :
    (dot_S5000x512_S5000x1_S512x1_0_0_1_1_n_n.lhsIdx i q 1).val = (i 0).val := by
  unfold DotDims.lhsIdx
  rw [dif_neg (show ¬(1 : Fin S5000x512.rank) ∈ dot_S5000x512_S5000x1_S512x1_0_0_1_1_n_n.lhsBatch by decide),
    dif_pos (show (1 : Fin S5000x512.rank) ∈ dot_S5000x512_S5000x1_S512x1_0_0_1_1_n_n.lhsNonContracting by decide)]
  rfl
theorem rhs_cnt_0 (i : S512x1.Idx) (q : dot_S5000x512_S5000x1_S512x1_0_0_1_1_n_n.contr.Idx) :
    (dot_S5000x512_S5000x1_S512x1_0_0_1_1_n_n.rhsIdx i q 0).val = (q ⟨0, by decide⟩).val :=
  dot_S5000x512_S5000x1_S512x1_0_0_1_1_n_n.rhsIdx_val_of_single rfl i q
theorem rhs_cnt_1 (i : S512x1.Idx) (q : dot_S5000x512_S5000x1_S512x1_0_0_1_1_n_n.contr.Idx) :
    (dot_S5000x512_S5000x1_S512x1_0_0_1_1_n_n.rhsIdx i q 1).val = (i 1).val := by
  unfold DotDims.rhsIdx
  rw [dif_neg (show ¬(1 : Fin S5000x1.rank) ∈ dot_S5000x512_S5000x1_S512x1_0_0_1_1_n_n.rhsBatch by decide),
    dif_pos (show (1 : Fin S5000x1.rank) ∈ dot_S5000x512_S5000x1_S512x1_0_0_1_1_n_n.rhsNonContracting by decide)]
  rfl

/-! ## A point's contributions at an entry -/

/-- Entry (r, o) of a row block times a weight matrix, accumulated into zero: the sum over the 64 features. -/
theorem lin_at (l : FVec Ideal S5000x64 .bf16) (w : FVec Ideal S64x128 .bf16) (r : Fin 5000) (o : Fin 128) :
    FloatOps.matmul dot_S5000x64_S64x128_S5000x128_1_0_0_1_n_n none l w (constant (F := Ideal) S5000x128 .f32 0x00000000#32) (ix2 r o)
      = ∑ f : Fin 64, l (ix2 r f) * w (ix2 f o) :=
  MatmulAt.matmul_zero_at dot_S5000x64_S64x128_S5000x128_1_0_0_1_n_n rfl rfl lhs_lin_0 lhs_lin_1 rhs_lin_0 rhs_lin_1 none l w r o

/-- Entry (g, o) of the transposed one-hot matrix times a block of rows, accumulated into zero: the sum over the 5000
    rows. -/
theorem pool_at (h : FVec Ideal S5000x512 .bf16) (v : FVec Ideal S5000x128 .bf16) (g : Fin 512) (o : Fin 128) :
    FloatOps.matmul dot_S5000x512_S5000x128_S512x128_0_0_1_1_n_n none h v (constant (F := Ideal) S512x128 .f32 0x00000000#32) (ix2 g o)
      = ∑ r : Fin 5000, h (ix2 r g) * v (ix2 r o) :=
  MatmulTAt.matmul_zero_at_T dot_S5000x512_S5000x128_S512x128_0_0_1_1_n_n rfl rfl lhs_pool_0 lhs_pool_1 rhs_pool_0 rhs_pool_1 none h v g o

/-- The same against a single column. -/
theorem cnt_at (h : FVec Ideal S5000x512 .bf16) (v : FVec Ideal S5000x1 .bf16) (g : Fin 512) (u : Fin 1) :
    FloatOps.matmul dot_S5000x512_S5000x1_S512x1_0_0_1_1_n_n none h v (constant (F := Ideal) S512x1 .f32 0x00000000#32) (ix2 g u)
      = ∑ r : Fin 5000, h (ix2 r g) * v (ix2 r u) :=
  MatmulTAt.matmul_zero_at_T dot_S5000x512_S5000x1_S512x1_0_0_1_1_n_n rfl rfl lhs_cnt_0 lhs_cnt_1 rhs_cnt_0 rhs_cnt_1 none h v g u

/-- A factor that is one or zero selects its cofactor or nothing (no finiteness is needed: one times anything is
    that thing and zero times anything is zero on the extended reals). -/
theorem ite_one_zero_mul (p : Prop) [Decidable p] (v : EReal) : (if p then (1 : EReal) else 0) * v = if p then v else 0 := by
  split
  · exact one_mul v
  · exact zero_mul v

/-- Row r of the second layer as a point computes it from its blocks: the mean block times the left weights plus the
    hidden block times the right weights plus the bias. -/
def rowsOf (x0 x1 : Vec Ideal S5000x64 .f32) (x3 x4 : Vec Ideal S64x128 .f32) (x5 : Vec Ideal S1x128 .f32)
    (r : Fin 5000) (o : Fin 128) : EReal :=
  (∑ f : Fin 64, x0 (ix2 r f) * x3 (ix2 f o) + ∑ f : Fin 64, x1 (ix2 r f) * x4 (ix2 f o)) + x5 (ix2 (0 : Fin 1) o)

/-- The pooled-sum contribution of a point, added to what the accumulator held: at entry (g, o), the rows of the
    block whose graph word is g, summed. -/
theorem pay9_at (x0 x1 : Vec Ideal S5000x64 .f32) (x3 x4 : Vec Ideal S64x128 .f32) (x5 : Vec Ideal S1x128 .f32)
    (x2 : Vec Ideal S5000x1 .i32) (a : Vec Ideal S512x128 .f32) (g : Fin 512) (o : Fin 128) :
    k2_pay9 (F := Ideal) x0 x1 x3 x4 x5 x2 a (ix2 g o)
      = a (ix2 g o) + ∑ r : Fin 5000,
          (if x2 (ix2 r (0 : Fin 1)) = BitVec.ofNat 32 g.val then rowsOf x0 x1 x3 x4 x5 r o else 0) := by
  unfold k2_pay9
  refine congrArg (a (ix2 g o) + ·) ?_
  refine (pool_at _ _ g o).trans ?_
  refine Finset.sum_congr rfl fun r _ => ?_
  refine (congrArg (· * _) (onehot_at x2 r g)).trans ?_
  refine (ite_one_zero_mul _ _).trans ?_
  refine congrArg (fun v => if x2 (ix2 r (0 : Fin 1)) = BitVec.ofNat 32 g.val then v else 0) ?_
  show (FloatOps.matmul (F := Ideal) dot_S5000x64_S64x128_S5000x128_1_0_0_1_n_n none _ _ _ (ix2 r o) + FloatOps.matmul (F := Ideal) dot_S5000x64_S64x128_S5000x128_1_0_0_1_n_n none _ _ _ (ix2 r o) : EReal) + broadcastTo S5000x128 (shapeCast S1x128 x5 shapeCasts_S1x128_S1x128) broadcasts_S1x128_S5000x128 (ix2 r o) = rowsOf x0 x1 x3 x4 x5 r o
  rw [lin_at, lin_at, shapeCast_self, shapeCast_self, shapeCast_self, broadcastTo_1b_ab_apply]
  rfl

/-- The count contribution of a point: at entry (g, 0), the number of rows of the block whose graph word is g. -/
theorem pay8_at (x2 : Vec Ideal S5000x1 .i32) (g : Fin 512) :
    k2_pay8 (F := Ideal) x2 (ix2 g (0 : Fin 1))
      = ∑ r : Fin 5000, (if x2 (ix2 r (0 : Fin 1)) = BitVec.ofNat 32 g.val then (1 : EReal) else 0) := by
  unfold k2_pay8
  refine (cnt_at _ _ g 0).trans ?_
  refine Finset.sum_congr rfl fun r _ => ?_
  refine (congrArg (· * _) (onehot_at x2 r g)).trans ?_
  refine (ite_one_zero_mul _ _).trans ?_
  refine congrArg (fun v => if x2 (ix2 r (0 : Fin 1)) = BitVec.ofNat 32 g.val then v else 0) ?_
  exact one_bf16

/-! ## Where the blocks sit in their arrays

Point `t` of the twenty has coordinates (t / 10, t % 10). Its three row blocks are block row 10 · (t / 10) + t % 10 = t
of their arrays; each weight matrix and the bias row is its own single block; the two results' blocks are slab t / 10
of the two-slab result arrays. Decided once over the grid. -/

theorem where2 : ∀ t : Fin cfg2.N, t.val < 20
    ∧ win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 3) = t.val / 10 ∧ win2_6.index t (1 : Fin 3) = 0 ∧ win2_6.index t (2 : Fin 3) = 0
    ∧ win2_7.index t (0 : Fin 3) = t.val / 10 ∧ win2_7.index t (1 : Fin 3) = 0 ∧ win2_7.index t (2 : Fin 3) = 0 :=
  (by decide +kernel : ∀ t : Fin grid2.N, _)

/-- Row `p` of point `t`'s block of the mean array is row 5000·t + p of that array. -/
theorem mean_at (c : Dev nD) (t : Fin cfg2.N) (p : Fin 5000) (k : Fin 64) (n : Fin 100000)
    (hn : n.val = 5000 * t.val + p.val) :
    blk2 V c 0 t (ix2 p k) = at2 (V c main_v37) n k := by
  obtain ⟨-, e0, e1, -⟩ := where2 t
  show V c main_v37 (((cfg2.win 0).blk t).view.emb (ix2 p k)) = V c main_v37 (ix2 n k)
  refine congrArg _ (funext fun a => Fin.ext ?_)
  match a with
  | ⟨0, _⟩ => show win2_0.index t (0 : Fin 2) * 5000 + 1 * p.val = n.val; omega
  | ⟨1, _⟩ => show win2_0.index t (1 : Fin 2) * 64 + 1 * k.val = k.val; omega

/-- Row `p` of point `t`'s block of the hidden array is row 5000·t + p of that array. -/
theorem hid_at (c : Dev nD) (t : Fin cfg2.N) (p : Fin 5000) (k : Fin 64) (n : Fin 100000)
    (hn : n.val = 5000 * t.val + p.val) :
    blk2 V c 1 t (ix2 p k) = at2 (V c main_v25) n k := by
  obtain ⟨-, -, -, e0, e1, -⟩ := where2 t
  show V c main_v25 (((cfg2.win 1).blk t).view.emb (ix2 p k)) = V c main_v25 (ix2 n k)
  refine congrArg _ (funext fun a => Fin.ext ?_)
  match a with
  | ⟨0, _⟩ => show win2_1.index t (0 : Fin 2) * 5000 + 1 * p.val = n.val; omega
  | ⟨1, _⟩ => show win2_1.index t (1 : Fin 2) * 64 + 1 * k.val = k.val; omega

/-- Row `p` of point `t`'s block of graph words is row 5000·t + p of the word array. -/
theorem word_at (c : Dev nD) (t : Fin cfg2.N) (p : Fin 5000) (k : Fin 1) (n : Fin 100000)
    (hn : n.val = 5000 * t.val + p.val) :
    blk2 V c 2 t (ix2 p k) = V c main_v38 (ix2 n k) := by
  obtain ⟨-, -, -, -, -, e0, e1, -⟩ := where2 t
  show V c main_v38 (((cfg2.win 2).blk t).view.emb (ix2 p k)) = V c main_v38 (ix2 n k)
  refine congrArg _ (funext fun a => Fin.ext ?_)
  match a with
  | ⟨0, _⟩ => show win2_2.index t (0 : Fin 2) * 5000 + 1 * p.val = n.val; omega
  | ⟨1, _⟩ => show win2_2.index t (1 : Fin 2) * 1 + 1 * k.val = k.val; omega

/-- Point `t`'s block of the left weights is the whole matrix. -/
theorem wl_at (c : Dev nD) (t : Fin cfg2.N) (p : Fin 64) (k : Fin 128) :
    blk2 V c 3 t (ix2 p k) = at2 (V c main_arg4) p k := by
  obtain ⟨-, -, -, -, -, -, -, e0, e1, -⟩ := where2 t
  show V c main_arg4 (((cfg2.win 3).blk t).view.emb (ix2 p k)) = V c main_arg4 (ix2 p k)
  refine congrArg _ (funext fun a => Fin.ext ?_)
  match a with
  | ⟨0, _⟩ => show win2_3.index t (0 : Fin 2) * 64 + 1 * p.val = p.val; omega
  | ⟨1, _⟩ => show win2_3.index t (1 : Fin 2) * 128 + 1 * k.val = k.val; omega

/-- Point `t`'s block of the right weights is the whole matrix. -/
theorem wr_at (c : Dev nD) (t : Fin cfg2.N) (p : Fin 64) (k : Fin 128) :
    blk2 V c 4 t (ix2 p k) = at2 (V c main_arg5) p k := by
  obtain ⟨-, -, -, -, -, -, -, -, -, e0, e1, -⟩ := where2 t
  show V c main_arg5 (((cfg2.win 4).blk t).view.emb (ix2 p k)) = V c main_arg5 (ix2 p k)
  refine congrArg _ (funext fun a => Fin.ext ?_)
  match a with
  | ⟨0, _⟩ => show win2_4.index t (0 : Fin 2) * 64 + 1 * p.val = p.val; omega
  | ⟨1, _⟩ => show win2_4.index t (1 : Fin 2) * 128 + 1 * k.val = k.val; omega

/-- Point `t`'s block of the bias is the whole row. -/
theorem bias_at (c : Dev nD) (t : Fin cfg2.N) (p : Fin 1) (k : Fin 128) :
    blk2 V c 5 t (ix2 p k) = at2 (V c main_v39) p k := by
  obtain ⟨-, -, -, -, -, -, -, -, -, -, -, e0, e1, -⟩ := where2 t
  show V c main_v39 (((cfg2.win 5).blk t).view.emb (ix2 p k)) = V c main_v39 (ix2 p k)
  refine congrArg _ (funext fun a => Fin.ext ?_)
  match a with
  | ⟨0, _⟩ => show win2_5.index t (0 : Fin 2) * 1 + 1 * p.val = p.val; omega
  | ⟨1, _⟩ => show win2_5.index t (1 : Fin 2) * 128 + 1 * k.val = k.val; omega

/-- The rows a point computes from its blocks are rows 5000·t … 5000·t + 4999 of the second layer: each sum runs over
    the same terms, each factor read where its block sits. -/
theorem rows_eq (c : Dev nD) (t : Fin cfg2.N) (p : Fin 5000) (o : Fin 128) (n : Fin 100000)
    (hn : n.val = 5000 * t.val + p.val) :
    rowsOf (blk2 V c 0 t) (blk2 V c 1 t) (blk2 V c 3 t) (blk2 V c 4 t) (blk2 V c 5 t) p o = h2row V c n o := by
  unfold rowsOf h2row Cert.Spec.mm
  exact congrArg₂ (· + ·)
    (congrArg₂ (· + ·)
      (Finset.sum_congr rfl fun f _ => congrArg₂ (· * ·) (mean_at V c t p f n hn) (wl_at V c t f o))
      (Finset.sum_congr rfl fun f _ => congrArg₂ (· * ·) (hid_at V c t p f n hn) (wr_at V c t f o)))
    (bias_at V c t (0 : Fin 1) o)

/-! ## One tile's contribution, and the accumulators after each point -/

/-- What the rows of tile `n` (rows 5000·n … 5000·n + 4999) add to graph `g`'s pooled sum in column `o`: the rows
    of the second layer whose graph word names `g`. (Zero past the twentieth tile, which never occurs.) -/
def tileSum (c : Dev nD) (n : ℕ) (g : Fin 512) (o : Fin 128) : EReal :=
  if h : n < 20 then
    ∑ r : Fin 5000, (if rowIn 512 (V c main_v38 (ix2 ⟨n * 5000 + r.val, by omega⟩ (0 : Fin 1))) = some g
      then h2row V c ⟨n * 5000 + r.val, by omega⟩ o else 0)
  else 0

/-- What the rows of tile `n` add to graph `g`'s count: the number of them whose graph word names `g`. -/
def tileCnt (c : Dev nD) (n : ℕ) (g : Fin 512) : EReal :=
  if h : n < 20 then
    ∑ r : Fin 5000, (if rowIn 512 (V c main_v38 (ix2 ⟨n * 5000 + r.val, by omega⟩ (0 : Fin 1))) = some g
      then (1 : EReal) else 0)
  else 0

/-- The cleared sum accumulator is zero at every entry. -/
theorem zero_sum_at (g : Fin 512) (o : Fin 128) : k2_pay5 (F := Ideal) (ix2 g o) = 0 := by
  unfold k2_pay5
  rw [shapeCast_self]
  exact Ideal.ofBits_zero_f32

/-- The cleared count accumulator is zero at every entry. -/
theorem zero_cnt_at (g : Fin 512) : k2_pay6 (F := Ideal) (ix2 g (0 : Fin 1)) = 0 := by
  unfold k2_pay6
  rw [shapeCast_self]
  exact Ideal.ofBits_zero_f32

/-- One point's step on the sum accumulator, at an entry: what it held plus the point's tile. -/
theorem step_sum (c : Dev nD) (t : Fin cfg2.N) (a : Vec Ideal S512x128 .f32) (g : Fin 512) (o : Fin 128) :
    k2_pay1 (k2_pay9 (blk2 V c 0 t) (blk2 V c 1 t) (blk2 V c 3 t) (blk2 V c 4 t) (blk2 V c 5 t) (blk2 V c 2 t) a) (ix2 g o)
      = a (ix2 g o) + tileSum V c t.val g o := by
  obtain ⟨ht, -⟩ := where2 t
  unfold k2_pay1
  rw [shapeCast_self]
  refine (pay9_at (blk2 V c 0 t) (blk2 V c 1 t) (blk2 V c 3 t) (blk2 V c 4 t) (blk2 V c 5 t) (blk2 V c 2 t) a g o).trans ?_
  refine congrArg (a (ix2 g o) + ·) ?_
  unfold tileSum
  rw [dif_pos ht]
  refine Finset.sum_congr rfl fun r _ => ?_
  have hr : r.val < 5000 := r.isLt
  have hn : (⟨t.val * 5000 + r.val, by omega⟩ : Fin 100000).val = 5000 * t.val + r.val := by
    show t.val * 5000 + r.val = 5000 * t.val + r.val; omega
  rw [word_at V c t r (0 : Fin 1) _ hn, rows_eq V c t r o _ hn]
  exact if_congr (word_eq_iff _ g) rfl rfl

/-- One point's step on the count accumulator, at an entry. -/
theorem step_cnt (c : Dev nD) (t : Fin cfg2.N) (m : Vec Ideal S512x1 .f32) (g : Fin 512) :
    k2_pay2 (k2_pay8 (blk2 V c 2 t)) m (ix2 g (0 : Fin 1)) = m (ix2 g (0 : Fin 1)) + tileCnt V c t.val g := by
  obtain ⟨ht, -⟩ := where2 t
  unfold k2_pay2
  rw [shapeCast_self]
  refine congrArg (m (ix2 g (0 : Fin 1)) + ·) ?_
  refine (pay8_at (blk2 V c 2 t) g).trans ?_
  unfold tileCnt
  rw [dif_pos ht]
  refine Finset.sum_congr rfl fun r _ => ?_
  have hr : r.val < 5000 := r.isLt
  have hn : (⟨t.val * 5000 + r.val, by omega⟩ : Fin 100000).val = 5000 * t.val + r.val := by
    show t.val * 5000 + r.val = 5000 * t.val + r.val; omega
  rw [word_at V c t r (0 : Fin 1) _ hn]
  exact if_congr (word_eq_iff _ g) rfl rfl

/-- After point `n` the sum accumulator holds, at an entry, the tiles of `n`'s half up to `n`: tiles
    10·(n / 10) … n. Addition on the extended reals is associative, so the order of accumulation is no matter. -/
theorem acc_sum (c : Dev nD) (g : Fin 512) (o : Fin 128) (n : ℕ) : ∀ hn : n < cfg2.N,
    (acc2 V c n hn).1 (ix2 g o) = ∑ j ∈ Finset.range (n % 10 + 1), tileSum V c (n / 10 * 10 + j) g o := by
  induction n with
  | zero =>
    intro hn
    rw [acc2_first V c ⟨0, hn⟩ rfl]
    refine (step_sum V c ⟨0, hn⟩ (k2_pay5 (F := Ideal)) g o).trans ?_
    rw [zero_sum_at, zero_add]
    show tileSum V c 0 g o = ∑ j ∈ Finset.range 1, tileSum V c (0 / 10 * 10 + j) g o
    rw [Finset.sum_range_one]
  | succ n ih =>
    intro hn
    by_cases h0 : (n + 1) % 10 = 0
    · rw [acc2_first V c ⟨n + 1, hn⟩ h0]
      refine (step_sum V c ⟨n + 1, hn⟩ (k2_pay5 (F := Ideal)) g o).trans ?_
      rw [zero_sum_at, zero_add, h0, Finset.sum_range_one]
      exact congrArg (tileSum V c · g o) (by omega : n + 1 = (n + 1) / 10 * 10 + 0)
    · rw [acc2_next V c ⟨n + 1, hn⟩ h0]
      refine (step_sum V c ⟨n + 1, hn⟩ _ g o).trans ?_
      have h1 : (n + 1) % 10 = n % 10 + 1 := by omega
      have h2 : (n + 1) / 10 = n / 10 := by omega
      have h3 : n / 10 * 10 + (n % 10 + 1) = n + 1 := by omega
      rw [h1, h2, Finset.sum_range_succ, h3]
      exact congrArg (· + tileSum V c (n + 1) g o) (ih (Nat.lt_of_succ_lt hn))

/-- The same for the count accumulator. -/
theorem acc_cnt (c : Dev nD) (g : Fin 512) (n : ℕ) : ∀ hn : n < cfg2.N,
    (acc2 V c n hn).2 (ix2 g (0 : Fin 1)) = ∑ j ∈ Finset.range (n % 10 + 1), tileCnt V c (n / 10 * 10 + j) g := by
  induction n with
  | zero =>
    intro hn
    rw [acc2_first V c ⟨0, hn⟩ rfl]
    refine (step_cnt V c ⟨0, hn⟩ (k2_pay6 (F := Ideal)) g).trans ?_
    rw [zero_cnt_at, zero_add]
    show tileCnt V c 0 g = ∑ j ∈ Finset.range 1, tileCnt V c (0 / 10 * 10 + j) g
    rw [Finset.sum_range_one]
  | succ n ih =>
    intro hn
    by_cases h0 : (n + 1) % 10 = 0
    · rw [acc2_first V c ⟨n + 1, hn⟩ h0]
      refine (step_cnt V c ⟨n + 1, hn⟩ (k2_pay6 (F := Ideal)) g).trans ?_
      rw [zero_cnt_at, zero_add, h0, Finset.sum_range_one]
      exact congrArg (tileCnt V c · g) (by omega : n + 1 = (n + 1) / 10 * 10 + 0)
    · rw [acc2_next V c ⟨n + 1, hn⟩ h0]
      refine (step_cnt V c ⟨n + 1, hn⟩ _ g).trans ?_
      have h1 : (n + 1) % 10 = n % 10 + 1 := by omega
      have h2 : (n + 1) / 10 = n / 10 := by omega
      have h3 : n / 10 * 10 + (n % 10 + 1) = n + 1 := by omega
      rw [h1, h2, Finset.sum_range_succ, h3]
      exact congrArg (· + tileCnt V c (n + 1) g) (ih (Nat.lt_of_succ_lt hn))

/-! ## From the accumulators to the result arrays

Only the points nine modulo ten write the results back: point 10·core + 9 writes slab `core` of each result array with
the accumulators as they then stand, which by the induction hold the ten tiles of that half. The two slabs tile the
result arrays. -/

/-- Graph `g`'s pooled sum over half `core` of the node rows, in column `o`. -/
def poolSum (c : Dev nD) (core : Fin 2) (g : Fin 512) (o : Fin 128) : EReal :=
  ∑ j : Fin 10, ∑ r : Fin 5000,
    (if rowIn 512 (V c main_v38 (ix2 ⟨(core.val * 10 + j.val) * 5000 + r.val, by omega⟩ (0 : Fin 1))) = some g
      then h2row V c ⟨(core.val * 10 + j.val) * 5000 + r.val, by omega⟩ o else 0)

/-- Graph `g`'s node count over half `core` of the node rows. -/
def poolCnt (c : Dev nD) (core : Fin 2) (g : Fin 512) : EReal :=
  ∑ j : Fin 10, ∑ r : Fin 5000,
    (if rowIn 512 (V c main_v38 (ix2 ⟨(core.val * 10 + j.val) * 5000 + r.val, by omega⟩ (0 : Fin 1))) = some g
      then (1 : EReal) else 0)

/-- The pooled sums as contents of the [2, 512, 128] result array. -/
abbrev sumArr (c : Dev nD) : S2x512x128.Idx → EReal := fun i => poolSum V c (i 0) (i 1) (i 2)
/-- The counts as contents of the [2, 512, 1] result array. -/
abbrev cntArr (c : Dev nD) : S2x512x1.Idx → EReal := fun i => poolCnt V c (i 0) (i 1)

/-- After the last point of a half the sum accumulator holds, at an entry, the half's pooled sum. -/
theorem acc_sum_last (c : Dev nD) (t : Fin cfg2.N) (h9 : t.val % 10 = 9) (core : Fin 2) (hc : core.val = t.val / 10)
    (g : Fin 512) (o : Fin 128) :
    (acc2 V c t.val t.isLt).1 (ix2 g o) = poolSum V c core g o := by
  obtain ⟨ht, -⟩ := where2 t
  refine (acc_sum V c g o t.val t.isLt).trans ?_
  rw [h9, Finset.sum_range]
  unfold poolSum
  refine Finset.sum_congr rfl fun j _ => ?_
  have hj : j.val < 10 := j.isLt
  have hlt : t.val / 10 * 10 + j.val < 20 := by omega
  unfold tileSum
  rw [dif_pos hlt]
  refine Finset.sum_congr rfl fun r _ => ?_
  have e : (⟨(t.val / 10 * 10 + j.val) * 5000 + r.val, by omega⟩ : Fin 100000)
      = ⟨(core.val * 10 + j.val) * 5000 + r.val, by omega⟩ := Fin.ext (by
        show (t.val / 10 * 10 + j.val) * 5000 + r.val = (core.val * 10 + j.val) * 5000 + r.val
        omega)
  rw [e]

/-- After the last point of a half the count accumulator holds, at an entry, the half's count. -/
theorem acc_cnt_last (c : Dev nD) (t : Fin cfg2.N) (h9 : t.val % 10 = 9) (core : Fin 2) (hc : core.val = t.val / 10)
    (g : Fin 512) :
    (acc2 V c t.val t.isLt).2 (ix2 g (0 : Fin 1)) = poolCnt V c core g := by
  obtain ⟨ht, -⟩ := where2 t
  refine (acc_cnt V c g t.val t.isLt).trans ?_
  rw [h9, Finset.sum_range]
  unfold poolCnt
  refine Finset.sum_congr rfl fun j _ => ?_
  have hj : j.val < 10 := j.isLt
  have hlt : t.val / 10 * 10 + j.val < 20 := by omega
  unfold tileCnt
  rw [dif_pos hlt]
  refine Finset.sum_congr rfl fun r _ => ?_
  have e : (⟨(t.val / 10 * 10 + j.val) * 5000 + r.val, by omega⟩ : Fin 100000)
      = ⟨(core.val * 10 + j.val) * 5000 + r.val, by omega⟩ := Fin.ext (by
        show (t.val / 10 * 10 + j.val) * 5000 + r.val = (core.val * 10 + j.val) * 5000 + r.val
        omega)
  rw [e]

/-- What a point nine modulo ten writes back to the first result is its slab of the pooled sums. -/
theorem flushedSum_eq (c : Dev nD) (t : Fin cfg2.N) (hf : (cfg2.win 6).flush t = true) :
    (dat2 (F := Ideal) V c).flushed 6 t = ((cfg2.win 6).blk t).view.read (Elt Ideal) (sumArr V c) := by
  have h9 : t.val % 10 = 9 := (flush2_6 t).mp hf
  show (cfg2.win 6).cut (grid2.coords t) ((dat2 V c).after 6 t) = _
  rw [after2_6_last V c t h9]
  obtain ⟨ht, -, -, -, -, -, -, -, -, -, -, -, -, e0, e1, e2, -⟩ := where2 t
  funext j
  obtain ⟨u, g, o, rfl⟩ : ∃ (u : Fin 1) (g : Fin 512) (o : Fin 128), j = ix3 u g o := ⟨j 0, j 1, j 2, eq_ix3 j⟩
  have hu : u.val < 1 := u.isLt
  have hi : ((cfg2.win 6).blk t).view.emb (ix3 u g o) = ix3 (⟨t.val / 10, by omega⟩ : Fin 2) g o := by
    funext a; apply Fin.ext
    match a with
    | ⟨0, _⟩ => show win2_6.index t (0 : Fin 3) * 1 + 1 * u.val = t.val / 10; omega
    | ⟨1, _⟩ => show win2_6.index t (1 : Fin 3) * 512 + 1 * g.val = g.val; omega
    | ⟨2, _⟩ => show win2_6.index t (2 : Fin 3) * 128 + 1 * o.val = o.val; omega
  show k2_pay3 (acc2 V c t.val t.isLt).1 (ix3 u g o) = sumArr V c (((cfg2.win 6).blk t).view.emb (ix3 u g o))
  rw [hi]
  unfold k2_pay3
  refine (shapeCast_ab_1ab_apply _ _ u g o).trans ?_
  exact acc_sum_last V c t h9 ⟨t.val / 10, by omega⟩ rfl g o

/-- What a point nine modulo ten writes back to the second result is its slab of the counts. -/
theorem flushedCnt_eq (c : Dev nD) (t : Fin cfg2.N) (hf : (cfg2.win 7).flush t = true) :
    (dat2 (F := Ideal) V c).flushed 7 t = ((cfg2.win 7).blk t).view.read (Elt Ideal) (cntArr V c) := by
  have h9 : t.val % 10 = 9 := (flush2_7 t).mp hf
  show (cfg2.win 7).cut (grid2.coords t) ((dat2 V c).after 7 t) = _
  rw [after2_7_last V c t h9]
  obtain ⟨ht, -, -, -, -, -, -, -, -, -, -, -, -, -, -, -, e0, e1, e2⟩ := where2 t
  funext j
  obtain ⟨u, g, z, rfl⟩ : ∃ (u : Fin 1) (g : Fin 512) (z : Fin 1), j = ix3 u g z := ⟨j 0, j 1, j 2, eq_ix3 j⟩
  have hu : u.val < 1 := u.isLt
  have hz : z.val < 1 := z.isLt
  obtain rfl : z = (0 : Fin 1) := Fin.ext (by show z.val = 0; omega)
  have hi : ((cfg2.win 7).blk t).view.emb (ix3 u g (0 : Fin 1)) = ix3 (⟨t.val / 10, by omega⟩ : Fin 2) g (0 : Fin 1) := by
    funext a; apply Fin.ext
    match a with
    | ⟨0, _⟩ => show win2_7.index t (0 : Fin 3) * 1 + 1 * u.val = t.val / 10; omega
    | ⟨1, _⟩ => show win2_7.index t (1 : Fin 3) * 512 + 1 * g.val = g.val; omega
    | ⟨2, _⟩ => show win2_7.index t (2 : Fin 3) * 1 + 1 * 0 = 0; omega
  show k2_pay4 (acc2 V c t.val t.isLt).2 (ix3 u g (0 : Fin 1)) = cntArr V c (((cfg2.win 7).blk t).view.emb (ix3 u g (0 : Fin 1)))
  rw [hi]
  unfold k2_pay4
  refine (shapeCast_ab_1ab_apply _ _ u g (0 : Fin 1)).trans ?_
  exact acc_cnt_last V c t h9 ⟨t.val / 10, by omega⟩ rfl g

/-- An entry of the first result array is in point `t`'s block iff on each axis its coordinate is in the block's range. -/
theorem mem_blockSum (t : Fin cfg2.N) (i : S2x512x128.Idx) :
    i ∈ ((cfg2.win 6).blk t).view.set
      ↔ ∀ a : Fin 3, win2_6.index t a * S1x512x128.size a ≤ (i a).val ∧ (i a).val < win2_6.index t a * S1x512x128.size a + S1x512x128.size a := by
  show i ∈ ((View.whole main_v40_0).slice (win2_6.rect t)).set ↔ _
  rw [View.set_slice_whole, Rect.mem_set_unit]
  exact Iff.rfl
theorem mem_blockCnt (t : Fin cfg2.N) (i : S2x512x1.Idx) :
    i ∈ ((cfg2.win 7).blk t).view.set
      ↔ ∀ a : Fin 3, win2_7.index t a * S1x512x1.size a ≤ (i a).val ∧ (i a).val < win2_7.index t a * S1x512x1.size a + S1x512x1.size a := by
  show i ∈ ((View.whole main_v40_1).slice (win2_7.rect t)).set ↔ _
  rw [View.set_slice_whole, Rect.mem_set_unit]
  exact Iff.rfl

/-- Slab `s` of a result array is written by point 10·s + 9: the two slabs tile the array. -/
theorem coverSum (i : S2x512x128.Idx) :
    ∃ t : Fin cfg2.N, (cfg2.win 6).flush t = true ∧ i ∈ ((cfg2.win 6).blk t).view.set := by
  have h0 : (i 0).val < 2 := (i 0).isLt
  have h1 : (i 1).val < 512 := (i 1).isLt
  have h2 : (i 2).val < 128 := (i 2).isLt
  let t : Fin cfg2.N := ⟨(i 0).val * 10 + 9, by rw [show cfg2.N = 20 from N_2]; omega⟩
  have tv : t.val = (i 0).val * 10 + 9 := rfl
  obtain ⟨-, -, -, -, -, -, -, -, -, -, -, -, -, e0, e1, e2, -⟩ := where2 t
  refine ⟨t, (flush2_6 t).mpr (by omega), ?_⟩
  rw [mem_blockSum]
  intro a
  match a with
  | ⟨0, _⟩ => show win2_6.index t (0 : Fin 3) * 1 ≤ (i 0).val ∧ (i 0).val < win2_6.index t (0 : Fin 3) * 1 + 1; omega
  | ⟨1, _⟩ => show win2_6.index t (1 : Fin 3) * 512 ≤ (i 1).val ∧ (i 1).val < win2_6.index t (1 : Fin 3) * 512 + 512; omega
  | ⟨2, _⟩ => show win2_6.index t (2 : Fin 3) * 128 ≤ (i 2).val ∧ (i 2).val < win2_6.index t (2 : Fin 3) * 128 + 128; omega
theorem coverCnt (i : S2x512x1.Idx) :
    ∃ t : Fin cfg2.N, (cfg2.win 7).flush t = true ∧ i ∈ ((cfg2.win 7).blk t).view.set := by
  have h0 : (i 0).val < 2 := (i 0).isLt
  have h1 : (i 1).val < 512 := (i 1).isLt
  have h2 : (i 2).val < 1 := (i 2).isLt
  let t : Fin cfg2.N := ⟨(i 0).val * 10 + 9, by rw [show cfg2.N = 20 from N_2]; omega⟩
  have tv : t.val = (i 0).val * 10 + 9 := rfl
  obtain ⟨-, -, -, -, -, -, -, -, -, -, -, -, -, -, -, -, e0, e1, e2⟩ := where2 t
  refine ⟨t, (flush2_7 t).mpr (by omega), ?_⟩
  rw [mem_blockCnt]
  intro a
  match a with
  | ⟨0, _⟩ => show win2_7.index t (0 : Fin 3) * 1 ≤ (i 0).val ∧ (i 0).val < win2_7.index t (0 : Fin 3) * 1 + 1; omega
  | ⟨1, _⟩ => show win2_7.index t (1 : Fin 3) * 512 ≤ (i 1).val ∧ (i 1).val < win2_7.index t (1 : Fin 3) * 512 + 512; omega
  | ⟨2, _⟩ => show win2_7.index t (2 : Fin 3) * 1 ≤ (i 2).val ∧ (i 2).val < win2_7.index t (2 : Fin 3) * 1 + 1; omega

end Val2

/-! ## The two result arrays after the region -/

/-- After the region the first result array holds, at (core, g, o), the sum over the rows of half `core` whose graph
    word names `g` of the second layer's row, column `o`. -/
theorem poolSum_at (c : Dev nD) (core : Fin 2) (g : Fin 512) (o : Fin 128) :
    (dat2 (F := Ideal) V c).arrAt 6 cfg2.N (ix3 core g o)
      = ∑ j : Fin 10, ∑ r : Fin 5000,
          (if rowIn 512 (V c main_v38 (ix2 ⟨(core.val * 10 + j.val) * 5000 + r.val, by omega⟩ (0 : Fin 1))) = some g
            then h2row V c ⟨(core.val * 10 + j.val) * 5000 + r.val, by omega⟩ o else 0) :=
  congrFun ((dat2 (F := Ideal) V c).arrAt_eq_of_cover 6 (Val2.sumArr V c) (fun t hf => Val2.flushedSum_eq V c t hf) Val2.coverSum)
    (ix3 core g o)

/-- After the region the second result array holds, at (core, g, 0), the number of rows of half `core` whose graph
    word names `g`. -/
theorem poolCnt_at (c : Dev nD) (core : Fin 2) (g : Fin 512) :
    (dat2 (F := Ideal) V c).arrAt 7 cfg2.N (ix3 core g (0 : Fin 1))
      = ∑ j : Fin 10, ∑ r : Fin 5000,
          (if rowIn 512 (V c main_v38 (ix2 ⟨(core.val * 10 + j.val) * 5000 + r.val, by omega⟩ (0 : Fin 1))) = some g
            then (1 : EReal) else 0) :=
  congrFun ((dat2 (F := Ideal) V c).arrAt_eq_of_cover 7 (Val2.cntArr V c) (fun t hf => Val2.flushedCnt_eq V c t hf) Val2.coverCnt)
    (ix3 core g (0 : Fin 1))

end Cert.KernelIdeal.Hand

end
-- ==== Proof.Alg.lean ====
/-
  Algebra on the extended reals behind the two first layers. Multiplication distributes over finite sums of real
  numbers but not at the infinities, so the one law that moves a matrix product across the mean over incoming edges
  is stated for real-valued features and weights; the divisor is a count of edges raised to at least one, hence a
  real number not below one. The regrouping of a sum over a tiled index needs only that addition is commutative and
  associative.
-/
import proofs.«400510_j11458972746403_3_alg».proof.Proof.Spec
import Idealize.ShloMosaic.PureOps.Ideal
import Mathlib.Data.EReal.Basic
import Mathlib.Data.EReal.Operations
import Mathlib.Data.EReal.Inv
import Mathlib.Algebra.BigOperators.Fin
import Mathlib.Algebra.BigOperators.Ring.Finset
import Mathlib.Logic.Equiv.Fin.Basic

noncomputable section

namespace Cert.Spec

open scoped BigOperators
open Idealize.ShloMosaic

variable {N E K J O G : Type} [Fintype N] [Fintype E] [Fintype K] [Fintype J] [Fintype O] [Fintype G]
  [DecidableEq N] [DecidableEq G]

/-- The inclusion of the reals commutes with finite sums. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The inclusion of the reals commutes with a choice between a real and zero. -/
theorem coe_ite_zero (c : Prop) [Decidable c] (a : ℝ) :
    ((if c then a else 0 : ℝ) : EReal) = if c then (a : EReal) else 0 := by
  split_ifs <;> simp

/-- The count of edges into a node, raised to at least one, is a real number not below one. -/
theorem deg_real (dst : E → Option N) (n : N) : ∃ d : ℝ, 1 ≤ d ∧ deg dst n = (d : EReal) := by
  refine ⟨max (∑ e : E, if dst e = some n then (1 : ℝ) else 0) 1, le_max_right _ _, ?_⟩
  unfold deg
  rw [EReal.coe_strictMono.monotone.map_max, coe_sum]
  simp only [coe_ite_zero, EReal.coe_one]

/-- With real features and weights, the mean over incoming edges of the projected rows is the projection of the
    mean row: both are the real number (∑ over edges into n, ∑ over k, x(src e, k)·w(k, j)) / deg n. -/
theorem mean_mm (src : E → N) (dst : E → Option N) (x : N → K → EReal) (w : K → J → EReal)
    (hx : ∀ n k, ∃ r : ℝ, x n k = (r : EReal)) (hw : ∀ k j, ∃ r : ℝ, w k j = (r : EReal)) (n : N) (j : J) :
    mean src dst (mm x w) n j = mm (mean src dst x) w n j := by
  obtain ⟨d, hd1, hd⟩ := deg_real dst n
  have hd0 : d ≠ 0 := by
    intro h; rw [h] at hd1; exact absurd hd1 (by norm_num)
  choose xr hxr using hx
  choose wr hwr using hw
  obtain rfl : x = fun n k => (xr n k : EReal) := by funext n k; exact hxr n k
  obtain rfl : w = fun k j => (wr k j : EReal) := by funext k j; exact hwr k j
  simp only [mean, mm, agg, hd, Ideal.div_coe hd0]
  simp only [← EReal.coe_mul, ← coe_sum, ← coe_ite_zero]
  rw [EReal.coe_eq_coe_iff]
  rw [Finset.sum_mul]
  simp only [Finset.sum_mul]
  rw [Finset.sum_comm]
  refine Finset.sum_congr rfl (fun e _ => ?_)
  split_ifs with h
  · rw [Finset.sum_mul]
    refine Finset.sum_congr rfl (fun k _ => ?_)
    ring
  · simp

/-- The two whole computations agree: their first layers agree entry by entry by the law above, and everything after
    the first layer is the same function of it. -/
theorem outProjFirst_eq_outAggFirst (src : E → N) (dst : E → Option N) (seg : N → Option G) (x : N → K → EReal)
    (wl1 wr1 : K → J → EReal) (b1 : J → EReal) (wl2 wr2 : J → O → EReal) (b2 : O → EReal)
    (hx : ∀ n k, ∃ r : ℝ, x n k = (r : EReal)) (hw : ∀ k j, ∃ r : ℝ, wl1 k j = (r : EReal)) :
    outProjFirst src dst seg x wl1 wr1 b1 wl2 wr2 b2 = outAggFirst src dst seg x wl1 wr1 b1 wl2 wr2 b2 := by
  have hfirst : hiddenProjFirst src dst x wl1 wr1 b1 = hiddenAggFirst src dst x wl1 wr1 b1 := by
    funext n j
    unfold hiddenProjFirst hiddenAggFirst
    rw [mean_mm src dst x wl1 hx hw n j]
  unfold outProjFirst outAggFirst
  rw [hfirst]

/-- The flat position of slot `r` of tile `t` lies inside `T` tiles of `R` slots. -/
theorem tile_lt {T R : ℕ} (t : Fin T) (r : Fin R) : t.val * R + r.val < T * R :=
  calc t.val * R + r.val < t.val * R + R := Nat.add_lt_add_left r.isLt _
    _ = (t.val + 1) * R := (Nat.succ_mul _ _).symm
    _ ≤ T * R := Nat.mul_le_mul_right _ t.isLt

/-- A sum over `T · R` flat positions is the sum over tiles of the sums over each tile's slots. -/
theorem sum_tiles {M : Type} [AddCommMonoid M] (T R : ℕ) (f : Fin (T * R) → M) :
    ∑ n : Fin (T * R), f n = ∑ t : Fin T, ∑ r : Fin R, f ⟨t.val * R + r.val, tile_lt t r⟩ := by
  rw [← Fintype.sum_prod_type']
  refine (Fintype.sum_equiv finProdFinEquiv _ _ (fun p => ?_)).symm
  refine congrArg f (Fin.ext ?_)
  simp only [finProdFinEquiv_apply_val]
  rw [Nat.mul_comm, Nat.add_comm]

end Cert.Spec

end
-- ==== Proof.KiValue.lean ====
/-
  The kernel program's result, read at an entry, is the specification with the first layer projecting first. The last
  stretch of host operations adds the two cores' partial sums and divides by the two cores' counts (at least one); each
  core's partial sum at (g, o) is, over its ten tiles of 5000 rows, the sum of the second-layer rows whose graph word
  names g; the rows' inputs are what the earlier stretches and regions left — the mean of the hidden features, the hidden
  features, the weights, the bias. Core by core, tile by tile, row by row is every node once.
-/
import proofs.«400510_j11458972746403_3_alg».proof.Proof.KiHost
import proofs.«400510_j11458972746403_3_alg».proof.Proof.KiVal2
import proofs.«400510_j11458972746403_3_alg».proof.Proof.Alg

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Cert.Graph Cert.Spec
open scoped BigOperators

variable (m : (ℓ : Loc nD τ sig) → Buf (Elt Ideal) ℓ) (c : Dev nD)

/-- The hidden features, as a function of the launch arrays. -/
abbrev hid : Fin 100000 → Fin 64 → EReal :=
  hiddenProjFirst (src (inEi m c)) (dst (inEi m c)) (at2 (inX m c)) (at2 (inWl1 m c)) (at2 (inWr1 m c)) (at1 (inB1 m c))

/-- A second-layer row, from what region 2 finds, is the specification's second layer of the hidden features. -/
theorem row_eq (n : Fin 100000) (o : Fin 128) :
    h2row (U5 m) c n o = second (src (inEi m c)) (dst (inEi m c)) (hid m c) (at2 (inWl2 m c)) (at2 (inWr2 m c)) (at1 (inB2 m c)) n o := by
  unfold h2row second mm
  have h1 : ∀ f : Fin 64, at2 (U5 m c main_v37 : S100000x64.Idx → EReal) n f * at2 (U5 m c main_arg4 : S64x128.Idx → EReal) f o
      = mean (src (inEi m c)) (dst (inEi m c)) (hid m c) n f * at2 (inWl2 m c) f o := fun f => by
    rw [show (U5 m c main_v37 : S100000x64.Idx → EReal) = W5 m c main_v37 from rfl, mean2_at m c n f,
      show (U5 m c main_arg4 : S64x128.Idx → EReal) = W5 m c main_arg4 from rfl, W5_arg4 m c]
  have h2 : ∀ f : Fin 64, at2 (U5 m c main_v25 : S100000x64.Idx → EReal) n f * at2 (U5 m c main_arg5 : S64x128.Idx → EReal) f o
      = hid m c n f * at2 (inWr2 m c) f o := fun f => by
    rw [show (U5 m c main_v25 : S100000x64.Idx → EReal) = W5 m c main_v25 from rfl, hidden_W5 m c n f,
      show (U5 m c main_arg5 : S64x128.Idx → EReal) = W5 m c main_arg5 from rfl, W5_arg5 m c]
  have h3 : at2 (U5 m c main_v39 : S1x128.Idx → EReal) (0 : Fin 1) o = at1 (inB2 m c) o := W5_v39_at m c 0 o
  rw [Finset.sum_congr rfl (fun f _ => h1 f), Finset.sum_congr rfl (fun f _ => h2 f), h3]

/-- A node's graph word, as region 2 finds it, names the node's graph. -/
theorem word_eq (n : Fin 100000) :
    rowIn 512 ((U5 m c main_v38 : S100000x1.Idx → BitVec 32) (ix2 n (0 : Fin 1))) = seg (inBi m c) n := by
  rw [show (U5 m c main_v38 : S100000x1.Idx → BitVec 32) = W5 m c main_v38 from rfl, W5_v38_at m c n 0]
  rfl

/-- Core by core, tile by tile, row by row is every node once. -/
theorem sum_cores (F : Fin 100000 → EReal) :
    ∑ k : Fin 2, ∑ j : Fin 10, ∑ r : Fin 5000, F ⟨(k.val * 10 + j.val) * 5000 + r.val, by omega⟩ = ∑ n : Fin 100000, F n := by
  have e1 := sum_tiles (M := EReal) 20 5000 (fun n : Fin (20 * 5000) => F ⟨n.val, n.isLt⟩)
  have e2 := sum_tiles (M := EReal) 2 10 (fun t : Fin (2 * 10) => ∑ r : Fin 5000, F ⟨t.val * 5000 + r.val, by have := t.isLt; omega⟩)
  calc ∑ k : Fin 2, ∑ j : Fin 10, ∑ r : Fin 5000, F ⟨(k.val * 10 + j.val) * 5000 + r.val, by omega⟩
      = ∑ t : Fin (2 * 10), ∑ r : Fin 5000, F ⟨t.val * 5000 + r.val, by have := t.isLt; omega⟩ := e2.symm
    _ = ∑ n : Fin (20 * 5000), F ⟨n.val, n.isLt⟩ := e1.symm
    _ = ∑ n : Fin 100000, F n := rfl

/-- The two cores' partial sums at (g, o) add up to the sum over every node of graph g of its second-layer row. -/
theorem sums_eq (g : Fin 512) (o : Fin 128) :
    poolSums m c (ix3 (0 : Fin 2) g o) + poolSums m c (ix3 (1 : Fin 2) g o)
      = ∑ n : Fin 100000, if seg (inBi m c) n = some g then
          second (src (inEi m c)) (dst (inEi m c)) (hid m c) (at2 (inWl2 m c)) (at2 (inWr2 m c)) (at1 (inB2 m c)) n o else 0 := by
  have hk : ∀ k : Fin 2, poolSums m c (ix3 k g o) = ∑ j : Fin 10, ∑ r : Fin 5000,
      (fun n : Fin 100000 => if seg (inBi m c) n = some g then
          second (src (inEi m c)) (dst (inEi m c)) (hid m c) (at2 (inWl2 m c)) (at2 (inWr2 m c)) (at1 (inB2 m c)) n o else 0)
        ⟨(k.val * 10 + j.val) * 5000 + r.val, by omega⟩ := fun k => by
    rw [show poolSums m c = (dat2 (F := Ideal) (U5 m) c).arrAt 6 cfg2.N from W6_arr m c 6, poolSum_at (U5 m) c k g o]
    refine Finset.sum_congr rfl fun j _ => Finset.sum_congr rfl fun r _ => ?_
    rw [word_eq m c, row_eq m c]
  rw [← sum_cores, Fin.sum_univ_two, hk 0, hk 1]

/-- The two cores' counts at g add up to the number of nodes of graph g. -/
theorem counts_eq (g : Fin 512) :
    poolCounts m c (ix3 (0 : Fin 2) g (0 : Fin 1)) + poolCounts m c (ix3 (1 : Fin 2) g (0 : Fin 1))
      = ∑ n : Fin 100000, if seg (inBi m c) n = some g then (1 : EReal) else 0 := by
  have hk : ∀ k : Fin 2, poolCounts m c (ix3 k g (0 : Fin 1)) = ∑ j : Fin 10, ∑ r : Fin 5000,
      (fun n : Fin 100000 => if seg (inBi m c) n = some g then (1 : EReal) else 0)
        ⟨(k.val * 10 + j.val) * 5000 + r.val, by omega⟩ := fun k => by
    rw [show poolCounts m c = (dat2 (F := Ideal) (U5 m) c).arrAt 7 cfg2.N from W6_arr m c 7, poolCnt_at (U5 m) c k g]
    refine Finset.sum_congr rfl fun j _ => Finset.sum_congr rfl fun r _ => ?_
    rw [word_eq m c]
  rw [← sum_cores, Fin.sum_univ_two, hk 0, hk 1]

/-- THE KERNEL PROGRAM'S RESULT at entry (g, o). -/
theorem kernel_value (g : Fin 512) (o : Fin 128) :
    at2 (W7 m c main_v54 : S512x128.Idx → EReal) g o
      = outProjFirst (src (inEi m c)) (dst (inEi m c)) (seg (inBi m c)) (at2 (inX m c)) (at2 (inWl1 m c)) (at2 (inWr1 m c))
          (at1 (inB1 m c)) (at2 (inWl2 m c)) (at2 (inWr2 m c)) (at1 (inB2 m c)) g o := by
  rw [final_at m c g o, sums_eq m c g o, counts_eq m c g]
  rfl

end Cert.KernelIdeal.Hand

end
-- ==== Proof.Finite.lean ====
/-
  The precondition "every float input is finite", read back. The predicate is a conjunction of seven
  tests, one per float argument, each of the form "all entries x of the argument satisfy |x| < +∞", where the
  absolute value of an extended real x is max x (-x) and +∞ is what the f32 pattern 0x7F800000 denotes. An
  extended real with |x| < +∞ is neither +∞ nor -∞, hence a real number. This module extracts that fact for the
  first two arguments.
-/
import proofs.«400510_j11458972746403_3_alg».proof.Pre_finite_inputs
import Idealize.ShloMosaic.PureOps.Ideal
import Idealize.ShloMosaic.PureOps.Ideal.Laws
import Idealize.ShloMosaic.Lib.ReduceAll
import Idealize.ShloMosaic.Lib.ValueIdx
import Mathlib.Data.EReal.Basic

noncomputable section

namespace Cert.Pre_finite_inputs.Decode

open Idealize.ShloMosaic

/-- The rank-0 shape has exactly one index: an index is a function out of the empty type of axes. -/
instance : Subsingleton Cert.Pre_finite_inputs.S_.Idx := ⟨fun a b => funext fun d => d.elim0⟩

/-- The f32 pattern with all exponent bits set and a zero fraction denotes +∞. -/
theorem inf_pattern_eq_top : Ideal.ofBits .f32 0x7F800000#32 = (⊤ : EReal) := by
  simp [Ideal.ofBits, Ideal.ieee]

/-- An extended real whose absolute value max x (-x) lies strictly below +∞ is a real number:
    at -∞ the negation is +∞, at +∞ the value itself is, and neither is below +∞. -/
theorem real_of_abs_lt_top (x : EReal) (hx : max x (-x) < ⊤) : ∃ r : ℝ, x = (r : EReal) := by
  induction x using EReal.rec with
  | bot => simp at hx
  | coe r => exact ⟨r, rfl⟩
  | top => simp at hx

/-- One entry's test: if the comparison |x| < +∞ came out true, then x is a real number. -/
theorem real_of_test (x : Ideal .f32)
    (hx : FloatOps.cmpf .olt (FloatOps.hostAbsf x) (FloatOps.ofBits (F := Ideal) .f32 0x7F800000#32) = 1#1) :
    ∃ r : ℝ, x = (r : EReal) := by
  have hx' : Ideal.cmp .olt (max (x : EReal) (-(x : EReal))) (Ideal.ofBits .f32 0x7F800000#32) = 1#1 := hx
  rw [inf_pattern_eq_top] at hx'
  unfold Ideal.cmp at hx'
  refine real_of_abs_lt_top x ?_
  by_contra hn
  simp [hn] at hx'

theorem real_of_pre [Cert.Pre_finite_inputs.Facts]
    (a0 : FVec Ideal Cert.Pre_finite_inputs.S100000x128 .f32)
    (a1 a2 : FVec Ideal Cert.Pre_finite_inputs.S128x64 .f32)
    (a3 : FVec Ideal Cert.Pre_finite_inputs.S64 .f32)
    (a4 a5 : FVec Ideal Cert.Pre_finite_inputs.S64x128 .f32)
    (a6 : FVec Ideal Cert.Pre_finite_inputs.S128 .f32)
    (a7 : IVec Cert.Pre_finite_inputs.S2x1600000 32)
    (a8 : IVec Cert.Pre_finite_inputs.S100000 32)
    (h : Cert.Pre_finite_inputs.fn (F := Ideal) a0 a1 a2 a3 a4 a5 a6 a7 a8 = fun _ => 1#1) :
    (∀ i, ∃ r : ℝ, a0 i = (r : EReal)) ∧ (∀ i, ∃ r : ℝ, a1 i = (r : EReal)) := by
  have h0 := congrFun h ValueIdx.ix0
  dsimp only [Cert.Pre_finite_inputs.fn, Cert.Pre_finite_inputs.fn_part1] at h0
  -- the conjunction is nested to the left: peel the five outer tests, keeping the innermost pair
  obtain ⟨h6, _⟩ := IntOp.andi_eq_one.1 h0
  obtain ⟨h5, _⟩ := IntOp.andi_eq_one.1 h6
  obtain ⟨h4, _⟩ := IntOp.andi_eq_one.1 h5
  obtain ⟨h3, _⟩ := IntOp.andi_eq_one.1 h4
  obtain ⟨h2, _⟩ := IntOp.andi_eq_one.1 h3
  obtain ⟨t0, t1⟩ := IntOp.andi_eq_one.1 h2
  refine ⟨fun i => ?_, fun i => ?_⟩
  · exact real_of_test (a0 i) (Host.reduce_andi_all _ _ _ _ _ t0 i)
  · exact real_of_test (a1 i) (Host.reduce_andi_all _ _ _ _ _ t1 i)

end Cert.Pre_finite_inputs.Decode

end
-- ==== Proof.lean ====
/-
  Three claims about a two-layer graph convolution with mean aggregation followed by a per-graph average. Each program
  runs to the end, faults nowhere and leaves its argument arrays unchanged: the kernel program is a sequence of host
  operations and three kernel regions, entered one after the other with the buffers at named contents; the reference is
  host operations only. No operation of the kernel was rewritten when it was read over the extended reals, so there is
  nothing to preserve. And over the extended reals, from finite inputs, both programs end with the same array: they
  differ only in the first layer, where one aggregates the projected neighbour features and divides by the degree and
  the other divides the aggregate and projects — the same real number when every entry is finite and the degree is at
  least one.
-/
import proofs.«400510_j11458972746403_3_alg».proof.Defs
import proofs.«400510_j11458972746403_3_alg».proof.Proof.KbRun
import proofs.«400510_j11458972746403_3_alg».proof.Proof.KiRun
import proofs.«400510_j11458972746403_3_alg».proof.Proof.RefVal
import proofs.«400510_j11458972746403_3_alg».proof.Proof.KiValue
import proofs.«400510_j11458972746403_3_alg».proof.Proof.Finite
import proofs.«400510_j11458972746403_3_alg».proof.Proof.Alg
import proofs.«400510_j11458972746403_3_alg».proof.Proof.Gen.Kernel
import proofs.«400510_j11458972746403_3_alg».proof.Proof.Gen.KernelIdeal
import proofs.«400510_j11458972746403_3_alg».proof.Proof.Gen.ReferenceIdeal
import proofs.«400510_j11458972746403_3_alg».proof.Proof.Gen.Pre_finite_inputs
import Idealize.ShloMosaic.Adequacy
import Idealize.ShloMosaic.Init

noncomputable section

namespace Cert.Proof

open Idealize.ShloMosaic Idealize.SL.Sem

/-- The kernel program as printed runs and keeps its arguments. -/
theorem frame_k : Cert.frame_Kernel := fun m ρ _ => Cert.Kernel.Hand.frame_all (F := Bits) m ρ

/-- The kernel program over the extended reals runs and keeps its arguments. -/
theorem frame_ki : Cert.frame_KernelIdeal := fun m ρ _ => Cert.KernelIdeal.Hand.frame_all (F := Ideal) m ρ

/-- The reference runs and keeps its arguments: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments, with every float input finite: the kernel program ends with its result at
    the last boundary's contents of the result buffer, the reference with its result at its operations' composed term;
    read at an entry both are the specification — the kernel's with the first layer projecting first, the reference's
    with it aggregating first — and the two specifications agree because the node features and the first layer's left
    weights are real-valued. -/
theorem algebraic : Cert.algebraic_KernelIdeal_ReferenceIdeal := by
  intro m g m' g' hpre hagree
  refine ⟨fun c => Cert.KernelIdeal.Hand.W7 (F := Ideal) m c (Proc.devRef .tc Cert.KernelIdeal.main_v54), ?_, ?_⟩
  · exact (θ_run Cert.KernelIdeal.defs _ _).mono (fun r h c =>
      ⟨h c _ (Cert.KernelIdeal.Hand.mem_uc Cert.KernelIdeal.main_v54 (by decide)),
       (h c _ (Cert.KernelIdeal.Hand.mem_uc Cert.KernelIdeal.main_arg0 (by decide))).trans (Cert.KernelIdeal.Hand.W7_main_arg0 m c),
       (h c _ (Cert.KernelIdeal.Hand.mem_uc Cert.KernelIdeal.main_arg1 (by decide))).trans (Cert.KernelIdeal.Hand.W7_main_arg1 m c),
       (h c _ (Cert.KernelIdeal.Hand.mem_uc Cert.KernelIdeal.main_arg2 (by decide))).trans (Cert.KernelIdeal.Hand.W7_main_arg2 m c),
       (h c _ (Cert.KernelIdeal.Hand.mem_uc Cert.KernelIdeal.main_arg3 (by decide))).trans (Cert.KernelIdeal.Hand.W7_main_arg3 m c),
       (h c _ (Cert.KernelIdeal.Hand.mem_uc Cert.KernelIdeal.main_arg4 (by decide))).trans (Cert.KernelIdeal.Hand.W7_main_arg4 m c),
       (h c _ (Cert.KernelIdeal.Hand.mem_uc Cert.KernelIdeal.main_arg5 (by decide))).trans (Cert.KernelIdeal.Hand.W7_main_arg5 m c),
       (h c _ (Cert.KernelIdeal.Hand.mem_uc Cert.KernelIdeal.main_arg6 (by decide))).trans (Cert.KernelIdeal.Hand.W7_main_arg6 m c),
       (h c _ (Cert.KernelIdeal.Hand.mem_uc Cert.KernelIdeal.main_arg7 (by decide))).trans (Cert.KernelIdeal.Hand.W7_main_arg7 m c),
       (h c _ (Cert.KernelIdeal.Hand.mem_uc Cert.KernelIdeal.main_arg8 (by decide))).trans (Cert.KernelIdeal.Hand.W7_main_arg8 m c)⟩)
      (Cert.KernelIdeal.Hand.run_all (F := Ideal) m g)
  · refine (θ_run Cert.ReferenceIdeal.defs _ _).mono (fun r h c => ⟨(h c).1.trans ?_, (h c).2⟩)
      (Cert.ReferenceIdeal.Value.run (F := Ideal) m' g')
    rw [Cert.ReferenceIdeal.Read.val_main_v70_eq]
    obtain ⟨h0, h1, h2, h3, h4, h5, h6, h7, h8⟩ := hagree c
    rw [h0, h1, h2, h3, h4, h5, h6, h7, h8]
    funext i
    obtain ⟨p, q, rfl⟩ : ∃ (p : Fin 512) (q : Fin 128), i = Idealize.ShloMosaic.ValueIdx.ix2 p q :=
      ⟨i 0, i 1, Idealize.ShloMosaic.ValueIdx.eq_ix2 i⟩
    obtain ⟨hx, hw⟩ := Cert.Pre_finite_inputs.Decode.real_of_pre _ _ _ _ _ _ _ _ _ (hpre c)
    rw [Cert.ReferenceIdeal.RefValue.ref_value]
    refine Eq.trans ?_ (Cert.KernelIdeal.Hand.kernel_value m c p q).symm
    exact (congrFun (congrFun (Cert.Spec.outProjFirst_eq_outAggFirst _ _ _ _ _ _ _ _ _ _
      (fun n k => hx (Idealize.ShloMosaic.ValueIdx.ix2 n k)) (fun k j => hw (Idealize.ShloMosaic.ValueIdx.ix2 k j))) p) q).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
